-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x512 : Shape := ⟨3, ![2048, 2, 512]⟩
abbrev S2048x19 : Shape := ⟨2, ![2048, 19]⟩
abbrev S_ : Shape := ⟨0, ![]⟩

class Facts : Prop where
  bcast_S_S2048x2x512 : S_.BroadcastsInDim S2048x2x512 (![] : Fin 0 → Fin S2048x2x512.rank)
  reducesTo_S2048x2x512_S_d0_1_2 : S2048x2x512.ReducesTo [0, 1, 2] S_
  h_S_ : 0 < S_.numel

variable [Facts]

def fn {F : FTy → Type} [FloatOps F] (main_arg0 : FVec F S2048x2x512 .f32) (main_arg1 : IVec S2048x19 32) : IVec S_ 1 :=
  let main_v0 : FVec F S2048x2x512 .f32 := Host.absf main_arg0
  let main_cst : FVec F S_ .f32 := constant S_ .f32 0x7F800000#32
  let main_v1 : FVec F S2048x2x512 .f32 := broadcastInDim S2048x2x512 ![] bcast_S_S2048x2x512 main_cst
  let main_v2 : IVec S2048x2x512 1 := cmpf .olt main_v0 main_v1
  let main_c : IVec S_ 1 := constantI S_ 1 1#1
  let main_v3 : IVec S_ 1 := (fun x v => Host.reduce IntOp.andi x v reducesTo_S2048x2x512_S_d0_1_2 h_S_) main_v2 main_c
  main_v3
-- ==== Kernel.lean ====
abbrev S2048x2x512 : Shape := ⟨3, ![2048, 2, 512]⟩
abbrev S2048x19 : Shape := ⟨2, ![2048, 19]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S19x2048 : Shape := ⟨2, ![19, 2048]⟩
abbrev S2x2048x512 : Shape := ⟨3, ![2, 2048, 512]⟩
abbrev S4096x512 : Shape := ⟨2, ![4096, 512]⟩
abbrev S4096x1 : Shape := ⟨2, ![4096, 1]⟩
abbrev S512x512 : Shape := ⟨2, ![512, 512]⟩
abbrev S512x1 : Shape := ⟨2, ![512, 1]⟩
abbrev S512 : Shape := ⟨1, ![512]⟩

abbrev nBuf : Space → Nat
  | .hbm => 26
  | .vmem => 12
  | .smem => 0
  | _ => 0

abbrev bufTy : (tb : Table) → Fin (tcTables nBuf tb) → BufTy
  | .hbm, ⟨0, _⟩ => ⟨S2048x2x512, .f32⟩
  | .hbm, ⟨1, _⟩ => ⟨S2048x19, .i32⟩
  | .hbm, ⟨2, _⟩ => ⟨S2048x19, .f32⟩
  | .hbm, ⟨3, _⟩ => ⟨S2048x19, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S2048x1, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S19x2048, .f32⟩
  | .hbm, ⟨16, _⟩ => ⟨S2048x2048, .f32⟩
  | .hbm, ⟨17, _⟩ => ⟨S2048x2048, .f32⟩
  | .hbm, ⟨18, _⟩ => ⟨S2x2048x512, .f32⟩
  | .hbm, ⟨19, _⟩ => ⟨S4096x512, .f32⟩
  | .hbm, ⟨20, _⟩ => ⟨S4096x512, .bf16⟩
  | .hbm, ⟨21, _⟩ => ⟨S4096x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S2048x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v66 : BitVec 1 := Scalar.cmpi .eq arg1 c7_i32
  let v67 : BitVec 32 := Scalar.extui v66
  let c0_i32_32 : BitVec 32 := 0#32
  let v68 : BitVec 1 := Scalar.cmpi .ne v67 c0_i32_32
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let c0_i32_4 : BitVec 32 := 0#32
  let v10 : BitVec 1 := Scalar.cmpi .eq c4_i32_3 c0_i32_4
  let c1_i32_5 : BitVec 32 := 1#32
  let v11 : BitVec 32 := Scalar.select v10 c1_i32_5 c4_i32_3
  let v12 : BitVec 32 := Scalar.remsi arg1 v11
  let c0_i32_6 : BitVec 32 := 0#32
  let v13 : BitVec 1 := Scalar.cmpi .ne v12 c0_i32_6
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let v17 : BitVec 1 := Scalar.andi v16 v13
  let v18 : BitVec 32 := Scalar.addi v12 v11
  let v19 : BitVec 32 := Scalar.select v17 v18 v12
  let c0_i32_9 : BitVec 32 := 0#32
  ![v9.toNat, v19.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S2048x19_S2048_d1 : S2048x19.ReducesTo [1] S2048
  h_S_ : 0 < S_.numel
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  transposes_S2048x19_S19x2048_1_0 : S2048x19.Transposes [1, 0] S19x2048
  transposes_S2048x2x512_S2x2048x512_1_0_2 : S2048x2x512.Transposes [1, 0, 2] S2x2048x512
  shapeCasts_S2x2048x512_S4096x512 : S2x2048x512.ShapeCasts S4096x512
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  iota_S512x512_d0_w32 : S512x512.Iotas .tc 32 [0]
  iota_S512x512_d1_w32 : S512x512.Iotas .tc 32 [1]
  natLt_1_32 : 1 < 32
  reduces_S512x512_S512 : S512x512.Reduces [1] S512
  shapeCasts_S512_S512x1 : S512.ShapeCasts S512x1
  broadcasts_S512x1_S512x512 : S512x1.Broadcasts S512x512
  reducesTo_S4096x1_S_d0_1 : S4096x1.ReducesTo [0, 1] S_
  dot_S2048x19_S19x2048_S2048x2048_1_0_0_1_n_n_wf : DotDims.WF S2048x19 S19x2048 S2048x2048 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .bf16 = 32 ∨ (Rect.block (s := S4096x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x2048.size a
  hwx0_2 : ∀ i : grid0.Coords, EltTy.bits .f32 = 32 ∨ (Rect.block (s := S2048x2048) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)

variable [Facts₀]

def dot_S2048x19_S19x2048_S2048x2048_1_0_0_1_n_n : DotDims S2048x19 S19x2048 S2048x2048 where
  lhsContracting := [1]
  rhsContracting := [0]
  lhsNonContracting := [0]
  rhsNonContracting := [1]
  lhsBatch := []
  rhsBatch := []
  wf := dot_S2048x19_S19x2048_S2048x2048_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v14) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x2x512 : Shape := ⟨3, ![2048, 2, 512]⟩
abbrev S2048x19 : Shape := ⟨2, ![2048, 19]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S19x2048 : Shape := ⟨2, ![19, 2048]⟩
abbrev S2x2048x512 : Shape := ⟨3, ![2, 2048, 512]⟩
abbrev S4096x512 : Shape := ⟨2, ![4096, 512]⟩
abbrev S512x4096 : Shape := ⟨2, ![512, 4096]⟩
abbrev S4096x4096 : Shape := ⟨2, ![4096, 4096]⟩
abbrev S4096 : Shape := ⟨1, ![4096]⟩
abbrev S4096x1 : Shape := ⟨2, ![4096, 1]⟩
abbrev S1x2048x1x2048 : Shape := ⟨4, ![1, 2048, 1, 2048]⟩
abbrev S2x2048x2x2048 : Shape := ⟨4, ![2, 2048, 2, 2048]⟩
abbrev S2x2048 : Shape := ⟨2, ![2, 2048]⟩

abbrev nBuf : Space → Nat
  | .hbm => 66
  | .vmem => 0
  | .smem => 0
  | _ => 0

abbrev bufTy : (tb : Table) → Fin (tcTables nBuf tb) → BufTy
  | .hbm, ⟨0, _⟩ => ⟨S2048x2x512, .f32⟩
  | .hbm, ⟨1, _⟩ => ⟨S2048x19, .i32⟩
  | .hbm, ⟨2, _⟩ => ⟨S2048x19, .f32⟩
  | .hbm, ⟨3, _⟩ => ⟨S2048x19, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S2048x1, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S19x2048, .f32⟩
  | .hbm, ⟨16, _⟩ => ⟨S2048x2048, .f32⟩
  | .hbm, ⟨17, _⟩ => ⟨S2048x2048, .f32⟩
  | .hbm, ⟨18, _⟩ => ⟨S2x2048x512, .f32⟩
  | .hbm, ⟨19, _⟩ => ⟨S4096x512, .f32⟩
  | .hbm, ⟨20, _⟩ => ⟨S512x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x4096, .f32⟩
  | .hbm, ⟨29, _⟩ => ⟨S4096x4096, .f32⟩
  | .hbm, ⟨30, _⟩ => ⟨S1x2048x1x2048, .f32⟩
  | .hbm, ⟨31, _⟩ => ⟨S2x2048x2x2048, .f32⟩
  | .hbm, ⟨32, _⟩ => ⟨S4096x4096, .f32⟩
  | .hbm, ⟨33, _⟩ => ⟨S4096x4096, .i32⟩
  | .hbm, ⟨34, _⟩ => ⟨S4096x4096, .i32⟩
  | .hbm, ⟨35, _⟩ => ⟨S_, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x1, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S4096, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S2x2048, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S2048x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩

abbrev nD : Nat := 1
abbrev τ : Topo := Topo.v7x

variable {F : FTy → Type} [FloatOps F]

class Facts₀ : Prop where
  reducesTo_S2048x19_S2048_d1 : S2048x19.ReducesTo [1] S2048
  h_S_ : 0 < S_.numel
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  transposes_S2048x19_S19x2048_1_0 : S2048x19.Transposes [1, 0] S19x2048
  transposes_S2048x2x512_S2x2048x512_1_0_2 : S2048x2x512.Transposes [1, 0, 2] S2x2048x512
  shapeCasts_S2x2048x512_S4096x512 : S2x2048x512.ShapeCasts S4096x512
  transposes_S4096x512_S512x4096_1_0 : S4096x512.Transposes [1, 0] S512x4096
  bcast_S_S4096x4096 : S_.BroadcastsInDim S4096x4096 (![] : Fin 0 → Fin S4096x4096.rank)
  reducesTo_S4096x4096_S4096_d1 : S4096x4096.ReducesTo [1] S4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  shapeCasts_S2048x2048_S1x2048x1x2048 : S2048x2048.ShapeCasts S1x2048x1x2048
  bcast_S1x2048x1x2048_S2x2048x2x2048_0_1_2_3 : S1x2048x1x2048.BroadcastsInDim S2x2048x2x2048 (![0, 1, 2, 3] : Fin 4 → Fin S2x2048x2x2048.rank)
  shapeCasts_S2x2048x2x2048_S4096x4096 : S2x2048x2x2048.ShapeCasts S4096x4096
  bcast_S_S4096 : S_.BroadcastsInDim S4096 (![] : Fin 0 → Fin S4096.rank)
  shapeCasts_S4096_S2x2048 : S4096.ShapeCasts S2x2048
  reducesTo_S2x2048_S_d0_1 : S2x2048.ReducesTo [0, 1] S_
  dot_S2048x19_S19x2048_S2048x2048_1_0_0_1_n_n_wf : DotDims.WF S2048x19 S19x2048 S2048x2048 [1] [0] [0] [1] [] []
  dot_S4096x512_S512x4096_S4096x4096_1_0_0_1_n_n_wf : DotDims.WF S4096x512 S512x4096 S4096x4096 [1] [0] [0] [1] [] []

variable [Facts₀]

def dot_S2048x19_S19x2048_S2048x2048_1_0_0_1_n_n : DotDims S2048x19 S19x2048 S2048x2048 where
  lhsContracting := [1]
  rhsContracting := [0]
  lhsNonContracting := [0]
  rhsNonContracting := [1]
  lhsBatch := []
  rhsBatch := []
  wf := dot_S2048x19_S19x2048_S2048x2048_1_0_0_1_n_n_wf
def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.K.Step.lean ====
/-
  One grid point of the kernel as pure functions of what it reads: the two feature blocks `q` (the
  row tile) and `k` (the column tile), the similarity block `w`, and the four running columns it
  keeps between points (maximum, rescaled sum of exponentials, weighted sum of logits, sum of weights).
-/
import proofs.«429412_j87256555585551_1_alg».proof.Proof.Gen.Kernel.Skeleton

noncomputable section

namespace Cert.Kernel.Hand

open Cert.Kernel Cert.Kernel.Gen Idealize.ShloMosaic Idealize.SL.Sem

variable {F : FTy → Type} [FloatOps F]

/-- The point is the first of its row of the grid: the running columns are reset. -/
abbrev condFirst (i : grid0.Coords) : Prop :=
  (Scalar.cmpi .ne (Scalar.extui (Scalar.cmpi .eq (BitVec.ofNat 32 (i 1).val) 0#32)) 0#32) = 1#1
/-- The point is the last of its row of the grid: the row tile's losses are stored. -/
abbrev condLast (i : grid0.Coords) : Prop := k0_cond2 i = 1#1

/-- The running maximum after the point. -/
def stepM (q k : Vec F S512x512 .bf16) (s6 : Vec F S512x1 .f32) : Vec F S512x1 .f32 :=
  k0_pay2 (k0_pay13 q k s6)
/-- The rescaled sum of exponentials after the point. -/
def stepSe (i : grid0.Coords) (q k : Vec F S512x512 .bf16) (s6 s7 : Vec F S512x1 .f32) : Vec F S512x1 .f32 :=
  k0_pay1 (k0_pay14 q k s6 s6 s7) (k0_pay15 i q k s6)
/-- The weighted sum of logits after the point. -/
def stepWs (i : grid0.Coords) (q k : Vec F S512x512 .bf16) (w : Vec F S512x512 .f32) (s8 : Vec F S512x1 .f32) : Vec F S512x1 .f32 :=
  k0_pay4 (k0_pay11 q k) (k0_pay12 (F := F) i) w s8
/-- The sum of weights after the point. -/
def stepMs (i : grid0.Coords) (w : Vec F S512x512 .f32) (s9 : Vec F S512x1 .f32) : Vec F S512x1 .f32 :=
  k0_pay5 (k0_pay12 (F := F) i) w s9
/-- The row tile's losses from the four columns. -/
def outRows (m se ws ms : Vec F S512x1 .f32) : Vec F S512x1 .f32 := k0_pay6 ws ms m se

/-- The four columns as the reset leaves them. -/
abbrev resetM : Vec F S512x1 .f32 := k0_pay7 (F := F)
abbrev resetSe : Vec F S512x1 .f32 := k0_pay8 (F := F)
abbrev resetWs : Vec F S512x1 .f32 := k0_pay9 (F := F)
abbrev resetMs : Vec F S512x1 .f32 := k0_pay10 (F := F)

end Cert.Kernel.Hand

end
-- ==== Proof.K.Base.lean ====
/-
  What every part of the kernel's frame is stated over: the contents the region finds after the host
  operations before it, the windows' blocks, at which grid points the running columns are reset and at
  which the losses are stored, and the staging and scratch memrefs at a point.
-/
import proofs.«429412_j87256555585551_1_alg».proof.Proof.Gen.Kernel.Launch
import proofs.«429412_j87256555585551_1_alg».proof.Proof.Gen.Kernel.Points
import proofs.«429412_j87256555585551_1_alg».proof.Proof.K.Step
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: after the host operations before it. -/
abbrev V0 (c : Dev nD) : Valuation τ sig (Elt F) := StableHlo.after (List.flatten [hostOps0, hostOps0_1, hostOps0_2]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions over the grid -/

/-- The running columns are reset at the points ≡ 0 (mod 8). -/
theorem hcondFirst : ∀ t : Fin cfg0.N, condFirst (grid0.coords t) ↔ t.val % 8 = 0 :=
  (by decide +kernel : ∀ t : Fin grid0.N, condFirst (grid0.coords t) ↔ t.val % 8 = 0)
/-- The losses are stored at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-- The inputs are never idle. -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- The output is idle, and not written back, except where the losses are stored. -/
theorem idleAt3 : ∀ t : Fin cfg0.N, ¬condLast (grid0.coords t) → cfg0.idle 3 (grid0.coords t) = true := by decide +kernel
theorem noFlush3 : ∀ t : Fin cfg0.N, ¬condLast (grid0.coords t) → (cfg0.win 3).flush t = false := by decide +kernel
theorem liveAt3 : ∀ t : Fin cfg0.N, condLast (grid0.coords t) → cfg0.idle 3 (grid0.coords t) = false := by decide +kernel

/-! ## The memrefs at a point -/

abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
/-- The four running columns: whole scoped buffers of the kernel's own. -/
abbrev scM : Memref sig .tc .vmem S512x1 .f32 := Memref.whole cc0_scratch0
abbrev scSe : Memref sig .tc .vmem S512x1 .f32 := Memref.whole cc0_scratch1
abbrev scWs : Memref sig .tc .vmem S512x1 .f32 := Memref.whole cc0_scratch2
abbrev scMs : Memref sig .tc .vmem S512x1 .f32 := Memref.whole cc0_scratch3

/-- What the region's invariant holds when nothing is said of the running columns: each at some contents,
    and the generator register at some state. -/
theorem PhiA_eq (c : Dev nD) :
    (Pipeline.ΦA spec0 c : sProp 𝕄)
      = iprop(iprop((∃ d, owns (c : Thread nD τ) scM fullShare d) ∗ (∃ d, owns (c : Thread nD τ) scSe fullShare d)
          ∗ (∃ d, owns (c : Thread nD τ) scWs fullShare d) ∗ (∃ d, owns (c : Thread nD τ) scMs fullShare d)) ∗ (∃ r, prngReg c r)) := by
  unfold Pipeline.ΦA; rw [scopedRest0_eq]; simp only [scM, scSe, scWs, scMs, owns_whole]; try rfl

end Cert.Kernel.Hand

end
-- ==== Proof.K.Body.lean ====
/-
  One grid point of the kernel as three separation-logic triples, one per control case of its body.
  The body reads the two feature blocks and the similarity block, and keeps four running columns
  (maximum, rescaled sum of exponentials, weighted sum of logits, sum of weights) between points:
  * at a point that is neither first nor last of its row, each column goes from what the point
    before left to its stepped value, and the loss column is untouched;
  * at the first point of a row, the columns are first reset, so the stepped values start from
    the reset values whatever the columns held;
  * at the last point of a row, the loss column is moreover filled from the four STEPPED columns.
  Every store fills a whole column, so a column reads back as the payload of its last store, and a
  load after a store reads that payload.
-/
import proofs.«429412_j87256555585551_1_alg».proof.Proof.K.Base
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a two-axis rectangle. -/
theorem off_zero : (![0, 0] : Fin 2 → Nat) = fun _ => 0 := funext fun a => by fin_cases a <;> rfl

/-- A buffer whose last store filled its whole shape reads back as that store's payload,
    whatever it held before and whatever was stored earlier. -/
theorem read_after_whole_store {Val : EltTy → Type} [∀ e, Nonempty (Val e)] {sg : RefSig} {κ : Kind} {sp : Space}
    {S : Shape} {e : EltTy} (v : View sg κ sp S e) (f : v.ty.Contents Val) {off : Fin S.rank → Nat}
    (h : off = fun _ => 0) (inb : ∀ a, off a + S.size a ≤ S.size a) (x : S.Idx → Val e)
    (L : List (View.Piece Val S e)) :
    v.read Val (v.writes Val f ((⟨Rect.unit off S.size inb, x⟩ : View.Piece Val S e) :: L)) = x := by
  funext y
  rw [View.read_writes_apply_eq_canon v f y _
    ⟨_, List.mem_cons_self, View.mem_set_unit_zero h inb y⟩]
  exact congrFun (View.canon_cons_unit_zero h inb x L) y

set_option maxHeartbeats 4000000 in
/-- A point that is neither the first nor the last of its row: the four columns step from what
    they held, the inputs and the loss column are as they were. -/
theorem body_mid (c : Dev nD) (i : grid0.Coords)
    (arg2 : Memref sig .tc .vmem S512x512 .bf16) (harg2 : arg2.IsWhole)
    (arg3 : Memref sig .tc .vmem S512x512 .bf16) (harg3 : arg3.IsWhole)
    (arg4 : Memref sig .tc .vmem S512x512 .f32) (harg4 : arg4.IsWhole)
    (arg5 : Memref sig .tc .vmem S512x1 .f32) (harg5 : arg5.IsWhole)
    (arg6 : Memref sig .tc .vmem S512x1 .f32) (harg6 : arg6.IsWhole)
    (arg7 : Memref sig .tc .vmem S512x1 .f32) (harg7 : arg7.IsWhole)
    (arg8 : Memref sig .tc .vmem S512x1 .f32) (harg8 : arg8.IsWhole)
    (arg9 : Memref sig .tc .vmem S512x1 .f32) (harg9 : arg9.IsWhole)
    (q k : Vec F S512x512 .bf16) (w : Vec F S512x512 .f32) (E : Set ℕ) (K : PUnit → sProp 𝕄)
    (hc0 : ¬condFirst i) (hc1 : ¬condLast i) (o s6 s7 s8 s9 : Vec F S512x1 .f32) :
    iprop(owns (c : Thread nD τ) arg2 fullShare q ∗ owns (c : Thread nD τ) arg3 fullShare k ∗ owns (c : Thread nD τ) arg4 fullShare w ∗ owns (c : Thread nD τ) arg5 fullShare o
      ∗ owns (c : Thread nD τ) arg6 fullShare s6 ∗ owns (c : Thread nD τ) arg7 fullShare s7 ∗ owns (c : Thread nD τ) arg8 fullShare s8 ∗ owns (c : Thread nD τ) arg9 fullShare s9
      ∗ (iprop(owns (c : Thread nD τ) arg2 fullShare q ∗ owns (c : Thread nD τ) arg3 fullShare k ∗ owns (c : Thread nD τ) arg4 fullShare w ∗ owns (c : Thread nD τ) arg5 fullShare o
          ∗ owns (c : Thread nD τ) arg6 fullShare (stepM q k s6) ∗ owns (c : Thread nD τ) arg7 fullShare (stepSe i q k s6 s7)
          ∗ owns (c : Thread nD τ) arg8 fullShare (stepWs i q k w s8) ∗ owns (c : Thread nD τ) arg9 fullShare (stepMs i w s9)) -∗ K ⟨⟩))
    ⊢ wp frame (wpE (defs₀ (F := F)) Variants.none c none) E (cc0__mulsup_kernel i arg2 harg2 arg3 harg3 arg4 harg4 arg5 harg5 arg6 harg6 arg7 harg7 arg8 harg8 arg9 harg9) K := by
  simp only [cc0__mulsup_kernel_eq_skeleton]; unfold cc0__mulsup_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    rotate_left; iexact H6
    ipureintro
    refine (read_after_whole_store (Val := Elt F) (S := S512x1) _ _ off_zero inb_S512x1_S512x1_0_0 _ _).trans ?_
    simp only [View.readAt_eq_ld, harg2.read_unread, harg3.read_unread, harg4.read_unread, harg5.read_unread,
      harg6.read_unread, harg7.read_unread, harg8.read_unread, harg9.read_unread,
      View.ld_unit_zero (S := S512x1) off_zero, View.ld_unit_zero (S := S512x512) off_zero]
    rfl
  isplitl [H7]
  · iexists _; isplitr
    rotate_left; iexact H7
    ipureintro
    refine (read_after_whole_store (Val := Elt F) (S := S512x1) _ _ off_zero inb_S512x1_S512x1_0_0 _ _).trans ?_
    simp only [View.readAt_eq_ld, harg2.read_unread, harg3.read_unread, harg4.read_unread, harg5.read_unread,
      harg6.read_unread, harg7.read_unread, harg8.read_unread, harg9.read_unread,
      View.ld_unit_zero (S := S512x1) off_zero, View.ld_unit_zero (S := S512x512) off_zero]
    rfl
  isplitl [H8]
  · iexists _; isplitr
    rotate_left; iexact H8
    ipureintro
    refine (read_after_whole_store (Val := Elt F) (S := S512x1) _ _ off_zero inb_S512x1_S512x1_0_0 _ _).trans ?_
    simp only [View.readAt_eq_ld, harg2.read_unread, harg3.read_unread, harg4.read_unread, harg5.read_unread,
      harg6.read_unread, harg7.read_unread, harg8.read_unread, harg9.read_unread,
      View.ld_unit_zero (S := S512x1) off_zero, View.ld_unit_zero (S := S512x512) off_zero]
    rfl
  iexists _; isplitr
  rotate_left; iexact H9
  ipureintro
  refine (read_after_whole_store (Val := Elt F) (S := S512x1) _ _ off_zero inb_S512x1_S512x1_0_0 _ _).trans ?_
  simp only [View.readAt_eq_ld, harg2.read_unread, harg3.read_unread, harg4.read_unread, harg5.read_unread,
      harg6.read_unread, harg7.read_unread, harg8.read_unread, harg9.read_unread,
      View.ld_unit_zero (S := S512x1) off_zero, View.ld_unit_zero (S := S512x512) off_zero]
  rfl

set_option maxHeartbeats 4000000 in
/-- The first point of a row: the four columns, whatever they held, are reset and then stepped. -/
theorem body_first (c : Dev nD) (i : grid0.Coords)
    (arg2 : Memref sig .tc .vmem S512x512 .bf16) (harg2 : arg2.IsWhole)
    (arg3 : Memref sig .tc .vmem S512x512 .bf16) (harg3 : arg3.IsWhole)
    (arg4 : Memref sig .tc .vmem S512x512 .f32) (harg4 : arg4.IsWhole)
    (arg5 : Memref sig .tc .vmem S512x1 .f32) (harg5 : arg5.IsWhole)
    (arg6 : Memref sig .tc .vmem S512x1 .f32) (harg6 : arg6.IsWhole)
    (arg7 : Memref sig .tc .vmem S512x1 .f32) (harg7 : arg7.IsWhole)
    (arg8 : Memref sig .tc .vmem S512x1 .f32) (harg8 : arg8.IsWhole)
    (arg9 : Memref sig .tc .vmem S512x1 .f32) (harg9 : arg9.IsWhole)
    (q k : Vec F S512x512 .bf16) (w : Vec F S512x512 .f32) (E : Set ℕ) (K : PUnit → sProp 𝕄)
    (hc0 : condFirst i) (hc1 : ¬condLast i) (o : Vec F S512x1 .f32) :
    iprop(owns (c : Thread nD τ) arg2 fullShare q ∗ owns (c : Thread nD τ) arg3 fullShare k ∗ owns (c : Thread nD τ) arg4 fullShare w ∗ owns (c : Thread nD τ) arg5 fullShare o
      ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
      ∗ (iprop(owns (c : Thread nD τ) arg2 fullShare q ∗ owns (c : Thread nD τ) arg3 fullShare k ∗ owns (c : Thread nD τ) arg4 fullShare w ∗ owns (c : Thread nD τ) arg5 fullShare o
          ∗ owns (c : Thread nD τ) arg6 fullShare (stepM q k resetM) ∗ owns (c : Thread nD τ) arg7 fullShare (stepSe i q k resetM resetSe)
          ∗ owns (c : Thread nD τ) arg8 fullShare (stepWs i q k w resetWs) ∗ owns (c : Thread nD τ) arg9 fullShare (stepMs i w resetMs)) -∗ K ⟨⟩))
    ⊢ wp frame (wpE (defs₀ (F := F)) Variants.none c none) E (cc0__mulsup_kernel i arg2 harg2 arg3 harg3 arg4 harg4 arg5 harg5 arg6 harg6 arg7 harg7 arg8 harg8 arg9 harg9) K := by
  simp only [cc0__mulsup_kernel_eq_skeleton]; unfold cc0__mulsup_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    rotate_left; iexact H6
    ipureintro
    refine (read_after_whole_store (Val := Elt F) (S := S512x1) _ _ off_zero inb_S512x1_S512x1_0_0 _ _).trans ?_
    sl_unfold_words
    simp only [View.readAt_eq_ld, harg2.read_unread, harg3.read_unread, harg4.read_unread, harg5.read_unread,
      harg6.read_unread, harg7.read_unread, harg8.read_unread, harg9.read_unread,
      View.readCov_unit_zero (S := S512x1) _ off_zero,
      View.ld_unit_zero (S := S512x1) off_zero, View.ld_unit_zero (S := S512x512) off_zero]
    rfl
  isplitl [H7]
  · iexists _; isplitr
    rotate_left; iexact H7
    ipureintro
    refine (read_after_whole_store (Val := Elt F) (S := S512x1) _ _ off_zero inb_S512x1_S512x1_0_0 _ _).trans ?_
    sl_unfold_words
    simp only [View.readAt_eq_ld, harg2.read_unread, harg3.read_unread, harg4.read_unread, harg5.read_unread,
      harg6.read_unread, harg7.read_unread, harg8.read_unread, harg9.read_unread,
      View.readCov_unit_zero (S := S512x1) _ off_zero,
      View.ld_unit_zero (S := S512x1) off_zero, View.ld_unit_zero (S := S512x512) off_zero]
    rfl
  isplitl [H8]
  · iexists _; isplitr
    rotate_left; iexact H8
    ipureintro
    refine (read_after_whole_store (Val := Elt F) (S := S512x1) _ _ off_zero inb_S512x1_S512x1_0_0 _ _).trans ?_
    sl_unfold_words
    simp only [View.readAt_eq_ld, harg2.read_unread, harg3.read_unread, harg4.read_unread, harg5.read_unread,
      harg6.read_unread, harg7.read_unread, harg8.read_unread, harg9.read_unread,
      View.readCov_unit_zero (S := S512x1) _ off_zero,
      View.ld_unit_zero (S := S512x1) off_zero, View.ld_unit_zero (S := S512x512) off_zero]
    rfl
  iexists _; isplitr
  rotate_left; iexact H9
  ipureintro
  refine (read_after_whole_store (Val := Elt F) (S := S512x1) _ _ off_zero inb_S512x1_S512x1_0_0 _ _).trans ?_
  sl_unfold_words
  simp only [View.readAt_eq_ld, harg2.read_unread, harg3.read_unread, harg4.read_unread, harg5.read_unread,
      harg6.read_unread, harg7.read_unread, harg8.read_unread, harg9.read_unread,
      View.readCov_unit_zero (S := S512x1) _ off_zero,
      View.ld_unit_zero (S := S512x1) off_zero, View.ld_unit_zero (S := S512x512) off_zero]
  rfl

set_option maxHeartbeats 4000000 in
/-- The last point of a row: the four columns step, and the loss column, whatever it held, is
    filled from the stepped columns. -/
theorem body_last (c : Dev nD) (i : grid0.Coords)
    (arg2 : Memref sig .tc .vmem S512x512 .bf16) (harg2 : arg2.IsWhole)
    (arg3 : Memref sig .tc .vmem S512x512 .bf16) (harg3 : arg3.IsWhole)
    (arg4 : Memref sig .tc .vmem S512x512 .f32) (harg4 : arg4.IsWhole)
    (arg5 : Memref sig .tc .vmem S512x1 .f32) (harg5 : arg5.IsWhole)
    (arg6 : Memref sig .tc .vmem S512x1 .f32) (harg6 : arg6.IsWhole)
    (arg7 : Memref sig .tc .vmem S512x1 .f32) (harg7 : arg7.IsWhole)
    (arg8 : Memref sig .tc .vmem S512x1 .f32) (harg8 : arg8.IsWhole)
    (arg9 : Memref sig .tc .vmem S512x1 .f32) (harg9 : arg9.IsWhole)
    (q k : Vec F S512x512 .bf16) (w : Vec F S512x512 .f32) (E : Set ℕ) (K : PUnit → sProp 𝕄)
    (hc0 : ¬condFirst i) (hc1 : condLast i) (s6 s7 s8 s9 : Vec F S512x1 .f32) :
    iprop(owns (c : Thread nD τ) arg2 fullShare q ∗ owns (c : Thread nD τ) arg3 fullShare k ∗ owns (c : Thread nD τ) arg4 fullShare w ∗ (∃ d, owns (c : Thread nD τ) arg5 fullShare d)
      ∗ owns (c : Thread nD τ) arg6 fullShare s6 ∗ owns (c : Thread nD τ) arg7 fullShare s7 ∗ owns (c : Thread nD τ) arg8 fullShare s8 ∗ owns (c : Thread nD τ) arg9 fullShare s9
      ∗ (iprop(owns (c : Thread nD τ) arg2 fullShare q ∗ owns (c : Thread nD τ) arg3 fullShare k ∗ owns (c : Thread nD τ) arg4 fullShare w
          ∗ owns (c : Thread nD τ) arg5 fullShare (outRows (stepM q k s6) (stepSe i q k s6 s7) (stepWs i q k w s8) (stepMs i w s9))
          ∗ owns (c : Thread nD τ) arg6 fullShare (stepM q k s6) ∗ owns (c : Thread nD τ) arg7 fullShare (stepSe i q k s6 s7)
          ∗ owns (c : Thread nD τ) arg8 fullShare (stepWs i q k w s8) ∗ owns (c : Thread nD τ) arg9 fullShare (stepMs i w s9)) -∗ K ⟨⟩))
    ⊢ wp frame (wpE (defs₀ (F := F)) Variants.none c none) E (cc0__mulsup_kernel i arg2 harg2 arg3 harg3 arg4 harg4 arg5 harg5 arg6 harg6 arg7 harg7 arg8 harg8 arg9 harg9) K := by
  simp only [cc0__mulsup_kernel_eq_skeleton]; unfold cc0__mulsup_kernel_skel
  simp only [k0_part1_eq_skeleton]; unfold k0_part1_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg6.eq_unread hf6; obtain rfl := harg7.eq_unread hf7
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    rotate_left; iexact H5
    ipureintro
    refine (read_after_whole_store (Val := Elt F) (S := S512x1) _ _ off_zero inb_S512x1_S512x1_0_0 _ _).trans ?_
    sl_unfold_words
    simp only [View.readAt_eq_ld, harg2.read_unread, harg3.read_unread, harg4.read_unread, harg5.read_unread,
      harg6.read_unread, harg7.read_unread, harg8.read_unread, harg9.read_unread,
      View.readCov_unit_zero (S := S512x1) _ off_zero,
      View.ld_unit_zero (S := S512x1) off_zero, View.ld_unit_zero (S := S512x512) off_zero]
    rfl
  isplitl [H6]
  · iexists _; isplitr
    rotate_left; iexact H6
    ipureintro
    refine (read_after_whole_store (Val := Elt F) (S := S512x1) _ _ off_zero inb_S512x1_S512x1_0_0 _ _).trans ?_
    simp only [View.readAt_eq_ld, harg2.read_unread, harg3.read_unread, harg4.read_unread, harg5.read_unread,
      harg6.read_unread, harg7.read_unread, harg8.read_unread, harg9.read_unread,
      View.ld_unit_zero (S := S512x1) off_zero, View.ld_unit_zero (S := S512x512) off_zero]
    rfl
  isplitl [H7]
  · iexists _; isplitr
    rotate_left; iexact H7
    ipureintro
    refine (read_after_whole_store (Val := Elt F) (S := S512x1) _ _ off_zero inb_S512x1_S512x1_0_0 _ _).trans ?_
    simp only [View.readAt_eq_ld, harg2.read_unread, harg3.read_unread, harg4.read_unread, harg5.read_unread,
      harg6.read_unread, harg7.read_unread, harg8.read_unread, harg9.read_unread,
      View.ld_unit_zero (S := S512x1) off_zero, View.ld_unit_zero (S := S512x512) off_zero]
    rfl
  isplitl [H8]
  · iexists _; isplitr
    rotate_left; iexact H8
    ipureintro
    refine (read_after_whole_store (Val := Elt F) (S := S512x1) _ _ off_zero inb_S512x1_S512x1_0_0 _ _).trans ?_
    simp only [View.readAt_eq_ld, harg2.read_unread, harg3.read_unread, harg4.read_unread, harg5.read_unread,
      harg6.read_unread, harg7.read_unread, harg8.read_unread, harg9.read_unread,
      View.ld_unit_zero (S := S512x1) off_zero, View.ld_unit_zero (S := S512x512) off_zero]
    rfl
  iexists _; isplitr
  rotate_left; iexact H9
  ipureintro
  refine (read_after_whole_store (Val := Elt F) (S := S512x1) _ _ off_zero inb_S512x1_S512x1_0_0 _ _).trans ?_
  simp only [View.readAt_eq_ld, harg2.read_unread, harg3.read_unread, harg4.read_unread, harg5.read_unread,
      harg6.read_unread, harg7.read_unread, harg8.read_unread, harg9.read_unread,
      View.ld_unit_zero (S := S512x1) off_zero, View.ld_unit_zero (S := S512x512) off_zero]
  rfl

end Cert.Kernel.Hand

end
-- ==== Proof.K.Cols.lean ====
/-
  The kernel's running columns point by point, as pure functions of the blocks the points read.
-/
import proofs.«429412_j87256555585551_1_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks a point reads, at their literal types -/

/-- The row tile's features, the column tile's features, the similarity block at point `t`. -/
abbrev qblk (c : Dev nD) (t : Fin cfg0.N) : Vec F S512x512 .bf16 := iblk m c 0 t
abbrev kblk (c : Dev nD) (t : Fin cfg0.N) : Vec F S512x512 .bf16 := iblk m c 1 t
abbrev wblk (c : Dev nD) (t : Fin cfg0.N) : Vec F S512x512 .f32 := iblk m c 2 t

/-! ## The running columns after each point -/

/-- The four running columns: maximum, rescaled sum of exponentials, weighted sum of logits, sum of weights. -/
structure Cols (F : FTy → Type) where
  mx : Vec F S512x1 .f32
  se : Vec F S512x1 .f32
  ws : Vec F S512x1 .f32
  ms : Vec F S512x1 .f32

/-- One point's update of the columns `p` from the blocks at `t`. -/
def stepCols (c : Dev nD) (t : Fin cfg0.N) (p : Cols F) : Cols F :=
  ⟨stepM (qblk m c t) (kblk m c t) p.mx,
   stepSe (grid0.coords t) (qblk m c t) (kblk m c t) p.mx p.se,
   stepWs (grid0.coords t) (qblk m c t) (kblk m c t) (wblk m c t) p.ws,
   stepMs (grid0.coords t) (wblk m c t) p.ms⟩

/-- The columns as the reset leaves them. -/
def resetCols : Cols F := ⟨resetM, resetSe, resetWs, resetMs⟩

/-- The columns after the body at position `n`: reset first at the points ≡ 0 (mod 8), else over what the
    point before left. -/
def colsAt (c : Dev nD) : (n : ℕ) → n < cfg0.N → Cols F
  | 0, hn => stepCols m c ⟨0, hn⟩ resetCols
  | n + 1, hn =>
    if (n + 1) % 8 = 0 then stepCols m c ⟨n + 1, hn⟩ resetCols
    else stepCols m c ⟨n + 1, hn⟩ (colsAt c n (Nat.lt_of_succ_lt hn))

theorem colsAt_first (c : Dev nD) (t : Fin cfg0.N) (h0 : t.val % 8 = 0) :
    colsAt m c t.val t.isLt = stepCols m c t resetCols := by
  obtain ⟨n, hn⟩ := t
  cases n with
  | zero => rfl
  | succ n => exact (if_pos h0)

theorem colsAt_next (c : Dev nD) (t : Fin cfg0.N) (h0 : ¬t.val % 8 = 0) :
    colsAt m c t.val t.isLt = stepCols m c t (colsAt m c (t.val - 1) (Nat.lt_of_le_of_lt (Nat.sub_le _ _) t.isLt)) := by
  obtain ⟨n, hn⟩ := t
  cases n with
  | zero => exact absurd (Nat.zero_mod _) h0
  | succ n => exact (if_neg h0)

/-- What the body stores as the row tile's losses at a point where it stores them. -/
def outAt (c : Dev nD) (t : Fin cfg0.N) : Vec F S512x1 .f32 :=
  outRows (colsAt m c t.val t.isLt).mx (colsAt m c t.val t.isLt).se (colsAt m c t.val t.isLt).ws (colsAt m c t.val t.isLt).ms

end Cert.Kernel.Hand

end
-- ==== Proof.K.Dats.lean ====
/-
  The proof data of the kernel's pipeline: what the region's invariant holds between grid points, what the
  body leaves in each window's buffer, and that each input's buffer holds its block at every point.
-/
import proofs.«429412_j87256555585551_1_alg».proof.Proof.K.Cols

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's invariant -/

/-- Before position `n`: nothing said of the columns before the first point; afterwards each column at what the
    point before left, and the generator register at some state. -/
def PhiS (c : Dev nD) : (n : ℕ) → n ≤ cfg0.N → sProp 𝕄
  | 0, _ => Pipeline.ΦA spec0 c
  | n + 1, hn => iprop(iprop(owns (c : Thread nD τ) scM fullShare (colsAt m c n hn).mx ∗ owns (c : Thread nD τ) scSe fullShare (colsAt m c n hn).se
      ∗ owns (c : Thread nD τ) scWs fullShare (colsAt m c n hn).ws ∗ owns (c : Thread nD τ) scMs fullShare (colsAt m c n hn).ms) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (colsAt m c n hn).mx ∗ owns (c : Thread nD τ) scSe fullShare (colsAt m c n hn).se
      ∗ owns (c : Thread nD τ) scWs fullShare (colsAt m c n hn).ws ∗ owns (c : Thread nD τ) scMs fullShare (colsAt m c n hn).ms) ∗ (∃ r, prngReg c r)) := rfl

theorem PhiS_pos (c : Dev nD) (n : ℕ) (h : n ≤ cfg0.N) (hz : n ≠ 0) :
    PhiS m c n h = iprop(iprop(owns (c : Thread nD τ) scM fullShare (colsAt m c (n - 1) (by omega)).mx ∗ owns (c : Thread nD τ) scSe fullShare (colsAt m c (n - 1) (by omega)).se
      ∗ owns (c : Thread nD τ) scWs fullShare (colsAt m c (n - 1) (by omega)).ws ∗ owns (c : Thread nD τ) scMs fullShare (colsAt m c (n - 1) (by omega)).ms) ∗ (∃ r, prngReg c r)) := by
  cases n with
  | zero => exact absurd rfl hz
  | succ n => rfl

/-! ## The proof data -/

/-- The pipeline's proof data on core `c`: the arrays as the region finds them; each input's buffer left at its
    block, the output's at the stored losses; the invariant `PhiS`; the shared feature array held in two halves
    by the two windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

end Cert.Kernel.Hand

end
-- ==== Proof.K.Oblig.lean ====
/-
  The body's obligation at every grid point, from the body's three cases: the first point of a row of the
  grid (the running columns are reset), the last (the losses are stored), and the points between.
-/
import proofs.«429412_j87256555585551_1_alg».proof.Proof.K.Body
import proofs.«429412_j87256555585551_1_alg».proof.Proof.K.Dats

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [liveAt0 t, after0]
theorem leaves1 (c : Dev nD) (t : Fin cfg0.N) :
    (dats m 0 c).leavesExact 1 t = owns (c : Thread nD τ) (ms1 t) fullShare (iblk m c 1 t) := by
  unfold Dat.leavesExact; rw [liveAt1 t, after1]
theorem leaves2 (c : Dev nD) (t : Fin cfg0.N) :
    (dats m 0 c).leavesExact 2 t = owns (c : Thread nD τ) (ms2 t) fullShare (iblk m c 2 t) := by
  unfold Dat.leavesExact; rw [liveAt2 t, after2]
theorem leaves3_last (c : Dev nD) (t : Fin cfg0.N) (h : condLast (grid0.coords t)) :
    (dats m 0 c).leavesExact 3 t = owns (c : Thread nD τ) (ms3 t) fullShare (outAt m c t) := by
  unfold Dat.leavesExact; rw [liveAt3 t h, after3]

set_option maxHeartbeats 4800000 in
/-- The body at any point: the inputs' buffers hold their blocks; the point is the first of its row of the grid,
    the last, or neither; the invariant hands over the running columns at what the point before left (at anything
    where they are reset) and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 64 := lt_of_lt_of_eq t.isLt (show cfg0.N = 64 from N_0)
  by_cases h0 : t.val % 8 = 0
  · have h1 : ¬t.val % 8 = 7 := by omega
    have hc0 : condFirst (grid0.coords t) := (hcondFirst t).mpr h0
    have hc1 : ¬condLast (grid0.coords t) := fun h => h1 ((hcondLast t).mp h)
    rw [Dat.leavesExact_idle (dats m 0 c) 3 t (idleAt3 t hc1) (noFlush3 t hc1)]
    rw [colsAt_first m c t h0]
    unfold stepCols resetCols; dsimp only
    have hPhi : (dats m 0 c).Φ t.castSucc ⊢ (Pipeline.ΦA spec0 c : sProp 𝕄) := by
      rw [PhiS_castSucc m c t]
      by_cases hz : t.val = 0
      · rw [PhiS_zero m c _ _ hz]
      · rw [PhiS_pos m c _ _ hz, PhiA_eq]
        iintro ⟨⟨H6, H7, H8, H9⟩, Hg⟩
        isplitr [Hg]
        · isplitl [H6]; · iexists _; iexact H6
          isplitl [H7]; · iexists _; iexact H7
          isplitl [H8]; · iexists _; iexact H8
          iexists _; iexact H9
        · iexact Hg
    refine (sep_mono_left hPhi).trans ?_
    rw [PhiA_eq]
    iintro ⟨⟨⟨H6, H7, H8, H9⟩, Hg⟩, Ho, ⟨%d0, H0⟩, ⟨%d1, H1⟩, ⟨%d2, H2⟩, ⟨%d3, H3⟩⟩
    iapply (body_first c (grid0.coords t) (ms0 t) (hs0 t) (ms1 t) (hs1 t) (ms2 t) (hs2 t) (ms3 t) (hs3 t)
      scM (Memref.isWhole_whole _) scSe (Memref.isWhole_whole _) scWs (Memref.isWhole_whole _) scMs (Memref.isWhole_whole _)
      (qblk m c t) (kblk m c t) (wblk m c t) Set.univ _ hc0 hc1 ((dats m 0 c).before 3 t d3))
    isplitl [H0]; · iexact H0
    isplitl [H1]; · iexact H1
    isplitl [H2]; · iexact H2
    isplitl [H3]; · iexact H3
    isplitl [H6]; · iexact H6
    isplitl [H7]; · iexact H7
    isplitl [H8]; · iexact H8
    isplitl [H9]; · iexact H9
    iintro ⟨H0, H1, H2, H3, H6, H7, H8, H9⟩
    isplitl [H6 H7 H8 H9 Hg]
    · isplitr [Hg]
      · isplitl [H6]; · iexact H6
        isplitl [H7]; · iexact H7
        isplitl [H8]; · iexact H8
        iexact H9
      · iexact Hg
    isplitl [Ho]; · iexact Ho
    isplitl [H0]; · iexact H0
    isplitl [H1]; · iexact H1
    isplitl [H2]; · iexact H2
    iexists _; iexact H3
  · have hz : t.val ≠ 0 := fun e => h0 (by rw [e])
    have hc0 : ¬condFirst (grid0.coords t) := fun h => h0 ((hcondFirst t).mp h)
    rw [colsAt_next m c t h0]
    rw [PhiS_castSucc m c t, PhiS_pos m c _ _ hz]
    unfold stepCols; dsimp only
    by_cases h1 : t.val % 8 = 7
    · have hc1 : condLast (grid0.coords t) := (hcondLast t).mpr h1
      rw [leaves3_last m c t hc1]
      unfold outAt
      rw [colsAt_next m c t h0]
      unfold stepCols; dsimp only
      iintro ⟨⟨⟨H6, H7, H8, H9⟩, Hg⟩, Ho, ⟨%d0, H0⟩, ⟨%d1, H1⟩, ⟨%d2, H2⟩, ⟨%d3, H3⟩⟩
      iapply (body_last c (grid0.coords t) (ms0 t) (hs0 t) (ms1 t) (hs1 t) (ms2 t) (hs2 t) (ms3 t) (hs3 t)
        scM (Memref.isWhole_whole _) scSe (Memref.isWhole_whole _) scWs (Memref.isWhole_whole _) scMs (Memref.isWhole_whole _)
        (qblk m c t) (kblk m c t) (wblk m c t) Set.univ _ hc0 hc1 _ _ _ _)
      isplitl [H0]; · iexact H0
      isplitl [H1]; · iexact H1
      isplitl [H2]; · iexact H2
      isplitl [H3]; · iexists _; iexact H3
      isplitl [H6]; · iexact H6
      isplitl [H7]; · iexact H7
      isplitl [H8]; · iexact H8
      isplitl [H9]; · iexact H9
      iintro ⟨H0, H1, H2, H3, H6, H7, H8, H9⟩
      isplitl [H6 H7 H8 H9 Hg]
      · isplitr [Hg]
        · isplitl [H6]; · iexact H6
          isplitl [H7]; · iexact H7
          isplitl [H8]; · iexact H8
          iexact H9
        · iexact Hg
      isplitl [Ho]; · iexact Ho
      isplitl [H0]; · iexact H0
      isplitl [H1]; · iexact H1
      isplitl [H2]; · iexact H2
      iexact H3
    · have hc1 : ¬condLast (grid0.coords t) := fun h => h1 ((hcondLast t).mp h)
      rw [Dat.leavesExact_idle (dats m 0 c) 3 t (idleAt3 t hc1) (noFlush3 t hc1)]
      iintro ⟨⟨⟨H6, H7, H8, H9⟩, Hg⟩, Ho, ⟨%d0, H0⟩, ⟨%d1, H1⟩, ⟨%d2, H2⟩, ⟨%d3, H3⟩⟩
      iapply (body_mid c (grid0.coords t) (ms0 t) (hs0 t) (ms1 t) (hs1 t) (ms2 t) (hs2 t) (ms3 t) (hs3 t)
        scM (Memref.isWhole_whole _) scSe (Memref.isWhole_whole _) scWs (Memref.isWhole_whole _) scMs (Memref.isWhole_whole _)
        (qblk m c t) (kblk m c t) (wblk m c t) Set.univ _ hc0 hc1 ((dats m 0 c).before 3 t d3) _ _ _ _)
      isplitl [H0]; · iexact H0
      isplitl [H1]; · iexact H1
      isplitl [H2]; · iexact H2
      isplitl [H3]; · iexact H3
      isplitl [H6]; · iexact H6
      isplitl [H7]; · iexact H7
      isplitl [H8]; · iexact H8
      isplitl [H9]; · iexact H9
      iintro ⟨H0, H1, H2, H3, H6, H7, H8, H9⟩
      isplitl [H6 H7 H8 H9 Hg]
      · isplitr [Hg]
        · isplitl [H6]; · iexact H6
          isplitl [H7]; · iexact H7
          isplitl [H8]; · iexact H8
          iexact H9
        · iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the columns back at whatever they hold. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨⟨H6, H7, H8, H9⟩, Hg⟩
  isplitr [Hg]
  · isplitl [H6]; · iexists _; iexact H6
    isplitl [H7]; · iexists _; iexact H7
    isplitl [H8]; · iexists _; iexact H8
    iexists _; iexact H9
  · iexact Hg

end Cert.Kernel.Hand

end
-- ==== Proof.LibSharedWindows.lean ====
/-
  The frame run of a pipeline whose windows may share an array, for an @main that goes on after the
  region with lines of host operations.

  The library's frame runs hold every window's array whole, which needs the arrays pairwise distinct.
  Here the arrays' distinctness is replaced by two facts the caller proves about the proof data's shares:
  how the distinct buffers behind the arrays, each whole at the region-entry contents, make the windows'
  arrays at entry (`hsplit`), and that the windows' arrays at the region's exit are those buffers, each
  whole, at an exit valuation `X` that agrees with the entry contents off the arrays (`hjoin`, `hXoff`).
  The lines after the region then run within all the unscoped buffers from `X`, write no array, and the
  run ends with every array at the proof data's `arrAt … N` and every other unscoped buffer at the lines'
  `StableHlo.after` from `X`.
-/
import Idealize.ShloMosaic.Lib.Pipeline.FrameSuffix

noncomputable section

namespace Cert.SharedWindows

open Idealize.ShloMosaic Idealize.ShloMosaic.TcCoe
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open Idealize.ShloMosaic.Pipeline
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀
local notation "𝕍" => Variants.lift 𝒱₀

omit [Fintype P] [DecidableEq P] [∀ e, Nonempty (Val e)] in
/-- THE LINES AFTER THE REGION when windows share arrays: from the region's exit — the boundary, the windows'
    arrays `A` (which are the distinct array buffers, each whole, at the exit valuation `X`: `hjoin`) and the
    bypassing buffers at the entry contents `V₀` (which `X` agrees with off the arrays: `hXoff`) — the lines run
    within all the unscoped buffers, write no array (`hkeep`), and hand back the windows' arrays and the
    bypassing buffers at the lines' `StableHlo.after` from `X`. -/
theorem tail_seqs_shared (hun : ∀ w, (arrRef (cfg).spec w).isScoped = false) (c : Dev nD)
    (V₀ X : Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hXoff : ∀ b : Ref sig .tc, (∀ w, arrRef (cfg).spec w ≠ b) → X (Proc.devRef .tc b) = V₀ (Proc.devRef .tc b))
    (A : sProp 𝕄)
    (hjoin : A ⊣⊢ arrBufs (cfg).spec c (fun b => X (Proc.devRef .tc b)))
    (Q' : PUnit → sProp 𝕄) :
    iprop((iprop(A ∗ unscopedRest (cfg).spec c (fun b => StableHlo.after opss.flatten X (Proc.devRef .tc b))) -∗ Q' ⟨⟩)
        ∗ boundary (c.tc : Thread nD τ) ∗ A ∗ unscopedRest (cfg).spec c (fun b => V₀ (Proc.devRef .tc b)))
      ⊢ wp frame (wpE 𝔻 𝕍 (c.tc : Thread nD τ) none) Set.univ (chain (opss.map StableHlo.seq)) Q' := by
  classical
  -- off the arrays the exit valuation is the entry contents
  have hrest : (unscopedRest (cfg).spec c (fun b => V₀ (Proc.devRef .tc b)) : sProp 𝕄)
      = unscopedRest (cfg).spec c (fun b => X (Proc.devRef .tc b)) := by
    unfold unscopedRest
    exact bigSep_congr fun b hb => by
      beta_reduce
      rw [hXoff b fun w e => (Finset.mem_sdiff.mp hb).2 (Finset.mem_image.mpr ⟨w, Finset.mem_univ _, e⟩)]
  -- the lines write no array
  have harrs : (arrBufs (cfg).spec c (fun b => StableHlo.after opss.flatten X (Proc.devRef .tc b)) : sProp 𝕄)
      = arrBufs (cfg).spec c (fun b => X (Proc.devRef .tc b)) := by
    unfold arrBufs
    exact bigSep_congr fun b hb => by
      obtain ⟨w, -, rfl⟩ := Finset.mem_image.mp hb
      beta_reduce
      rw [StableHlo.after_of_forall_not_mem _ _ fun op hop => ?_]
      obtain ⟨ops, hops, hop⟩ := List.mem_flatten.mp hop
      exact hkeep ops hops op hop w
  -- all the unscoped buffers held at a valuation are the array buffers and the bypassing ones at it
  have hW : ∀ W : Valuation τ sig Val, (StableHlo.held (c.tc : Thread nD τ) (ucRefs τ sig) W : sProp 𝕄)
      = iprop(arrBufs (cfg).spec c (fun b => W (Proc.devRef .tc b)) ∗ unscopedRest (cfg).spec c (fun b => W (Proc.devRef .tc b))) := fun W => by
    rw [← unscopedBufs_held (Ix := Unit) (Name := ℕ) (U := UR sig nD τ) (Lvl := ℕ) c W, unscopedBufs_split₀ cfgs p hun c]
  rw [← List.append_nil (opss.map StableHlo.seq), hrest]
  iintro ⟨Hk, Hb, HA, HZ⟩
  ihave HA := hjoin.1 $$ HA
  iapply (wp_seqs_then (fun q => Cfg.toPCfg (Val := Val) (cfgs q)) defs₀ 𝒱₀ c (ucRefs τ sig) [] opss hsub hfresh X) $$ [Hb HA HZ]
  · rw [hW X]
    isplitl [Hb]; · iexact Hb
    isplitl [HA]; · iexact HA
    iexact HZ
  iintro Hb
  rw [chain_nil, wp_pure, hW, harrs]
  imodintro
  iapply Hk
  icases Hb with ⟨-, HA, HZ⟩
  isplitl [HA]
  · iapply hjoin.2; iexact HA
  · iexact HZ

/-- THE FRAME RUN when windows share arrays, for an @main that continues after the region with the host lines
    `opss` (`hmain`: `Pipeline.hmain_around`): the arrays' distinctness is replaced by `hsplit` (the distinct array
    buffers, whole at the region-entry contents `V₀`, make the windows' arrays at entry) and `hjoin` (the windows'
    arrays at the region's exit are the distinct array buffers, whole, at the exit valuation `X`, which is `V₀` off
    the arrays: `hXoff`). The lines touch unscoped buffers only (`hsub`), allocate nothing (`hfresh`) and write no
    array (`hkeep`). At the end every array holds the proof data's `arrAt … N` and every other unscoped buffer the
    lines' `StableHlo.after` from `X`. -/
theorem θ_run_frame_around_shared
    (hcell : Function.Injective (cellOf (nD := nD) (τ := τ) cfgs)) (hw : WinFacts₀ (cfg).spec)
    (hne : ∀ w : Fin (cfg).W, 0 < ((cfg).spec w).block.numel)
    (harr : ∀ w : Fin (cfg).W, ((cfg).spec w).arr.IsWhole)
    (hstage : ∀ (w : Fin (cfg).W) (s : Fin ((cfg).spec w).nbuf), (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (X : Dev nD → Valuation τ sig Val)
    (hXoff : ∀ c (b : Ref sig .tc), (∀ w, arrRef (cfg).spec w ≠ b) → X c (Proc.devRef .tc b) = V₀ c (Proc.devRef .tc b))
    (hsplit : ∀ c, (arrBufs (cfg).spec c (fun b => V₀ c (Proc.devRef .tc b)) : sProp 𝕄) ⊢ (dats p c).arrays ((dats p c).arrAt · 0))
    (hjoin : ∀ c, (dats p c).arrays ((dats p c).arrAt · (cfg).N) ⊣⊢ (arrBufs (cfg).spec c (fun b => X c (Proc.devRef .tc b)) : sProp 𝕄))
    (hin : ∀ c, ΦA (cfg).spec c ⊢ (dats p c).Φ 0) (hout : ∀ c, (dats p c).Φ (Fin.last (cfg).N) ⊢ ΦA (cfg).spec c) :
    θ_run 𝔻 (onTc main) (s₀ m g) (fun r => ∀ c : Dev nD,
      (∀ w, r.2.mem (((cfg).spec w).arr.view.loc (c.tc : Thread nD τ)) = (dats p c).arrAt w (cfg).N)
      ∧ ∀ b ∈ restRefs sig (cfg).spec, r.2.mem ((c.tc : Thread nD τ).loc b) = StableHlo.after opss.flatten (X c) (Proc.devRef .tc b)) := by
  classical
  exact θ_run_region_pf_tail (fun q => (cfgs q).toPCfg (Val := Val)) (fun q => (cfgs q).toPCfg_adm) dats () hcell p hw
    (OwnSemFacts.none (cfg).spec) (PreFacts.none _) emb₁ defs₀ 𝒱₀ m g main
    (fun _ => chain (opss.map StableHlo.seq)) hbody hne harr hstage howed
    (G := fun _ => iprop(emp)) (u₀ := initOf (cells cfgs hcell) (launchToks cfgs hcell))
    (hu₀ := by
      iintro Hu; imodintro
      isplitl [Hu]; · iapply (show (ownU _ : sProp 𝕄) ⊢ BI.own (emb₁ (initOf (cells cfgs hcell) (launchToks cfgs hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := hsplit)
    (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (fun b => V₀ c (Proc.devRef .tc b)))
    (Z' := fun c => unscopedRest (Ix := Unit) (Name := ℕ) (U := UR sig nD τ) (Lvl := ℕ) (cfg).spec c (fun b => StableHlo.after opss.flatten (X c) (Proc.devRef .tc b)))
    (hX := fun c => by
      rw [unscopedRestP_none]
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => tail_seqs_shared cfgs p defs₀ 𝒱₀ hw.arr_unscoped c (V₀ c) (X c) opss hsub hfresh hkeep (hXoff c) _ (hjoin c) Q')
    (QY := fun c s => ∀ b ∈ restRefs sig (cfg).spec, s.mem ((c.tc : Thread nD τ).loc b) = StableHlo.after opss.flatten (X c) (Proc.devRef .tc b))
    (hY := fun c s' => by
      iintro ⟨-, HU, HSI⟩
      unfold unscopedRest
      imodintro
      iapply (pointsTo_read_all (restRefs sig (cfg).spec) (fun b => (c.tc : Thread nD τ).loc b) (fun b => StableHlo.after opss.flatten (X c) (Proc.devRef .tc b)) s')
      isplitl [HU] <;> iassumption)
    (hQ := fun s h c => ⟨(h c).1, (h c).2.2⟩)

end Cert.SharedWindows

end
-- ==== Proof.K.Launch.lean ====
/-
  The launch of the kernel's program: two of its input windows read one array. The distinct array
  buffers are dealt to the windows by halving that array's share, and the general frame run for windows
  sharing arrays gives the run's post from any proof data at those shares.
-/
import proofs.«429412_j87256555585551_1_alg».proof.Proof.K.Base
import proofs.«429412_j87256555585551_1_alg».proof.Proof.LibSharedWindows

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows' arrays. -/
theorem arrRefs_eq : Finset.univ.image (Pipeline.arrRef spec0) = {main_v14, main_v11, main_v15} := by decide

theorem isOut0 : (cfg0.win 0).isOut = false := rfl
theorem isOut1 : (cfg0.win 1).isOut = false := rfl
theorem isOut2 : (cfg0.win 2).isOut = false := rfl
theorem isOut3 : (cfg0.win 3).isOut = true := rfl

/-- The windows' arrays at the two halves of the shared array's share and the full share of the others are the
    distinct array buffers, each whole at the full share, at the same contents. -/
theorem arrays_iff (c : Dev nD) (dat : Dat τ (Elt F) Unit ℕ (UR sig nD τ) ℕ cfg0 c)
    (hq0 : dat.q 0 = fullShare.left) (hq1 : dat.q 1 = fullShare.right) (hq2 : dat.q 2 = fullShare)
    (W : (b : Ref sig .tc) → Buf (Elt F) ((c : Thread nD τ).loc b))
    (Fw : (w : Fin cfg0.W) → Buf (Elt F) ((cfg0.win w).arr.view.loc (c.tc : Thread nD τ)))
    (hF : ∀ w, Fw w = W (Pipeline.arrRef spec0 w)) :
    (dat.arrays Fw : sProp 𝕄) ⊣⊢ Pipeline.arrBufs spec0 c W := by
  have s0 : dat.share 0 = fullShare.left := by unfold Dat.share; rw [if_neg (by rw [isOut0]; exact Bool.false_ne_true), hq0]
  have s1 : dat.share 1 = fullShare.right := by unfold Dat.share; rw [if_neg (by rw [isOut1]; exact Bool.false_ne_true), hq1]
  have s2 : dat.share 2 = fullShare := by unfold Dat.share; rw [if_neg (by rw [isOut2]; exact Bool.false_ne_true), hq2]
  have s3 : dat.share 3 = fullShare := by unfold Dat.share; rw [if_pos isOut3]
  unfold Pipeline.arrBufs Dat.arrays
  rw [arrRefs_eq, bigSep_insert (by decide), bigSep_insert (by decide), bigSep_singleton, bigSep_W0]
  rw [s0, s1, s2, s3, hF 0, hF 1, hF 2, hF 3]
  -- windows 0 and 1 are on one memref: the first rewrite serves both
  rw [(arr_whole0 0).set_eq_univ, (arr_whole0 2).set_eq_univ, (arr_whole0 3).set_eq_univ]
  show iprop((((c : Thread nD τ).loc main_v14) ↦{fullShare.left} W main_v14) ∗ (((c : Thread nD τ).loc main_v14) ↦{fullShare.right} W main_v14)
      ∗ (((c : Thread nD τ).loc main_v11) ↦{fullShare} W main_v11) ∗ (((c : Thread nD τ).loc main_v15) ↦{fullShare} W main_v15))
    ⊣⊢ iprop((((c : Thread nD τ).loc main_v14) ↦{fullShare} W main_v14) ∗ (((c : Thread nD τ).loc main_v11) ↦{fullShare} W main_v11) ∗ (((c : Thread nD τ).loc main_v15) ↦{fullShare} W main_v15))
  have h : ((((c : Thread nD τ).loc main_v14) ↦{fullShare} W main_v14 : sProp 𝕄))
      ⊣⊢ iprop((((c : Thread nD τ).loc main_v14) ↦{fullShare.left} W main_v14) ∗ (((c : Thread nD τ).loc main_v14) ↦{fullShare.right} W main_v14)) :=
    pointsTo_share (PosShare.mem_left_op_right fullShare)
  have h1 := h.1
  have h2 := h.2
  constructor
  · iintro ⟨H0, H1, H2, H3⟩
    isplitl [H0 H1]
    · iapply h2
      isplitl [H0]; · iexact H0
      iexact H1
    isplitl [H2]; · iexact H2
    iexact H3
  · iintro ⟨Hw, H2, H3⟩
    ihave H := h1 $$ Hw
    icases H with ⟨H0, H1⟩
    isplitl [H0]; · iexact H0
    isplitl [H1]; · iexact H1
    isplitl [H2]; · iexact H2
    iexact H3

/-! ## The lines after the region -/

/-- They touch unscoped buffers only. -/
theorem tail_sub : ∀ ops ∈ ([hostOps1] : List (List (HloOp τ sig (Elt F)))), ∀ op ∈ ops, op.bufs ⊆ Pipeline.ucRefs τ sig := by
  intro ops hops op hop
  obtain rfl : ops = hostOps1 := List.mem_singleton.mp hops
  exact Pipeline.sub_ucRefs op ((List.forall_iff_forall_mem.mp hostOps1_sub) op hop)

/-- They allocate nothing. -/
theorem tail_fresh : ∀ ops ∈ ([hostOps1] : List (List (HloOp τ sig (Elt F)))), ∀ op ∈ ops, op.fresh = ∅ := by
  intro ops hops op hop
  obtain rfl : ops = hostOps1 := List.mem_singleton.mp hops
  exact (List.forall_iff_forall_mem.mp hostOps1_fresh) op hop

/-- They write no window's array: each writes its own result, one of four scalars. -/
theorem tail_keeps : ∀ ops ∈ ([hostOps1] : List (List (HloOp τ sig (Elt F)))), ∀ op ∈ ops,
    ∀ w, Proc.devRef .tc (Pipeline.arrRef spec0 w) ∉ op.writes := by
  intro ops hops op hop w
  obtain rfl : ops = hostOps1 := List.mem_singleton.mp hops
  have hw : Pipeline.arrRef spec0 w = main_v14 ∨ Pipeline.arrRef spec0 w = main_v11 ∨ Pipeline.arrRef spec0 w = main_v15 := by
    revert w; decide
  simp only [hostOps1, List.mem_cons, List.mem_nil_iff, or_false] at hop
  rcases hop with rfl | rfl | rfl | rfl <;>
    simp only [StableHlo.nullary_writes, StableHlo.binary_writes, Finset.mem_singleton] <;>
    rcases hw with h | h | h <;> rw [h] <;> exact StableHlo.devRef_ne_of_ne (by decide)

/-! ## The contents at the region's exit -/

/-- The contents at the region's exit: the output array as the write-backs left it, everything else as the
    region found it. -/
def exitVal (dats : (p : Fin 1) → (c : Dev nD) → Dat τ (Elt F) Unit ℕ (UR sig nD τ) ℕ (cfgs p) c) (c : Dev nD) :
    Valuation τ sig (Elt F) :=
  Function.update (V0 m c) (Proc.devRef .tc main_v15) ((dats 0 c).arrAt (3 : Fin 4) cfg0.N)

theorem exitVal_out (dats : (p : Fin 1) → (c : Dev nD) → Dat τ (Elt F) Unit ℕ (UR sig nD τ) ℕ (cfgs p) c) (c : Dev nD) :
    exitVal m dats c (Proc.devRef .tc main_v15) = (dats 0 c).arrAt (3 : Fin 4) cfg0.N :=
  Function.update_self _ _ _

theorem exitVal_of_ne (dats : (p : Fin 1) → (c : Dev nD) → Dat τ (Elt F) Unit ℕ (UR sig nD τ) ℕ (cfgs p) c) (c : Dev nD)
    (b : DevRef τ sig) (hb : b ≠ Proc.devRef .tc main_v15) : exitVal m dats c b = V0 m c b :=
  Function.update_of_ne hb _ _

/-! ## The run -/

-- the general run's implicit arguments are found by unifying its conclusion with this one, which takes unfolding
-- plain definitions in a metavariable's type
set_option backward.isDefEq.respectTransparency.types false in
/-- THE RUN from any proof data at the halved shares: windows 0 and 1 hold the two halves of the array they both read,
    window 2 and the output their arrays whole; the arrays are the region-entry contents; nothing is owed. Every array
    ends at the proof data's `arrAt … N`, every bypassing buffer at what the lines after the region compute from the
    region's exit contents. -/
theorem run_of_dats (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right) (hq2 : ∀ c, (dats 0 c).q 2 = fullShare)
    (hA : ∀ c w, (dats 0 c).A w = V m c (Pipeline.arrRef spec0 w))
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b) = StableHlo.after hostOps1 (exitVal m dats c) (Proc.devRef .tc b)) := by
  -- at entry: the arrays are the region-entry contents
  have hsplit : ∀ c, (Pipeline.arrBufs spec0 c (fun b => V0 m c (Proc.devRef .tc b)) : sProp 𝕄) ⊢ (dats 0 c).arrays ((dats 0 c).arrAt · 0) := fun c =>
    (arrays_iff c (dats 0 c) (hq0 c) (hq1 c) (hq2 c) (V m c) _ (fun w => hA c w)).2
  -- at exit: an input's array is as it was, the output's is the exit valuation's by definition
  have hin' : ∀ c (w : Fin 4), (cfg0.win w).isOut = false → Pipeline.arrRef spec0 w ≠ main_v15 →
      (dats 0 c).arrAt w cfg0.N = exitVal m dats c (Proc.devRef .tc (Pipeline.arrRef spec0 w)) := fun c w hw hne => by
    rw [(dats 0 c).arrAt_in w hw, hA c w, exitVal_of_ne m dats c _ (StableHlo.devRef_ne_of_ne hne)]
  have hjoin : ∀ c, (dats 0 c).arrays ((dats 0 c).arrAt · cfg0.N) ⊣⊢ (Pipeline.arrBufs spec0 c (fun b => exitVal m dats c (Proc.devRef .tc b)) : sProp 𝕄) := fun c =>
    arrays_iff c (dats 0 c) (hq0 c) (hq1 c) (hq2 c) (fun b => exitVal m dats c (Proc.devRef .tc b)) _ (fun w => by
      fin_cases w
      · exact hin' c 0 isOut0 (by decide)
      · exact hin' c 1 isOut1 (by decide)
      · exact hin' c 2 isOut2 (by decide)
      · exact (exitVal_out m dats c).symm)
  have hXoff : ∀ c (b : Ref sig .tc), (∀ w, Pipeline.arrRef spec0 w ≠ b) →
      exitVal m dats c (Proc.devRef .tc b) = V0 m c (Proc.devRef .tc b) := fun c b hb =>
    exitVal_of_ne m dats c _ (StableHlo.devRef_ne_of_ne (hb 3).symm)
  have h := Cert.SharedWindows.θ_run_frame_around_shared cfgs dats (0 : Fin 1) defs₀ Variants.none cellOf_inj winFacts₀0 block_pos0
    arr_whole0 stage_whole0 m ρ main hbody howed (V0 m) [hostOps1] tail_sub tail_fresh tail_keeps (hmain m Variants.none)
    (exitVal m dats) hXoff hsplit hjoin hin hout
  rw [List.flatten_singleton] at h
  exact h

end Cert.Kernel.Hand

end
-- ==== Proof.K.Frame.lean ====
/-
  The kernel program's run and its frame: every weakly fair execution ends, the windows' arrays hold what
  the proof data computes, every other buffer what the host operations after the region leave, and the two
  arguments are unchanged.
-/
import proofs.«429412_j87256555585551_1_alg».proof.Proof.K.Oblig
import proofs.«429412_j87256555585551_1_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run: the arrays at what the proof data computes, every other unscoped buffer at what the host operations
    after the region leave from the contents at the region's exit. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after hostOps1 (exitVal m (dats m) c) (Proc.devRef .tc b)) :=
  run_of_dats m ρ (dats m) (fun _ => rfl) (fun _ => rfl) (fun _ => rfl) (A_eq m) (fun _ _ => rfl)
    (fun c => (body_obligation m c).loose) (hin m) (hout m)

/-- No host operation before the region writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
    repeat' apply And.intro
    all_goals exact StableHlo.devRef_ne_of_ne (by decide)))

/-- Nor does any after it, and the region's exit changes only the output array. -/
theorem W_main_arg0 (c : Dev nD) :
    StableHlo.after hostOps1 (exitVal m (dats m) c) (Proc.devRef .tc main_arg0) = m ((c : Thread nD τ).loc main_arg0) := by
  rw [StableHlo.after_of_forall_not_mem (b := Proc.devRef .tc main_arg0) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    exitVal_of_ne m (dats m) c _ (StableHlo.devRef_ne_of_ne (by decide))]
  exact V_main_arg0 m c
theorem W_main_arg1 (c : Dev nD) :
    StableHlo.after hostOps1 (exitVal m (dats m) c) (Proc.devRef .tc main_arg1) = m ((c : Thread nD τ).loc main_arg1) := by
  rw [StableHlo.after_of_forall_not_mem (b := Proc.devRef .tc main_arg1) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    exitVal_of_ne m (dats m) c _ (StableHlo.devRef_ne_of_ne (by decide))]
  exact V_main_arg1 m c

/-- The frame: the program runs to the end and leaves its two arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c)⟩) (run_main m ρ)

end Cert.Kernel.Hand

end
-- ==== Proof.KI.Step.lean ====
/-
  One grid point of the kernel as pure functions of what it reads: the two feature blocks `q` (the
  row tile) and `k` (the column tile), the similarity block `w`, and the four running columns it
  keeps between points (maximum, rescaled sum of exponentials, weighted sum of logits, sum of weights).
-/
import proofs.«429412_j87256555585551_1_alg».proof.Proof.Gen.KernelIdeal.Skeleton

noncomputable section

namespace Cert.KernelIdeal.Hand

open Cert.KernelIdeal Cert.KernelIdeal.Gen Idealize.ShloMosaic Idealize.SL.Sem

variable {F : FTy → Type} [FloatOps F] [Named F]

/-- The point is the first of its row of the grid: the running columns are reset. -/
abbrev condFirst (i : grid0.Coords) : Prop :=
  (Scalar.cmpi .ne (Scalar.extui (Scalar.cmpi .eq (BitVec.ofNat 32 (i 1).val) 0#32)) 0#32) = 1#1
/-- The point is the last of its row of the grid: the row tile's losses are stored. -/
abbrev condLast (i : grid0.Coords) : Prop := k0_cond2 i = 1#1

/-- The running maximum after the point. -/
def stepM (q k : Vec F S512x512 .bf16) (s6 : Vec F S512x1 .f32) : Vec F S512x1 .f32 :=
  k0_pay2 (k0_pay13 q k s6)
/-- The rescaled sum of exponentials after the point. -/
def stepSe (i : grid0.Coords) (q k : Vec F S512x512 .bf16) (s6 s7 : Vec F S512x1 .f32) : Vec F S512x1 .f32 :=
  k0_pay1 (k0_pay14 q k s6 s6 s7) (k0_pay15 i q k s6)
/-- The weighted sum of logits after the point. -/
def stepWs (i : grid0.Coords) (q k : Vec F S512x512 .bf16) (w : Vec F S512x512 .f32) (s8 : Vec F S512x1 .f32) : Vec F S512x1 .f32 :=
  k0_pay4 (k0_pay11 q k) (k0_pay12 (F := F) i) w s8
/-- The sum of weights after the point. -/
def stepMs (i : grid0.Coords) (w : Vec F S512x512 .f32) (s9 : Vec F S512x1 .f32) : Vec F S512x1 .f32 :=
  k0_pay5 (k0_pay12 (F := F) i) w s9
/-- The row tile's losses from the four columns. -/
def outRows (m se ws ms : Vec F S512x1 .f32) : Vec F S512x1 .f32 := k0_pay6 ws ms m se

/-- The four columns as the reset leaves them. -/
abbrev resetM : Vec F S512x1 .f32 := k0_pay7 (F := F)
abbrev resetSe : Vec F S512x1 .f32 := k0_pay8 (F := F)
abbrev resetWs : Vec F S512x1 .f32 := k0_pay9 (F := F)
abbrev resetMs : Vec F S512x1 .f32 := k0_pay10 (F := F)

end Cert.KernelIdeal.Hand

end
-- ==== Proof.KI.Base.lean ====
/-
  What every part of the kernel's frame is stated over: the contents the region finds after the host
  operations before it, the windows' blocks, at which grid points the running columns are reset and at
  which the losses are stored, and the staging and scratch memrefs at a point.
-/
import proofs.«429412_j87256555585551_1_alg».proof.Proof.Gen.KernelIdeal.Launch
import proofs.«429412_j87256555585551_1_alg».proof.Proof.Gen.KernelIdeal.Points
import proofs.«429412_j87256555585551_1_alg».proof.Proof.KI.Step
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: after the host operations before it. -/
abbrev V0 (c : Dev nD) : Valuation τ sig (Elt F) := StableHlo.after (List.flatten [hostOps0, hostOps0_1, hostOps0_2]) (fun b => m (c, b))
/-- The same read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two conditions over the grid -/

/-- The running columns are reset at the points ≡ 0 (mod 8). -/
theorem hcondFirst : ∀ t : Fin cfg0.N, condFirst (grid0.coords t) ↔ t.val % 8 = 0 :=
  (by decide +kernel : ∀ t : Fin grid0.N, condFirst (grid0.coords t) ↔ t.val % 8 = 0)
/-- The losses are stored at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-- The inputs are never idle. -/
theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- The output is idle, and not written back, except where the losses are stored. -/
theorem idleAt3 : ∀ t : Fin cfg0.N, ¬condLast (grid0.coords t) → cfg0.idle 3 (grid0.coords t) = true := by decide +kernel
theorem noFlush3 : ∀ t : Fin cfg0.N, ¬condLast (grid0.coords t) → (cfg0.win 3).flush t = false := by decide +kernel
theorem liveAt3 : ∀ t : Fin cfg0.N, condLast (grid0.coords t) → cfg0.idle 3 (grid0.coords t) = false := by decide +kernel

/-! ## The memrefs at a point -/

abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
/-- The four running columns: whole scoped buffers of the kernel's own. -/
abbrev scM : Memref sig .tc .vmem S512x1 .f32 := Memref.whole cc0_scratch0
abbrev scSe : Memref sig .tc .vmem S512x1 .f32 := Memref.whole cc0_scratch1
abbrev scWs : Memref sig .tc .vmem S512x1 .f32 := Memref.whole cc0_scratch2
abbrev scMs : Memref sig .tc .vmem S512x1 .f32 := Memref.whole cc0_scratch3

/-- What the region's invariant holds when nothing is said of the running columns: each at some contents,
    and the generator register at some state. -/
theorem PhiA_eq (c : Dev nD) :
    (Pipeline.ΦA spec0 c : sProp 𝕄)
      = iprop(iprop((∃ d, owns (c : Thread nD τ) scM fullShare d) ∗ (∃ d, owns (c : Thread nD τ) scSe fullShare d)
          ∗ (∃ d, owns (c : Thread nD τ) scWs fullShare d) ∗ (∃ d, owns (c : Thread nD τ) scMs fullShare d)) ∗ (∃ r, prngReg c r)) := by
  unfold Pipeline.ΦA; rw [scopedRest0_eq]; simp only [scM, scSe, scWs, scMs, owns_whole]; try rfl

end Cert.KernelIdeal.Hand

end
-- ==== Proof.KI.Body.lean ====
/-
  One grid point of the kernel as three separation-logic triples, one per control case of its body.
  The body reads the two feature blocks and the similarity block, and keeps four running columns
  (maximum, rescaled sum of exponentials, weighted sum of logits, sum of weights) between points:
  * at a point that is neither first nor last of its row, each column goes from what the point
    before left to its stepped value, and the loss column is untouched;
  * at the first point of a row, the columns are first reset, so the stepped values start from
    the reset values whatever the columns held;
  * at the last point of a row, the loss column is moreover filled from the four STEPPED columns.
  Every store fills a whole column, so a column reads back as the payload of its last store, and a
  load after a store reads that payload.
-/
import proofs.«429412_j87256555585551_1_alg».proof.Proof.KI.Base
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a two-axis rectangle. -/
theorem off_zero : (![0, 0] : Fin 2 → Nat) = fun _ => 0 := funext fun a => by fin_cases a <;> rfl

/-- A buffer whose last store filled its whole shape reads back as that store's payload,
    whatever it held before and whatever was stored earlier. -/
theorem read_after_whole_store {Val : EltTy → Type} [∀ e, Nonempty (Val e)] {sg : RefSig} {κ : Kind} {sp : Space}
    {S : Shape} {e : EltTy} (v : View sg κ sp S e) (f : v.ty.Contents Val) {off : Fin S.rank → Nat}
    (h : off = fun _ => 0) (inb : ∀ a, off a + S.size a ≤ S.size a) (x : S.Idx → Val e)
    (L : List (View.Piece Val S e)) :
    v.read Val (v.writes Val f ((⟨Rect.unit off S.size inb, x⟩ : View.Piece Val S e) :: L)) = x := by
  funext y
  rw [View.read_writes_apply_eq_canon v f y _
    ⟨_, List.mem_cons_self, View.mem_set_unit_zero h inb y⟩]
  exact congrFun (View.canon_cons_unit_zero h inb x L) y

set_option maxHeartbeats 4000000 in
/-- A point that is neither the first nor the last of its row: the four columns step from what
    they held, the inputs and the loss column are as they were. -/
theorem body_mid (c : Dev nD) (i : grid0.Coords)
    (arg2 : Memref sig .tc .vmem S512x512 .bf16) (harg2 : arg2.IsWhole)
    (arg3 : Memref sig .tc .vmem S512x512 .bf16) (harg3 : arg3.IsWhole)
    (arg4 : Memref sig .tc .vmem S512x512 .f32) (harg4 : arg4.IsWhole)
    (arg5 : Memref sig .tc .vmem S512x1 .f32) (harg5 : arg5.IsWhole)
    (arg6 : Memref sig .tc .vmem S512x1 .f32) (harg6 : arg6.IsWhole)
    (arg7 : Memref sig .tc .vmem S512x1 .f32) (harg7 : arg7.IsWhole)
    (arg8 : Memref sig .tc .vmem S512x1 .f32) (harg8 : arg8.IsWhole)
    (arg9 : Memref sig .tc .vmem S512x1 .f32) (harg9 : arg9.IsWhole)
    (q k : Vec F S512x512 .bf16) (w : Vec F S512x512 .f32) (E : Set ℕ) (K : PUnit → sProp 𝕄)
    (hc0 : ¬condFirst i) (hc1 : ¬condLast i) (o s6 s7 s8 s9 : Vec F S512x1 .f32) :
    iprop(owns (c : Thread nD τ) arg2 fullShare q ∗ owns (c : Thread nD τ) arg3 fullShare k ∗ owns (c : Thread nD τ) arg4 fullShare w ∗ owns (c : Thread nD τ) arg5 fullShare o
      ∗ owns (c : Thread nD τ) arg6 fullShare s6 ∗ owns (c : Thread nD τ) arg7 fullShare s7 ∗ owns (c : Thread nD τ) arg8 fullShare s8 ∗ owns (c : Thread nD τ) arg9 fullShare s9
      ∗ (iprop(owns (c : Thread nD τ) arg2 fullShare q ∗ owns (c : Thread nD τ) arg3 fullShare k ∗ owns (c : Thread nD τ) arg4 fullShare w ∗ owns (c : Thread nD τ) arg5 fullShare o
          ∗ owns (c : Thread nD τ) arg6 fullShare (stepM q k s6) ∗ owns (c : Thread nD τ) arg7 fullShare (stepSe i q k s6 s7)
          ∗ owns (c : Thread nD τ) arg8 fullShare (stepWs i q k w s8) ∗ owns (c : Thread nD τ) arg9 fullShare (stepMs i w s9)) -∗ K ⟨⟩))
    ⊢ wp frame (wpE (defs₀ (F := F)) Variants.none c none) E (cc0__mulsup_kernel i arg2 harg2 arg3 harg3 arg4 harg4 arg5 harg5 arg6 harg6 arg7 harg7 arg8 harg8 arg9 harg9) K := by
  simp only [cc0__mulsup_kernel_eq_skeleton]; unfold cc0__mulsup_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    rotate_left; iexact H6
    ipureintro
    refine (read_after_whole_store (Val := Elt F) (S := S512x1) _ _ off_zero inb_S512x1_S512x1_0_0 _ _).trans ?_
    simp only [View.readAt_eq_ld, harg2.read_unread, harg3.read_unread, harg4.read_unread, harg5.read_unread,
      harg6.read_unread, harg7.read_unread, harg8.read_unread, harg9.read_unread,
      View.ld_unit_zero (S := S512x1) off_zero, View.ld_unit_zero (S := S512x512) off_zero]
    rfl
  isplitl [H7]
  · iexists _; isplitr
    rotate_left; iexact H7
    ipureintro
    refine (read_after_whole_store (Val := Elt F) (S := S512x1) _ _ off_zero inb_S512x1_S512x1_0_0 _ _).trans ?_
    simp only [View.readAt_eq_ld, harg2.read_unread, harg3.read_unread, harg4.read_unread, harg5.read_unread,
      harg6.read_unread, harg7.read_unread, harg8.read_unread, harg9.read_unread,
      View.ld_unit_zero (S := S512x1) off_zero, View.ld_unit_zero (S := S512x512) off_zero]
    rfl
  isplitl [H8]
  · iexists _; isplitr
    rotate_left; iexact H8
    ipureintro
    refine (read_after_whole_store (Val := Elt F) (S := S512x1) _ _ off_zero inb_S512x1_S512x1_0_0 _ _).trans ?_
    simp only [View.readAt_eq_ld, harg2.read_unread, harg3.read_unread, harg4.read_unread, harg5.read_unread,
      harg6.read_unread, harg7.read_unread, harg8.read_unread, harg9.read_unread,
      View.ld_unit_zero (S := S512x1) off_zero, View.ld_unit_zero (S := S512x512) off_zero]
    rfl
  iexists _; isplitr
  rotate_left; iexact H9
  ipureintro
  refine (read_after_whole_store (Val := Elt F) (S := S512x1) _ _ off_zero inb_S512x1_S512x1_0_0 _ _).trans ?_
  simp only [View.readAt_eq_ld, harg2.read_unread, harg3.read_unread, harg4.read_unread, harg5.read_unread,
      harg6.read_unread, harg7.read_unread, harg8.read_unread, harg9.read_unread,
      View.ld_unit_zero (S := S512x1) off_zero, View.ld_unit_zero (S := S512x512) off_zero]
  rfl

set_option maxHeartbeats 4000000 in
/-- The first point of a row: the four columns, whatever they held, are reset and then stepped. -/
theorem body_first (c : Dev nD) (i : grid0.Coords)
    (arg2 : Memref sig .tc .vmem S512x512 .bf16) (harg2 : arg2.IsWhole)
    (arg3 : Memref sig .tc .vmem S512x512 .bf16) (harg3 : arg3.IsWhole)
    (arg4 : Memref sig .tc .vmem S512x512 .f32) (harg4 : arg4.IsWhole)
    (arg5 : Memref sig .tc .vmem S512x1 .f32) (harg5 : arg5.IsWhole)
    (arg6 : Memref sig .tc .vmem S512x1 .f32) (harg6 : arg6.IsWhole)
    (arg7 : Memref sig .tc .vmem S512x1 .f32) (harg7 : arg7.IsWhole)
    (arg8 : Memref sig .tc .vmem S512x1 .f32) (harg8 : arg8.IsWhole)
    (arg9 : Memref sig .tc .vmem S512x1 .f32) (harg9 : arg9.IsWhole)
    (q k : Vec F S512x512 .bf16) (w : Vec F S512x512 .f32) (E : Set ℕ) (K : PUnit → sProp 𝕄)
    (hc0 : condFirst i) (hc1 : ¬condLast i) (o : Vec F S512x1 .f32) :
    iprop(owns (c : Thread nD τ) arg2 fullShare q ∗ owns (c : Thread nD τ) arg3 fullShare k ∗ owns (c : Thread nD τ) arg4 fullShare w ∗ owns (c : Thread nD τ) arg5 fullShare o
      ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
      ∗ (iprop(owns (c : Thread nD τ) arg2 fullShare q ∗ owns (c : Thread nD τ) arg3 fullShare k ∗ owns (c : Thread nD τ) arg4 fullShare w ∗ owns (c : Thread nD τ) arg5 fullShare o
          ∗ owns (c : Thread nD τ) arg6 fullShare (stepM q k resetM) ∗ owns (c : Thread nD τ) arg7 fullShare (stepSe i q k resetM resetSe)
          ∗ owns (c : Thread nD τ) arg8 fullShare (stepWs i q k w resetWs) ∗ owns (c : Thread nD τ) arg9 fullShare (stepMs i w resetMs)) -∗ K ⟨⟩))
    ⊢ wp frame (wpE (defs₀ (F := F)) Variants.none c none) E (cc0__mulsup_kernel i arg2 harg2 arg3 harg3 arg4 harg4 arg5 harg5 arg6 harg6 arg7 harg7 arg8 harg8 arg9 harg9) K := by
  simp only [cc0__mulsup_kernel_eq_skeleton]; unfold cc0__mulsup_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg2.eq_unread hf2; obtain rfl := harg3.eq_unread hf3; obtain rfl := harg4.eq_unread hf4
  obtain rfl := harg5.eq_unread hf5
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    rotate_left; iexact H6
    ipureintro
    refine (read_after_whole_store (Val := Elt F) (S := S512x1) _ _ off_zero inb_S512x1_S512x1_0_0 _ _).trans ?_
    sl_unfold_words
    simp only [View.readAt_eq_ld, harg2.read_unread, harg3.read_unread, harg4.read_unread, harg5.read_unread,
      harg6.read_unread, harg7.read_unread, harg8.read_unread, harg9.read_unread,
      View.readCov_unit_zero (S := S512x1) _ off_zero,
      View.ld_unit_zero (S := S512x1) off_zero, View.ld_unit_zero (S := S512x512) off_zero]
    rfl
  isplitl [H7]
  · iexists _; isplitr
    rotate_left; iexact H7
    ipureintro
    refine (read_after_whole_store (Val := Elt F) (S := S512x1) _ _ off_zero inb_S512x1_S512x1_0_0 _ _).trans ?_
    sl_unfold_words
    simp only [View.readAt_eq_ld, harg2.read_unread, harg3.read_unread, harg4.read_unread, harg5.read_unread,
      harg6.read_unread, harg7.read_unread, harg8.read_unread, harg9.read_unread,
      View.readCov_unit_zero (S := S512x1) _ off_zero,
      View.ld_unit_zero (S := S512x1) off_zero, View.ld_unit_zero (S := S512x512) off_zero]
    rfl
  isplitl [H8]
  · iexists _; isplitr
    rotate_left; iexact H8
    ipureintro
    refine (read_after_whole_store (Val := Elt F) (S := S512x1) _ _ off_zero inb_S512x1_S512x1_0_0 _ _).trans ?_
    sl_unfold_words
    simp only [View.readAt_eq_ld, harg2.read_unread, harg3.read_unread, harg4.read_unread, harg5.read_unread,
      harg6.read_unread, harg7.read_unread, harg8.read_unread, harg9.read_unread,
      View.readCov_unit_zero (S := S512x1) _ off_zero,
      View.ld_unit_zero (S := S512x1) off_zero, View.ld_unit_zero (S := S512x512) off_zero]
    rfl
  iexists _; isplitr
  rotate_left; iexact H9
  ipureintro
  refine (read_after_whole_store (Val := Elt F) (S := S512x1) _ _ off_zero inb_S512x1_S512x1_0_0 _ _).trans ?_
  sl_unfold_words
  simp only [View.readAt_eq_ld, harg2.read_unread, harg3.read_unread, harg4.read_unread, harg5.read_unread,
      harg6.read_unread, harg7.read_unread, harg8.read_unread, harg9.read_unread,
      View.readCov_unit_zero (S := S512x1) _ off_zero,
      View.ld_unit_zero (S := S512x1) off_zero, View.ld_unit_zero (S := S512x512) off_zero]
  rfl

set_option maxHeartbeats 4000000 in
/-- The last point of a row: the four columns step, and the loss column, whatever it held, is
    filled from the stepped columns. -/
theorem body_last (c : Dev nD) (i : grid0.Coords)
    (arg2 : Memref sig .tc .vmem S512x512 .bf16) (harg2 : arg2.IsWhole)
    (arg3 : Memref sig .tc .vmem S512x512 .bf16) (harg3 : arg3.IsWhole)
    (arg4 : Memref sig .tc .vmem S512x512 .f32) (harg4 : arg4.IsWhole)
    (arg5 : Memref sig .tc .vmem S512x1 .f32) (harg5 : arg5.IsWhole)
    (arg6 : Memref sig .tc .vmem S512x1 .f32) (harg6 : arg6.IsWhole)
    (arg7 : Memref sig .tc .vmem S512x1 .f32) (harg7 : arg7.IsWhole)
    (arg8 : Memref sig .tc .vmem S512x1 .f32) (harg8 : arg8.IsWhole)
    (arg9 : Memref sig .tc .vmem S512x1 .f32) (harg9 : arg9.IsWhole)
    (q k : Vec F S512x512 .bf16) (w : Vec F S512x512 .f32) (E : Set ℕ) (K : PUnit → sProp 𝕄)
    (hc0 : ¬condFirst i) (hc1 : condLast i) (s6 s7 s8 s9 : Vec F S512x1 .f32) :
    iprop(owns (c : Thread nD τ) arg2 fullShare q ∗ owns (c : Thread nD τ) arg3 fullShare k ∗ owns (c : Thread nD τ) arg4 fullShare w ∗ (∃ d, owns (c : Thread nD τ) arg5 fullShare d)
      ∗ owns (c : Thread nD τ) arg6 fullShare s6 ∗ owns (c : Thread nD τ) arg7 fullShare s7 ∗ owns (c : Thread nD τ) arg8 fullShare s8 ∗ owns (c : Thread nD τ) arg9 fullShare s9
      ∗ (iprop(owns (c : Thread nD τ) arg2 fullShare q ∗ owns (c : Thread nD τ) arg3 fullShare k ∗ owns (c : Thread nD τ) arg4 fullShare w
          ∗ owns (c : Thread nD τ) arg5 fullShare (outRows (stepM q k s6) (stepSe i q k s6 s7) (stepWs i q k w s8) (stepMs i w s9))
          ∗ owns (c : Thread nD τ) arg6 fullShare (stepM q k s6) ∗ owns (c : Thread nD τ) arg7 fullShare (stepSe i q k s6 s7)
          ∗ owns (c : Thread nD τ) arg8 fullShare (stepWs i q k w s8) ∗ owns (c : Thread nD τ) arg9 fullShare (stepMs i w s9)) -∗ K ⟨⟩))
    ⊢ wp frame (wpE (defs₀ (F := F)) Variants.none c none) E (cc0__mulsup_kernel i arg2 harg2 arg3 harg3 arg4 harg4 arg5 harg5 arg6 harg6 arg7 harg7 arg8 harg8 arg9 harg9) K := by
  simp only [cc0__mulsup_kernel_eq_skeleton]; unfold cc0__mulsup_kernel_skel
  simp only [k0_part1_eq_skeleton]; unfold k0_part1_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg6.eq_unread hf6; obtain rfl := harg7.eq_unread hf7
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    rotate_left; iexact H5
    ipureintro
    refine (read_after_whole_store (Val := Elt F) (S := S512x1) _ _ off_zero inb_S512x1_S512x1_0_0 _ _).trans ?_
    sl_unfold_words
    simp only [View.readAt_eq_ld, harg2.read_unread, harg3.read_unread, harg4.read_unread, harg5.read_unread,
      harg6.read_unread, harg7.read_unread, harg8.read_unread, harg9.read_unread,
      View.readCov_unit_zero (S := S512x1) _ off_zero,
      View.ld_unit_zero (S := S512x1) off_zero, View.ld_unit_zero (S := S512x512) off_zero]
    rfl
  isplitl [H6]
  · iexists _; isplitr
    rotate_left; iexact H6
    ipureintro
    refine (read_after_whole_store (Val := Elt F) (S := S512x1) _ _ off_zero inb_S512x1_S512x1_0_0 _ _).trans ?_
    simp only [View.readAt_eq_ld, harg2.read_unread, harg3.read_unread, harg4.read_unread, harg5.read_unread,
      harg6.read_unread, harg7.read_unread, harg8.read_unread, harg9.read_unread,
      View.ld_unit_zero (S := S512x1) off_zero, View.ld_unit_zero (S := S512x512) off_zero]
    rfl
  isplitl [H7]
  · iexists _; isplitr
    rotate_left; iexact H7
    ipureintro
    refine (read_after_whole_store (Val := Elt F) (S := S512x1) _ _ off_zero inb_S512x1_S512x1_0_0 _ _).trans ?_
    simp only [View.readAt_eq_ld, harg2.read_unread, harg3.read_unread, harg4.read_unread, harg5.read_unread,
      harg6.read_unread, harg7.read_unread, harg8.read_unread, harg9.read_unread,
      View.ld_unit_zero (S := S512x1) off_zero, View.ld_unit_zero (S := S512x512) off_zero]
    rfl
  isplitl [H8]
  · iexists _; isplitr
    rotate_left; iexact H8
    ipureintro
    refine (read_after_whole_store (Val := Elt F) (S := S512x1) _ _ off_zero inb_S512x1_S512x1_0_0 _ _).trans ?_
    simp only [View.readAt_eq_ld, harg2.read_unread, harg3.read_unread, harg4.read_unread, harg5.read_unread,
      harg6.read_unread, harg7.read_unread, harg8.read_unread, harg9.read_unread,
      View.ld_unit_zero (S := S512x1) off_zero, View.ld_unit_zero (S := S512x512) off_zero]
    rfl
  iexists _; isplitr
  rotate_left; iexact H9
  ipureintro
  refine (read_after_whole_store (Val := Elt F) (S := S512x1) _ _ off_zero inb_S512x1_S512x1_0_0 _ _).trans ?_
  simp only [View.readAt_eq_ld, harg2.read_unread, harg3.read_unread, harg4.read_unread, harg5.read_unread,
      harg6.read_unread, harg7.read_unread, harg8.read_unread, harg9.read_unread,
      View.ld_unit_zero (S := S512x1) off_zero, View.ld_unit_zero (S := S512x512) off_zero]
  rfl

end Cert.KernelIdeal.Hand

end
-- ==== Proof.KI.Cols.lean ====
/-
  The kernel's running columns point by point, as pure functions of the blocks the points read.
-/
import proofs.«429412_j87256555585551_1_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The blocks a point reads, at their literal types -/

/-- The row tile's features, the column tile's features, the similarity block at point `t`. -/
abbrev qblk (c : Dev nD) (t : Fin cfg0.N) : Vec F S512x512 .bf16 := iblk m c 0 t
abbrev kblk (c : Dev nD) (t : Fin cfg0.N) : Vec F S512x512 .bf16 := iblk m c 1 t
abbrev wblk (c : Dev nD) (t : Fin cfg0.N) : Vec F S512x512 .f32 := iblk m c 2 t

/-! ## The running columns after each point -/

/-- The four running columns: maximum, rescaled sum of exponentials, weighted sum of logits, sum of weights. -/
structure Cols (F : FTy → Type) where
  mx : Vec F S512x1 .f32
  se : Vec F S512x1 .f32
  ws : Vec F S512x1 .f32
  ms : Vec F S512x1 .f32

/-- One point's update of the columns `p` from the blocks at `t`. -/
def stepCols (c : Dev nD) (t : Fin cfg0.N) (p : Cols F) : Cols F :=
  ⟨stepM (qblk m c t) (kblk m c t) p.mx,
   stepSe (grid0.coords t) (qblk m c t) (kblk m c t) p.mx p.se,
   stepWs (grid0.coords t) (qblk m c t) (kblk m c t) (wblk m c t) p.ws,
   stepMs (grid0.coords t) (wblk m c t) p.ms⟩

/-- The columns as the reset leaves them. -/
def resetCols : Cols F := ⟨resetM, resetSe, resetWs, resetMs⟩

/-- The columns after the body at position `n`: reset first at the points ≡ 0 (mod 8), else over what the
    point before left. -/
def colsAt (c : Dev nD) : (n : ℕ) → n < cfg0.N → Cols F
  | 0, hn => stepCols m c ⟨0, hn⟩ resetCols
  | n + 1, hn =>
    if (n + 1) % 8 = 0 then stepCols m c ⟨n + 1, hn⟩ resetCols
    else stepCols m c ⟨n + 1, hn⟩ (colsAt c n (Nat.lt_of_succ_lt hn))

theorem colsAt_first (c : Dev nD) (t : Fin cfg0.N) (h0 : t.val % 8 = 0) :
    colsAt m c t.val t.isLt = stepCols m c t resetCols := by
  obtain ⟨n, hn⟩ := t
  cases n with
  | zero => rfl
  | succ n => exact (if_pos h0)

theorem colsAt_next (c : Dev nD) (t : Fin cfg0.N) (h0 : ¬t.val % 8 = 0) :
    colsAt m c t.val t.isLt = stepCols m c t (colsAt m c (t.val - 1) (Nat.lt_of_le_of_lt (Nat.sub_le _ _) t.isLt)) := by
  obtain ⟨n, hn⟩ := t
  cases n with
  | zero => exact absurd (Nat.zero_mod _) h0
  | succ n => exact (if_neg h0)

/-- What the body stores as the row tile's losses at a point where it stores them. -/
def outAt (c : Dev nD) (t : Fin cfg0.N) : Vec F S512x1 .f32 :=
  outRows (colsAt m c t.val t.isLt).mx (colsAt m c t.val t.isLt).se (colsAt m c t.val t.isLt).ws (colsAt m c t.val t.isLt).ms

end Cert.KernelIdeal.Hand

end
-- ==== Proof.KI.Dats.lean ====
/-
  The proof data of the kernel's pipeline: what the region's invariant holds between grid points, what the
  body leaves in each window's buffer, and that each input's buffer holds its block at every point.
-/
import proofs.«429412_j87256555585551_1_alg».proof.Proof.KI.Cols

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The region's invariant -/

/-- Before position `n`: nothing said of the columns before the first point; afterwards each column at what the
    point before left, and the generator register at some state. -/
def PhiS (c : Dev nD) : (n : ℕ) → n ≤ cfg0.N → sProp 𝕄
  | 0, _ => Pipeline.ΦA spec0 c
  | n + 1, hn => iprop(iprop(owns (c : Thread nD τ) scM fullShare (colsAt m c n hn).mx ∗ owns (c : Thread nD τ) scSe fullShare (colsAt m c n hn).se
      ∗ owns (c : Thread nD τ) scWs fullShare (colsAt m c n hn).ws ∗ owns (c : Thread nD τ) scMs fullShare (colsAt m c n hn).ms) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (colsAt m c n hn).mx ∗ owns (c : Thread nD τ) scSe fullShare (colsAt m c n hn).se
      ∗ owns (c : Thread nD τ) scWs fullShare (colsAt m c n hn).ws ∗ owns (c : Thread nD τ) scMs fullShare (colsAt m c n hn).ms) ∗ (∃ r, prngReg c r)) := rfl

theorem PhiS_pos (c : Dev nD) (n : ℕ) (h : n ≤ cfg0.N) (hz : n ≠ 0) :
    PhiS m c n h = iprop(iprop(owns (c : Thread nD τ) scM fullShare (colsAt m c (n - 1) (by omega)).mx ∗ owns (c : Thread nD τ) scSe fullShare (colsAt m c (n - 1) (by omega)).se
      ∗ owns (c : Thread nD τ) scWs fullShare (colsAt m c (n - 1) (by omega)).ws ∗ owns (c : Thread nD τ) scMs fullShare (colsAt m c (n - 1) (by omega)).ms) ∗ (∃ r, prngReg c r)) := by
  cases n with
  | zero => exact absurd rfl hz
  | succ n => rfl

/-! ## The proof data -/

/-- The pipeline's proof data on core `c`: the arrays as the region finds them; each input's buffer left at its
    block, the output's at the stored losses; the invariant `PhiS`; the shared feature array held in two halves
    by the two windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

end Cert.KernelIdeal.Hand

end
-- ==== Proof.KI.Oblig.lean ====
/-
  The body's obligation at every grid point, from the body's three cases: the first point of a row of the
  grid (the running columns are reset), the last (the losses are stored), and the points between.
-/
import proofs.«429412_j87256555585551_1_alg».proof.Proof.KI.Body
import proofs.«429412_j87256555585551_1_alg».proof.Proof.KI.Dats

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [liveAt0 t, after0]
theorem leaves1 (c : Dev nD) (t : Fin cfg0.N) :
    (dats m 0 c).leavesExact 1 t = owns (c : Thread nD τ) (ms1 t) fullShare (iblk m c 1 t) := by
  unfold Dat.leavesExact; rw [liveAt1 t, after1]
theorem leaves2 (c : Dev nD) (t : Fin cfg0.N) :
    (dats m 0 c).leavesExact 2 t = owns (c : Thread nD τ) (ms2 t) fullShare (iblk m c 2 t) := by
  unfold Dat.leavesExact; rw [liveAt2 t, after2]
theorem leaves3_last (c : Dev nD) (t : Fin cfg0.N) (h : condLast (grid0.coords t)) :
    (dats m 0 c).leavesExact 3 t = owns (c : Thread nD τ) (ms3 t) fullShare (outAt m c t) := by
  unfold Dat.leavesExact; rw [liveAt3 t h, after3]

set_option maxHeartbeats 4800000 in
/-- The body at any point: the inputs' buffers hold their blocks; the point is the first of its row of the grid,
    the last, or neither; the invariant hands over the running columns at what the point before left (at anything
    where they are reset) and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 64 := lt_of_lt_of_eq t.isLt (show cfg0.N = 64 from N_0)
  by_cases h0 : t.val % 8 = 0
  · have h1 : ¬t.val % 8 = 7 := by omega
    have hc0 : condFirst (grid0.coords t) := (hcondFirst t).mpr h0
    have hc1 : ¬condLast (grid0.coords t) := fun h => h1 ((hcondLast t).mp h)
    rw [Dat.leavesExact_idle (dats m 0 c) 3 t (idleAt3 t hc1) (noFlush3 t hc1)]
    rw [colsAt_first m c t h0]
    unfold stepCols resetCols; dsimp only
    have hPhi : (dats m 0 c).Φ t.castSucc ⊢ (Pipeline.ΦA spec0 c : sProp 𝕄) := by
      rw [PhiS_castSucc m c t]
      by_cases hz : t.val = 0
      · rw [PhiS_zero m c _ _ hz]
      · rw [PhiS_pos m c _ _ hz, PhiA_eq]
        iintro ⟨⟨H6, H7, H8, H9⟩, Hg⟩
        isplitr [Hg]
        · isplitl [H6]; · iexists _; iexact H6
          isplitl [H7]; · iexists _; iexact H7
          isplitl [H8]; · iexists _; iexact H8
          iexists _; iexact H9
        · iexact Hg
    refine (sep_mono_left hPhi).trans ?_
    rw [PhiA_eq]
    iintro ⟨⟨⟨H6, H7, H8, H9⟩, Hg⟩, Ho, ⟨%d0, H0⟩, ⟨%d1, H1⟩, ⟨%d2, H2⟩, ⟨%d3, H3⟩⟩
    iapply (body_first c (grid0.coords t) (ms0 t) (hs0 t) (ms1 t) (hs1 t) (ms2 t) (hs2 t) (ms3 t) (hs3 t)
      scM (Memref.isWhole_whole _) scSe (Memref.isWhole_whole _) scWs (Memref.isWhole_whole _) scMs (Memref.isWhole_whole _)
      (qblk m c t) (kblk m c t) (wblk m c t) Set.univ _ hc0 hc1 ((dats m 0 c).before 3 t d3))
    isplitl [H0]; · iexact H0
    isplitl [H1]; · iexact H1
    isplitl [H2]; · iexact H2
    isplitl [H3]; · iexact H3
    isplitl [H6]; · iexact H6
    isplitl [H7]; · iexact H7
    isplitl [H8]; · iexact H8
    isplitl [H9]; · iexact H9
    iintro ⟨H0, H1, H2, H3, H6, H7, H8, H9⟩
    isplitl [H6 H7 H8 H9 Hg]
    · isplitr [Hg]
      · isplitl [H6]; · iexact H6
        isplitl [H7]; · iexact H7
        isplitl [H8]; · iexact H8
        iexact H9
      · iexact Hg
    isplitl [Ho]; · iexact Ho
    isplitl [H0]; · iexact H0
    isplitl [H1]; · iexact H1
    isplitl [H2]; · iexact H2
    iexists _; iexact H3
  · have hz : t.val ≠ 0 := fun e => h0 (by rw [e])
    have hc0 : ¬condFirst (grid0.coords t) := fun h => h0 ((hcondFirst t).mp h)
    rw [colsAt_next m c t h0]
    rw [PhiS_castSucc m c t, PhiS_pos m c _ _ hz]
    unfold stepCols; dsimp only
    by_cases h1 : t.val % 8 = 7
    · have hc1 : condLast (grid0.coords t) := (hcondLast t).mpr h1
      rw [leaves3_last m c t hc1]
      unfold outAt
      rw [colsAt_next m c t h0]
      unfold stepCols; dsimp only
      iintro ⟨⟨⟨H6, H7, H8, H9⟩, Hg⟩, Ho, ⟨%d0, H0⟩, ⟨%d1, H1⟩, ⟨%d2, H2⟩, ⟨%d3, H3⟩⟩
      iapply (body_last c (grid0.coords t) (ms0 t) (hs0 t) (ms1 t) (hs1 t) (ms2 t) (hs2 t) (ms3 t) (hs3 t)
        scM (Memref.isWhole_whole _) scSe (Memref.isWhole_whole _) scWs (Memref.isWhole_whole _) scMs (Memref.isWhole_whole _)
        (qblk m c t) (kblk m c t) (wblk m c t) Set.univ _ hc0 hc1 _ _ _ _)
      isplitl [H0]; · iexact H0
      isplitl [H1]; · iexact H1
      isplitl [H2]; · iexact H2
      isplitl [H3]; · iexists _; iexact H3
      isplitl [H6]; · iexact H6
      isplitl [H7]; · iexact H7
      isplitl [H8]; · iexact H8
      isplitl [H9]; · iexact H9
      iintro ⟨H0, H1, H2, H3, H6, H7, H8, H9⟩
      isplitl [H6 H7 H8 H9 Hg]
      · isplitr [Hg]
        · isplitl [H6]; · iexact H6
          isplitl [H7]; · iexact H7
          isplitl [H8]; · iexact H8
          iexact H9
        · iexact Hg
      isplitl [Ho]; · iexact Ho
      isplitl [H0]; · iexact H0
      isplitl [H1]; · iexact H1
      isplitl [H2]; · iexact H2
      iexact H3
    · have hc1 : ¬condLast (grid0.coords t) := fun h => h1 ((hcondLast t).mp h)
      rw [Dat.leavesExact_idle (dats m 0 c) 3 t (idleAt3 t hc1) (noFlush3 t hc1)]
      iintro ⟨⟨⟨H6, H7, H8, H9⟩, Hg⟩, Ho, ⟨%d0, H0⟩, ⟨%d1, H1⟩, ⟨%d2, H2⟩, ⟨%d3, H3⟩⟩
      iapply (body_mid c (grid0.coords t) (ms0 t) (hs0 t) (ms1 t) (hs1 t) (ms2 t) (hs2 t) (ms3 t) (hs3 t)
        scM (Memref.isWhole_whole _) scSe (Memref.isWhole_whole _) scWs (Memref.isWhole_whole _) scMs (Memref.isWhole_whole _)
        (qblk m c t) (kblk m c t) (wblk m c t) Set.univ _ hc0 hc1 ((dats m 0 c).before 3 t d3) _ _ _ _)
      isplitl [H0]; · iexact H0
      isplitl [H1]; · iexact H1
      isplitl [H2]; · iexact H2
      isplitl [H3]; · iexact H3
      isplitl [H6]; · iexact H6
      isplitl [H7]; · iexact H7
      isplitl [H8]; · iexact H8
      isplitl [H9]; · iexact H9
      iintro ⟨H0, H1, H2, H3, H6, H7, H8, H9⟩
      isplitl [H6 H7 H8 H9 Hg]
      · isplitr [Hg]
        · isplitl [H6]; · iexact H6
          isplitl [H7]; · iexact H7
          isplitl [H8]; · iexact H8
          iexact H9
        · iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the columns back at whatever they hold. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨⟨H6, H7, H8, H9⟩, Hg⟩
  isplitr [Hg]
  · isplitl [H6]; · iexists _; iexact H6
    isplitl [H7]; · iexists _; iexact H7
    isplitl [H8]; · iexists _; iexact H8
    iexists _; iexact H9
  · iexact Hg

end Cert.KernelIdeal.Hand

end
-- ==== Proof.KI.Launch.lean ====
/-
  The launch of the kernel's program: two of its input windows read one array. The distinct array
  buffers are dealt to the windows by halving that array's share, and the general frame run for windows
  sharing arrays gives the run's post from any proof data at those shares.
-/
import proofs.«429412_j87256555585551_1_alg».proof.Proof.KI.Base
import proofs.«429412_j87256555585551_1_alg».proof.Proof.LibSharedWindows

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The distinct buffers behind the windows' arrays. -/
theorem arrRefs_eq : Finset.univ.image (Pipeline.arrRef spec0) = {main_v14, main_v11, main_v15} := by decide

theorem isOut0 : (cfg0.win 0).isOut = false := rfl
theorem isOut1 : (cfg0.win 1).isOut = false := rfl
theorem isOut2 : (cfg0.win 2).isOut = false := rfl
theorem isOut3 : (cfg0.win 3).isOut = true := rfl

/-- The windows' arrays at the two halves of the shared array's share and the full share of the others are the
    distinct array buffers, each whole at the full share, at the same contents. -/
theorem arrays_iff (c : Dev nD) (dat : Dat τ (Elt F) Unit ℕ (UR sig nD τ) ℕ cfg0 c)
    (hq0 : dat.q 0 = fullShare.left) (hq1 : dat.q 1 = fullShare.right) (hq2 : dat.q 2 = fullShare)
    (W : (b : Ref sig .tc) → Buf (Elt F) ((c : Thread nD τ).loc b))
    (Fw : (w : Fin cfg0.W) → Buf (Elt F) ((cfg0.win w).arr.view.loc (c.tc : Thread nD τ)))
    (hF : ∀ w, Fw w = W (Pipeline.arrRef spec0 w)) :
    (dat.arrays Fw : sProp 𝕄) ⊣⊢ Pipeline.arrBufs spec0 c W := by
  have s0 : dat.share 0 = fullShare.left := by unfold Dat.share; rw [if_neg (by rw [isOut0]; exact Bool.false_ne_true), hq0]
  have s1 : dat.share 1 = fullShare.right := by unfold Dat.share; rw [if_neg (by rw [isOut1]; exact Bool.false_ne_true), hq1]
  have s2 : dat.share 2 = fullShare := by unfold Dat.share; rw [if_neg (by rw [isOut2]; exact Bool.false_ne_true), hq2]
  have s3 : dat.share 3 = fullShare := by unfold Dat.share; rw [if_pos isOut3]
  unfold Pipeline.arrBufs Dat.arrays
  rw [arrRefs_eq, bigSep_insert (by decide), bigSep_insert (by decide), bigSep_singleton, bigSep_W0]
  rw [s0, s1, s2, s3, hF 0, hF 1, hF 2, hF 3]
  -- windows 0 and 1 are on one memref: the first rewrite serves both
  rw [(arr_whole0 0).set_eq_univ, (arr_whole0 2).set_eq_univ, (arr_whole0 3).set_eq_univ]
  show iprop((((c : Thread nD τ).loc main_v14) ↦{fullShare.left} W main_v14) ∗ (((c : Thread nD τ).loc main_v14) ↦{fullShare.right} W main_v14)
      ∗ (((c : Thread nD τ).loc main_v11) ↦{fullShare} W main_v11) ∗ (((c : Thread nD τ).loc main_v15) ↦{fullShare} W main_v15))
    ⊣⊢ iprop((((c : Thread nD τ).loc main_v14) ↦{fullShare} W main_v14) ∗ (((c : Thread nD τ).loc main_v11) ↦{fullShare} W main_v11) ∗ (((c : Thread nD τ).loc main_v15) ↦{fullShare} W main_v15))
  have h : ((((c : Thread nD τ).loc main_v14) ↦{fullShare} W main_v14 : sProp 𝕄))
      ⊣⊢ iprop((((c : Thread nD τ).loc main_v14) ↦{fullShare.left} W main_v14) ∗ (((c : Thread nD τ).loc main_v14) ↦{fullShare.right} W main_v14)) :=
    pointsTo_share (PosShare.mem_left_op_right fullShare)
  have h1 := h.1
  have h2 := h.2
  constructor
  · iintro ⟨H0, H1, H2, H3⟩
    isplitl [H0 H1]
    · iapply h2
      isplitl [H0]; · iexact H0
      iexact H1
    isplitl [H2]; · iexact H2
    iexact H3
  · iintro ⟨Hw, H2, H3⟩
    ihave H := h1 $$ Hw
    icases H with ⟨H0, H1⟩
    isplitl [H0]; · iexact H0
    isplitl [H1]; · iexact H1
    isplitl [H2]; · iexact H2
    iexact H3

/-! ## The lines after the region -/

/-- They touch unscoped buffers only. -/
theorem tail_sub : ∀ ops ∈ ([hostOps1] : List (List (HloOp τ sig (Elt F)))), ∀ op ∈ ops, op.bufs ⊆ Pipeline.ucRefs τ sig := by
  intro ops hops op hop
  obtain rfl : ops = hostOps1 := List.mem_singleton.mp hops
  exact Pipeline.sub_ucRefs op ((List.forall_iff_forall_mem.mp hostOps1_sub) op hop)

/-- They allocate nothing. -/
theorem tail_fresh : ∀ ops ∈ ([hostOps1] : List (List (HloOp τ sig (Elt F)))), ∀ op ∈ ops, op.fresh = ∅ := by
  intro ops hops op hop
  obtain rfl : ops = hostOps1 := List.mem_singleton.mp hops
  exact (List.forall_iff_forall_mem.mp hostOps1_fresh) op hop

/-- They write no window's array: each writes its own result, one of four scalars. -/
theorem tail_keeps : ∀ ops ∈ ([hostOps1] : List (List (HloOp τ sig (Elt F)))), ∀ op ∈ ops,
    ∀ w, Proc.devRef .tc (Pipeline.arrRef spec0 w) ∉ op.writes := by
  intro ops hops op hop w
  obtain rfl : ops = hostOps1 := List.mem_singleton.mp hops
  have hw : Pipeline.arrRef spec0 w = main_v14 ∨ Pipeline.arrRef spec0 w = main_v11 ∨ Pipeline.arrRef spec0 w = main_v15 := by
    revert w; decide
  simp only [hostOps1, List.mem_cons, List.mem_nil_iff, or_false] at hop
  rcases hop with rfl | rfl | rfl | rfl <;>
    simp only [StableHlo.nullary_writes, StableHlo.binary_writes, Finset.mem_singleton] <;>
    rcases hw with h | h | h <;> rw [h] <;> exact StableHlo.devRef_ne_of_ne (by decide)

/-! ## The contents at the region's exit -/

/-- The contents at the region's exit: the output array as the write-backs left it, everything else as the
    region found it. -/
def exitVal (dats : (p : Fin 1) → (c : Dev nD) → Dat τ (Elt F) Unit ℕ (UR sig nD τ) ℕ (cfgs p) c) (c : Dev nD) :
    Valuation τ sig (Elt F) :=
  Function.update (V0 m c) (Proc.devRef .tc main_v15) ((dats 0 c).arrAt (3 : Fin 4) cfg0.N)

theorem exitVal_out (dats : (p : Fin 1) → (c : Dev nD) → Dat τ (Elt F) Unit ℕ (UR sig nD τ) ℕ (cfgs p) c) (c : Dev nD) :
    exitVal m dats c (Proc.devRef .tc main_v15) = (dats 0 c).arrAt (3 : Fin 4) cfg0.N :=
  Function.update_self _ _ _

theorem exitVal_of_ne (dats : (p : Fin 1) → (c : Dev nD) → Dat τ (Elt F) Unit ℕ (UR sig nD τ) ℕ (cfgs p) c) (c : Dev nD)
    (b : DevRef τ sig) (hb : b ≠ Proc.devRef .tc main_v15) : exitVal m dats c b = V0 m c b :=
  Function.update_of_ne hb _ _

/-! ## The run -/

-- the general run's implicit arguments are found by unifying its conclusion with this one, which takes unfolding
-- plain definitions in a metavariable's type
set_option backward.isDefEq.respectTransparency.types false in
/-- THE RUN from any proof data at the halved shares: windows 0 and 1 hold the two halves of the array they both read,
    window 2 and the output their arrays whole; the arrays are the region-entry contents; nothing is owed. Every array
    ends at the proof data's `arrAt … N`, every bypassing buffer at what the lines after the region compute from the
    region's exit contents. -/
theorem run_of_dats (dats : (p : Fin 1) → (c : Dev nD) → Dat τ (Elt F) Unit ℕ (UR sig nD τ) ℕ (cfgs p) c)
    (hq0 : ∀ c, (dats 0 c).q 0 = fullShare.left) (hq1 : ∀ c, (dats 0 c).q 1 = fullShare.right) (hq2 : ∀ c, (dats 0 c).q 2 = fullShare)
    (hA : ∀ c w, (dats 0 c).A w = V m c (Pipeline.arrRef spec0 w))
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ Pipeline.restRefs sig spec0, r.2.mem ((c.tc : Thread nD τ).loc b) = StableHlo.after hostOps1 (exitVal m dats c) (Proc.devRef .tc b)) := by
  -- at entry: the arrays are the region-entry contents
  have hsplit : ∀ c, (Pipeline.arrBufs spec0 c (fun b => V0 m c (Proc.devRef .tc b)) : sProp 𝕄) ⊢ (dats 0 c).arrays ((dats 0 c).arrAt · 0) := fun c =>
    (arrays_iff c (dats 0 c) (hq0 c) (hq1 c) (hq2 c) (V m c) _ (fun w => hA c w)).2
  -- at exit: an input's array is as it was, the output's is the exit valuation's by definition
  have hin' : ∀ c (w : Fin 4), (cfg0.win w).isOut = false → Pipeline.arrRef spec0 w ≠ main_v15 →
      (dats 0 c).arrAt w cfg0.N = exitVal m dats c (Proc.devRef .tc (Pipeline.arrRef spec0 w)) := fun c w hw hne => by
    rw [(dats 0 c).arrAt_in w hw, hA c w, exitVal_of_ne m dats c _ (StableHlo.devRef_ne_of_ne hne)]
  have hjoin : ∀ c, (dats 0 c).arrays ((dats 0 c).arrAt · cfg0.N) ⊣⊢ (Pipeline.arrBufs spec0 c (fun b => exitVal m dats c (Proc.devRef .tc b)) : sProp 𝕄) := fun c =>
    arrays_iff c (dats 0 c) (hq0 c) (hq1 c) (hq2 c) (fun b => exitVal m dats c (Proc.devRef .tc b)) _ (fun w => by
      fin_cases w
      · exact hin' c 0 isOut0 (by decide)
      · exact hin' c 1 isOut1 (by decide)
      · exact hin' c 2 isOut2 (by decide)
      · exact (exitVal_out m dats c).symm)
  have hXoff : ∀ c (b : Ref sig .tc), (∀ w, Pipeline.arrRef spec0 w ≠ b) →
      exitVal m dats c (Proc.devRef .tc b) = V0 m c (Proc.devRef .tc b) := fun c b hb =>
    exitVal_of_ne m dats c _ (StableHlo.devRef_ne_of_ne (hb 3).symm)
  have h := Cert.SharedWindows.θ_run_frame_around_shared cfgs dats (0 : Fin 1) defs₀ Variants.none cellOf_inj winFacts₀0 block_pos0
    arr_whole0 stage_whole0 m ρ main hbody howed (V0 m) [hostOps1] tail_sub tail_fresh tail_keeps (hmain m Variants.none)
    (exitVal m dats) hXoff hsplit hjoin hin hout
  rw [List.flatten_singleton] at h
  exact h

end Cert.KernelIdeal.Hand

end
-- ==== Proof.KI.Frame.lean ====
/-
  The kernel program's run and its frame: every weakly fair execution ends, the windows' arrays hold what
  the proof data computes, every other buffer what the host operations after the region leave, and the two
  arguments are unchanged.
-/
import proofs.«429412_j87256555585551_1_alg».proof.Proof.KI.Oblig
import proofs.«429412_j87256555585551_1_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The run: the arrays at what the proof data computes, every other unscoped buffer at what the host operations
    after the region leave from the contents at the region's exit. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = StableHlo.after hostOps1 (exitVal m (dats m) c) (Proc.devRef .tc b)) :=
  run_of_dats m ρ (dats m) (fun _ => rfl) (fun _ => rfl) (fun _ => rfl) (A_eq m) (fun _ _ => rfl)
    (fun c => (body_obligation m c).loose) (hin m) (hout m)

/-- No host operation before the region writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, Finset.mem_singleton]
    repeat' apply And.intro
    all_goals exact StableHlo.devRef_ne_of_ne (by decide)))

/-- Nor does any after it, and the region's exit changes only the output array. -/
theorem W_main_arg0 (c : Dev nD) :
    StableHlo.after hostOps1 (exitVal m (dats m) c) (Proc.devRef .tc main_arg0) = m ((c : Thread nD τ).loc main_arg0) := by
  rw [StableHlo.after_of_forall_not_mem (b := Proc.devRef .tc main_arg0) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    exitVal_of_ne m (dats m) c _ (StableHlo.devRef_ne_of_ne (by decide))]
  exact V_main_arg0 m c
theorem W_main_arg1 (c : Dev nD) :
    StableHlo.after hostOps1 (exitVal m (dats m) c) (Proc.devRef .tc main_arg1) = m ((c : Thread nD τ).loc main_arg1) := by
  rw [StableHlo.after_of_forall_not_mem (b := Proc.devRef .tc main_arg1) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    exitVal_of_ne m (dats m) c _ (StableHlo.devRef_ne_of_ne (by decide))]
  exact V_main_arg1 m c

/-- The frame: the program runs to the end and leaves its two arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m c),
     ((h c).2 main_arg1 (Pipeline.mem_restRefs_of main_arg1 (by decide) (by decide))).trans (W_main_arg1 m c)⟩) (run_main m ρ)

end Cert.KernelIdeal.Hand

end
-- ==== Proof.KI.Blocks.lean ====
/-
  Which entries of the arrays the windows' blocks hold. At grid point `t` (row tile `t / 8`, column tile `t % 8`):
  the first window's block is rows `512 * (t / 8) …` of the [4096, 512] array, the second's rows `512 * (t % 8) …` of
  the same array, the third's the [512, 512] tile of the [2048, 2048] array at row tile `(t / 8) % 4` and column tile
  `(t % 8) % 4` — that is, rows and columns taken modulo 2048 —, and the output's rows `512 * (t / 8) …` of the
  [4096, 1] array. A block's coordinate on an axis is always the block index times the block's size plus the
  coordinate inside the block; the block indices are decided once over the 64 points. Then the output's cover: row
  `i` is written back by exactly the point `8 * (i / 512) + 7`, as row `i % 512` of its block; every index is
  covered, and two points that write back write disjoint rows.
-/
import proofs.«429412_j87256555585551_1_alg».proof.Proof.KI.Base
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable {F : FTy → Type} [FloatOps F] [Named F]

variable (m : (ℓ : Loc nD τ sig) → Buf (Elt F) ℓ)

/-! ## The block indices, decided over the grid -/

/-- The first window's block index at point `t`: `(t / 8, 0)`. -/
theorem idx0 : ∀ t : Fin cfg0.N, win0_0.index t (0 : Fin 2) = t.val / 8 ∧ win0_0.index t (1 : Fin 2) = 0 :=
  (by decide +kernel : ∀ t : Fin grid0.N, _)
/-- The second window's: `(t % 8, 0)`. -/
theorem idx1 : ∀ t : Fin cfg0.N, win0_1.index t (0 : Fin 2) = t.val % 8 ∧ win0_1.index t (1 : Fin 2) = 0 :=
  (by decide +kernel : ∀ t : Fin grid0.N, _)
/-- The third window's: `((t / 8) % 4, (t % 8) % 4)` (the signed remainders of the printed chain are the natural ones here). -/
theorem idx2 : ∀ t : Fin cfg0.N, win0_2.index t (0 : Fin 2) = (t.val / 8) % 4 ∧ win0_2.index t (1 : Fin 2) = (t.val % 8) % 4 :=
  (by decide +kernel : ∀ t : Fin grid0.N, _)
/-- The output window's: `(t / 8, 0)`. -/
theorem idx3 : ∀ t : Fin cfg0.N, win0_3.index t (0 : Fin 2) = t.val / 8 ∧ win0_3.index t (1 : Fin 2) = 0 :=
  (by decide +kernel : ∀ t : Fin grid0.N, _)

/-! ## The input blocks, entry by entry -/

/-- A grid point is one of 64. -/
theorem pt_lt (t : Fin cfg0.N) : t.val < 64 := lt_of_lt_of_eq t.isLt N_0

/-- Entry `(r, d)` of the first window's block at `t` is entry `(512 * (t / 8) + r, d)` of the array. -/
theorem qblk_read (c : Dev nD) (t : Fin cfg0.N) (r : Fin 512) (d : Fin 512) :
    (iblk m c 0 t : S512x512.Idx → Elt F .bf16) (ix2 r d)
      = (V m c main_v14 : S4096x512.Idx → Elt F .bf16) (ix2 ⟨512 * (t.val / 8) + r.val, by have := pt_lt t; omega⟩ d) := by
  obtain ⟨e0, e1⟩ := idx0 t
  show V m c main_v14 (((cfg0.win 0).blk t).view.emb (ix2 r d)) = V m c main_v14 _
  congr 1
  funext a; apply Fin.ext
  match a with
  | ⟨0, _⟩ => show win0_0.index t (0 : Fin 2) * 512 + 1 * r.val = 512 * (t.val / 8) + r.val; omega
  | ⟨1, _⟩ => show win0_0.index t (1 : Fin 2) * 512 + 1 * d.val = d.val; omega

/-- Entry `(j, d)` of the second window's block at `t` is entry `(512 * (t % 8) + j, d)` of the same array. -/
theorem kblk_read (c : Dev nD) (t : Fin cfg0.N) (j : Fin 512) (d : Fin 512) :
    (iblk m c 1 t : S512x512.Idx → Elt F .bf16) (ix2 j d)
      = (V m c main_v14 : S4096x512.Idx → Elt F .bf16) (ix2 ⟨512 * (t.val % 8) + j.val, by omega⟩ d) := by
  obtain ⟨e0, e1⟩ := idx1 t
  show V m c main_v14 (((cfg0.win 1).blk t).view.emb (ix2 j d)) = V m c main_v14 _
  congr 1
  funext a; apply Fin.ext
  match a with
  | ⟨0, _⟩ => show win0_1.index t (0 : Fin 2) * 512 + 1 * j.val = 512 * (t.val % 8) + j.val; omega
  | ⟨1, _⟩ => show win0_1.index t (1 : Fin 2) * 512 + 1 * d.val = d.val; omega

/-- Entry `(r, j)` of the third window's block at `t` is the entry of the [2048, 2048] array at the global row
    `512 * (t / 8) + r` and global column `512 * (t % 8) + j`, each modulo 2048. -/
theorem wblk_read (c : Dev nD) (t : Fin cfg0.N) (r j : Fin 512) :
    (iblk m c 2 t : S512x512.Idx → Elt F .f32) (ix2 r j)
      = (V m c main_v11 : S2048x2048.Idx → Elt F .f32)
          (ix2 ⟨(512 * (t.val / 8) + r.val) % 2048, Nat.mod_lt _ (by omega)⟩ ⟨(512 * (t.val % 8) + j.val) % 2048, Nat.mod_lt _ (by omega)⟩) := by
  obtain ⟨e0, e1⟩ := idx2 t
  have := pt_lt t
  show V m c main_v11 (((cfg0.win 2).blk t).view.emb (ix2 r j)) = V m c main_v11 _
  congr 1
  funext a; apply Fin.ext
  match a with
  | ⟨0, _⟩ => show win0_2.index t (0 : Fin 2) * 512 + 1 * r.val = (512 * (t.val / 8) + r.val) % 2048; omega
  | ⟨1, _⟩ => show win0_2.index t (1 : Fin 2) * 512 + 1 * j.val = (512 * (t.val % 8) + j.val) % 2048; omega

/-! ## The output window's cover -/

/-- Row `i` of the output array is in point `t`'s block iff it is in the block's range on each axis. -/
theorem mem_blk3 (t : Fin cfg0.N) (i : S4096x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v15).slice (win0_3.rect t)).set ↔ _
  rw [View.set_slice_whole, Rect.mem_set_unit]
  exact Iff.rfl

/-- The same by coordinates: the block at point `t` holds the rows `512 * (t / 8) … 512 * (t / 8) + 511`. -/
theorem mem_blk3_iff (t : Fin cfg0.N) (i : Fin 4096) (z : Fin 1) :
    (ix2 i z : S4096x1.Idx) ∈ ((cfg0.win 3).blk t).view.set ↔ i.val / 512 = t.val / 8 := by
  obtain ⟨e0, e1⟩ := idx3 t
  rw [mem_blk3]
  constructor
  · intro h
    have b0 : win0_3.index t (0 : Fin 2) * 512 ≤ i.val ∧ i.val < win0_3.index t (0 : Fin 2) * 512 + 512 := h 0
    omega
  · intro h a
    match a with
    | ⟨0, _⟩ => show win0_3.index t (0 : Fin 2) * 512 ≤ i.val ∧ i.val < win0_3.index t (0 : Fin 2) * 512 + 512; omega
    | ⟨1, _⟩ => show win0_3.index t (1 : Fin 2) * 1 ≤ z.val ∧ z.val < win0_3.index t (1 : Fin 2) * 1 + 1; omega

/-- The point that writes row `i` back. -/
def outPt (i : Fin 4096) : Fin cfg0.N := ⟨8 * (i.val / 512) + 7, by rw [show cfg0.N = 64 from N_0]; omega⟩

theorem outPt_val (i : Fin 4096) : (outPt i).val = 8 * (i.val / 512) + 7 := rfl

theorem flush_outPt (i : Fin 4096) : (cfg0.win 3).flush (outPt i) = true :=
  (flush0_3 (outPt i)).mpr (by rw [outPt_val]; omega)

/-- Row `i` is row `i % 512` of the block its point writes back. -/
theorem emb_outPt (i : Fin 4096) :
    ((cfg0.win 3).blk (outPt i)).view.emb (ix2 ⟨i.val % 512, Nat.mod_lt _ (by omega)⟩ (0 : Fin 1)) = (ix2 i (0 : Fin 1) : S4096x1.Idx) := by
  obtain ⟨e0, e1⟩ := idx3 (outPt i)
  rw [outPt_val] at e0
  funext a; apply Fin.ext
  match a with
  | ⟨0, _⟩ => show win0_3.index (outPt i) (0 : Fin 2) * 512 + 1 * (i.val % 512) = i.val; omega
  | ⟨1, _⟩ => show win0_3.index (outPt i) (1 : Fin 2) * 1 + 1 * 0 = 0; omega

theorem mem_outPt (i : Fin 4096) (z : Fin 1) : (ix2 i z : S4096x1.Idx) ∈ ((cfg0.win 3).blk (outPt i)).view.set :=
  (mem_blk3_iff (outPt i) i z).mpr (by rw [outPt_val]; omega)

theorem out_point (i : Fin 4096) : ∃ t : Fin cfg0.N, t.val = 8 * (i.val / 512) + 7 ∧ (cfg0.win 3).flush t = true
    ∧ ((cfg0.win 3).blk t).view.emb (ix2 ⟨i.val % 512, Nat.mod_lt _ (by omega)⟩ (0 : Fin 1)) = (ix2 i (0 : Fin 1) : S4096x1.Idx) :=
  ⟨outPt i, rfl, flush_outPt i, emb_outPt i⟩

/-- Every index of the output array is in the block of a point that writes back. -/
theorem cover3 (i : S4096x1.Idx) : ∃ t : Fin cfg0.N, (cfg0.win 3).flush t = true ∧ i ∈ ((cfg0.win 3).blk t).view.set := by
  rw [eq_ix2 i]
  exact ⟨outPt (i 0), flush_outPt (i 0), mem_outPt (i 0) (i 1)⟩

/-- Exactly one point writes an index back. -/
theorem covered_iff3 (t : Fin cfg0.N) (i : Fin 4096) (z : Fin 1) :
    ((cfg0.win 3).flush t = true ∧ (ix2 i z : S4096x1.Idx) ∈ ((cfg0.win 3).blk t).view.set) ↔ t = outPt i := by
  rw [flush0_3, mem_blk3_iff]
  constructor
  · rintro ⟨h7, hq⟩; apply Fin.ext; rw [outPt_val]; omega
  · rintro rfl; rw [outPt_val]; constructor <;> omega

/-- The index map is injective on the points that write back. -/
theorem idx_inj3 (t t' : Fin cfg0.N) (hf : (cfg0.win 3).flush t = true) (hf' : (cfg0.win 3).flush t' = true)
    (h : win0_3.index t = win0_3.index t') : t = t' := by
  rw [flush0_3] at hf hf'
  obtain ⟨e0, -⟩ := idx3 t
  obtain ⟨e0', -⟩ := idx3 t'
  have := congrFun h (0 : Fin 2)
  apply Fin.ext; omega

/-- So two points that write back write disjoint sets of indices. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' hf hf' hne => (cfg0.win 3).disjoint_blk fun h => hne (idx_inj3 t t' hf hf' h)

/-- Row `r` of the block point `t` writes back is row `512 * (t / 8) + r` of the output array. -/
theorem oblk_emb (t : Fin cfg0.N) (r : Fin 512) (z : Fin 1) :
    ((cfg0.win 3).blk t).view.emb (ix2 r z) = (ix2 ⟨512 * (t.val / 8) + r.val, by have := pt_lt t; omega⟩ z : S4096x1.Idx) := by
  obtain ⟨e0, e1⟩ := idx3 t
  funext a; apply Fin.ext
  match a with
  | ⟨0, _⟩ => show win0_3.index t (0 : Fin 2) * 512 + 1 * r.val = 512 * (t.val / 8) + r.val; omega
  | ⟨1, _⟩ => show win0_3.index t (1 : Fin 2) * 1 + 1 * z.val = z.val; omega

/-- So that block of any contents `G` of the output array reads `G` at that row. -/
theorem oblk_read (c : Dev nD) (G : Buf (Elt F) ((c : Thread nD τ).loc main_v15)) (t : Fin cfg0.N) (r : Fin 512) (z : Fin 1) :
    (((cfg0.win 3).blk t).view.read (Elt F) G : S512x1.Idx → Elt F .f32) (ix2 r z)
      = (G : S4096x1.Idx → Elt F .f32) (ix2 ⟨512 * (t.val / 8) + r.val, by have := pt_lt t; omega⟩ z) := by
  show G (((cfg0.win 3).blk t).view.emb (ix2 r z)) = G _
  rw [oblk_emb]

end Cert.KernelIdeal.Hand

end
-- ==== Proof.Spec.lean ====
/-
  The row mathematics shared by the two programs, over the extended reals.

  One row of the loss: the logits of the row against every column arrive in consecutive tiles; each tile
  also brings the label-similarity weights and the indicator of the row's own column (the self-contrast
  that is masked out). The kernel keeps a running maximum, a running sum of exponentials rescaled to
  the running maximum, and two weight sums, tile after tile; the reference takes the maximum and the
  sums over the whole row at once. `Cert.Spec.tileRow_eq_wholeRow` (module OnlineSoftmax) says the two
  are the same extended real.
-/
import Idealize.ShloMosaic.PureOps.Ideal

noncomputable section

namespace Cert.Spec

open Idealize.ShloMosaic

/-- The running state of one row: maximum so far, sum of exponentials relative to it, the weighted
    sum of logits, the sum of weights. -/
structure RowState where
  mx : EReal
  se : EReal
  ws : EReal
  ms : EReal

/-- Before the first tile: the maximum of nothing, and empty sums. -/
def RowState.init : RowState := ⟨⊥, 0, 0, 0⟩

variable {ι : Type} [Fintype ι]

/-- One tile's update of the row state: `lg` the tile's logits, `mk` its weights, `ey` the indicator of
    the row's own column. -/
def RowState.step (lg mk ey : ι → EReal) (s : RowState) : RowState :=
  let m' : EReal := max s.mx (Finset.univ.fold max ⊥ lg)
  { mx := m'
    se := Ideal.exp (s.mx - m') * s.se + ∑ j, Ideal.exp (lg j - m') * (1 - ey j)
    ws := s.ws + ∑ j, (mk j * (1 - ey j)) * lg j
    ms := s.ms + ∑ j, mk j * (1 - ey j) }

/-- The state after the first `n` tiles. -/
def tileState (lg mk ey : ℕ → ι → EReal) : ℕ → RowState
  | 0 => RowState.init
  | n + 1 => RowState.step (lg n) (mk n) (ey n) (tileState lg mk ey n)

/-- What the tile-by-tile computation stores for the row after `n` tiles. -/
def tileRow (lg mk ey : ℕ → ι → EReal) (n : ℕ) : EReal :=
  let s := tileState lg mk ey n
  (-1 : EReal) * (Ideal.div s.ws s.ms - s.mx - Ideal.log s.se)

/-- The whole-row computation over the same `n` tiles of columns: subtract the row maximum, take the
    log-sum-exp over the columns other than the row's own, average the log-probabilities with the weights. -/
def wholeRow (lg mk ey : ℕ → ι → EReal) (n : ℕ) : EReal :=
  let M : EReal := (Finset.range n ×ˢ (Finset.univ : Finset ι)).fold max ⊥ (fun p => lg p.1 p.2)
  let se : EReal := ∑ p ∈ Finset.range n ×ˢ (Finset.univ : Finset ι), Ideal.exp (lg p.1 p.2 - M) * (1 - ey p.1 p.2)
  let num : EReal := ∑ p ∈ Finset.range n ×ˢ (Finset.univ : Finset ι),
      (mk p.1 p.2 * (1 - ey p.1 p.2)) * ((lg p.1 p.2 - M) - Ideal.log se)
  let den : EReal := ∑ p ∈ Finset.range n ×ˢ (Finset.univ : Finset ι), mk p.1 p.2 * (1 - ey p.1 p.2)
  (-1 : EReal) * Ideal.div num den

end Cert.Spec

end
-- ==== Proof.RowSpec.lean ====
/-
  The loss as one function of the two arrays both programs compute it from: the stacked features
  `cf` (4096 rows of 512) and the label-similarity matrix `msk` (2048 by 2048, tiled twice along
  both axes over the 4096 rows and columns). Row `i` against column `c`: the logit is the inner product of
  the two feature rows times the inverse temperature; the weight is the similarity of the two samples,
  and the row's own column is left out. The loss is the mean over the 4096 rows of `Cert.Spec.wholeRow`.
  Columns are addressed as tile `k` (of 8) and position `j` (of 512) inside the tile: column 512·k + j.
-/
import proofs.«429412_j87256555585551_1_alg».proof.Proof.Spec

noncomputable section

namespace Cert.Spec

open Idealize.ShloMosaic

/-- The inverse temperature 1/0.07, with 0.07 read as the binary fraction 9395241/2^27 both programs carry. -/
def invT : EReal := ((134217728 / 9395241 : ℝ) : EReal)

/-- The inner product of feature rows `i` and `c`. -/
def score (cf : Fin 4096 → Fin 512 → EReal) (i c : Fin 4096) : EReal := ∑ d : Fin 512, cf i d * cf c d

/-- Column 512·k + j, wrapped into range (k < 8 is all that is ever used). -/
def col (k : ℕ) (j : Fin 512) : Fin 4096 := ⟨(512 * k + j.val) % 4096, Nat.mod_lt _ (by decide)⟩

/-- The logit of row `i` against column 512·k + j. -/
def lgt (cf : Fin 4096 → Fin 512 → EReal) (i : Fin 4096) (k : ℕ) (j : Fin 512) : EReal := score cf i (col k j) * invT

/-- The weight of row `i` against column 512·k + j: the similarity of sample i mod 2048 and sample (512·k + j) mod 2048. -/
def mkt (msk : Fin 2048 → Fin 2048 → EReal) (i : Fin 4096) (k : ℕ) (j : Fin 512) : EReal :=
  msk ⟨i.val % 2048, Nat.mod_lt _ (by decide)⟩ ⟨(col k j).val % 2048, Nat.mod_lt _ (by decide)⟩

/-- The indicator of the row's own column. -/
def eyt (i : Fin 4096) (k : ℕ) (j : Fin 512) : EReal := if i = col k j then 1 else 0

/-- Row `i`'s loss. -/
def rowLoss (cf : Fin 4096 → Fin 512 → EReal) (msk : Fin 2048 → Fin 2048 → EReal) (i : Fin 4096) : EReal :=
  wholeRow (lgt cf i) (mkt msk i) (eyt i) 8

/-- The loss: the mean of the rows' losses. -/
def loss (cf : Fin 4096 → Fin 512 → EReal) (msk : Fin 2048 → Fin 2048 → EReal) : EReal :=
  Ideal.div (∑ i : Fin 4096, rowLoss cf msk i) ((4096 : ℝ) : EReal)

end Cert.Spec

end
-- ==== Proof.KI.RowData.lean ====
/-
  One grid point's data for one row of the row tile, at the ideal instance: the row's logits against the
  column tile's columns, its similarity weights, and the indicator of the row's own column.
-/
import proofs.«429412_j87256555585551_1_alg».proof.Proof.KI.Step
import proofs.«429412_j87256555585551_1_alg».proof.Proof.RowSpec
import Idealize.ShloMosaic.Lib.ValueIdx

noncomputable section

namespace Cert.KernelIdeal.Hand

open Cert.KernelIdeal Cert.KernelIdeal.Gen Idealize.ShloMosaic Idealize.ShloMosaic.ValueIdx

/-- Row `r` of the row tile against column `j` of the column tile: the inner product of the two feature rows times
    the inverse temperature. -/
def lgP (q k : Vec Ideal S512x512 .bf16) (r : Fin 512) : Fin 512 → EReal :=
  fun j => (∑ d : Fin 512, q (ix2 r d) * k (ix2 j d)) * Cert.Spec.invT

/-- Row `r` of the similarity block. -/
def mkP (w : Vec Ideal S512x512 .f32) (r : Fin 512) : Fin 512 → EReal := fun j => w (ix2 r j)

/-- At grid point `i` (row tile `i 0`, column tile `i 1`): is column `j` of the column tile row `r`'s own column? -/
def eyP (i : grid0.Coords) (r : Fin 512) : Fin 512 → EReal :=
  fun j => if 512 * (i 0).val + r.val = 512 * (i 1).val + j.val then 1 else 0

end Cert.KernelIdeal.Hand

end
-- ==== Proof.KI.RowRead.lean ====
/-
  The kernel's arithmetic at one grid point, read at one row of the row tile. The logits block at (r, j) is
  the inner product of row r of the row tile's features with row j of the column tile's, times the inverse
  temperature; the indicator block at (r, j) is one exactly where row 512·i₀ + r of the whole matrix meets
  its own column 512·i₁ + j, because the two 32-bit words stay below 4096 and do not wrap; a lane maximum
  or a lane sum at row r is the maximum or the sum over the row's 512 lanes. With these, the four running
  columns after the point are, at row r, one tile's update of the row state (Cert.Spec.RowState.step) on
  the row's logits, weights and indicator; the reset leaves the empty state; and the stored loss is minus
  the weighted mean of the logits, less the maximum and the logarithm of the sum of exponentials.
-/
import proofs.«429412_j87256555585551_1_alg».proof.Proof.KI.RowData
import Idealize.ShloMosaic.Lib.Pipeline.Value
import Idealize.ShloMosaic.Lib.ValueLayout
import Idealize.ShloMosaic.Lib.ValueIdx
import Idealize.ShloMosaic.PureOps.Ideal.Laws
import Idealize.ShloMosaic.PureOps.IdealRules

noncomputable section

namespace Cert.KernelIdeal.Hand

open Cert.KernelIdeal Cert.KernelIdeal.Gen Idealize.ShloMosaic Idealize.ShloMosaic.ValueIdx

/-! ### The constants -/

/-- The pattern of 1.0 denotes one. -/
theorem ofBits_one : Ideal.ofBits .f32 0x3F800000#32 = 1 := by
  simp [Ideal.ofBits, Ideal.ieee, -EReal.coe_mul]; norm_num

/-- The pattern of −1.0 denotes minus one. -/
theorem ofBits_neg_one : Ideal.ofBits .f32 0xBF800000#32 = -1 := by
  simp [Ideal.ofBits, Ideal.ieee, -EReal.coe_mul]; norm_num

/-- The pattern of minus infinity denotes the bottom extended real. -/
theorem ofBits_neg_inf : Ideal.ofBits .f32 0xFF800000#32 = ⊥ := by
  simp [Ideal.ofBits, Ideal.ieee]

/-- The inverse temperature the kernel multiplies the inner products by. -/
theorem inv_temperature :
    Named.named (F := Ideal) Cert.KernelIdeal.κ "inv_temperature" (φ := .f32) 0x41649249#32 = Cert.Spec.invT :=
  IdealRules.named_const.ideal_named_scalar _ _ _ _ rfl

/-! ### Layout operations at a row -/

section Layout
variable {α : Type}

/-- A vector of 512 entries viewed as a column reads, at row r, entry r. -/
theorem col_cast (v : S512.Idx → α) (r : Fin 512) :
    shapeCast S512x1 v shapeCasts_S512_S512x1 (ix2 r (0 : Fin 1)) = v (ix1 r) :=
  shapeCast_apply v _ _ _ (by rw [Shape.rowMajor_val_one, Shape.rowMajor_val_two]; show r.val = r.val * 1 + 0; omega)

/-- A column spread over 512 lanes reads, at (r, j), the column's row r. -/
theorem bcast_col (v : S512x1.Idx → α) (r j : Fin 512) :
    broadcastTo S512x512 v broadcasts_S512x1_S512x512 (ix2 r j) = v (ix2 r (0 : Fin 1)) :=
  broadcastTo_apply v _ _ _ (fun a => match a with
    | ⟨0, _⟩ => by show r.val = if (512 : Nat) = 1 then 0 else r.val; rw [if_neg (by decide)]
    | ⟨1, _⟩ => by show 0 = if (1 : Nat) = 1 then 0 else j.val; rw [if_pos rfl])

/-- The lane reduction's index at row r, lane j. -/
theorem lift_row (r j : Fin 512) : reduces_S512x512_S512.lift (ix1 r) j = ix2 r j :=
  funext fun a => Fin.ext (by match a with | ⟨0, _⟩ => rfl | ⟨1, _⟩ => rfl)

end Layout

/-! ### The matrix product -/

/-- The operand indices of the product at output (r, j) and contraction index d are (r, d) and (d, j): the four
    coordinates. -/
theorem lhs_dot_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_dot_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_dot_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_dot_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product of a block with another into the zero accumulator, at (r, j): the sum over the contracted axis. -/
theorem matmul_row (a b : FVec Ideal S512x512 .bf16) (r j : Fin 512) :
    matmul dot_S512x512_S512x512_S512x512_1_0_0_1_n_n none a b (constant S512x512 .f32 0x00000000#32) (ix2 r j)
      = ∑ d : Fin 512, a (ix2 r d) * b (ix2 d j) := by
  simp only [matmul]
  rw [Ideal.matmul_constant_zero_apply, ← Equiv.sum_comp (ValueIdx.contrEquiv1 dot_S512x512_S512x512_S512x512_1_0_0_1_n_n 512 rfl rfl).symm]
  refine Finset.sum_congr rfl fun d _ => ?_
  have hk := ValueIdx.contrEquiv1_symm_val dot_S512x512_S512x512_S512x512_1_0_0_1_n_n 512 rfl rfl d
  have el : dot_S512x512_S512x512_S512x512_1_0_0_1_n_n.lhsIdx (ix2 r j) ((ValueIdx.contrEquiv1 dot_S512x512_S512x512_S512x512_1_0_0_1_n_n 512 rfl rfl).symm d) = ix2 r d := funext fun c => Fin.ext (by
    match c with
    | ⟨0, _⟩ => exact lhs_dot_0 _ _
    | ⟨1, _⟩ => exact (lhs_dot_1 _ _).trans hk)
  have er : dot_S512x512_S512x512_S512x512_1_0_0_1_n_n.rhsIdx (ix2 r j) ((ValueIdx.contrEquiv1 dot_S512x512_S512x512_S512x512_1_0_0_1_n_n 512 rfl rfl).symm d) = ix2 d j := funext fun c => Fin.ext (by
    match c with
    | ⟨0, _⟩ => exact (rhs_dot_0 _ _).trans hk
    | ⟨1, _⟩ => exact rhs_dot_1 _ _)
  rw [el, er]

/-- The logits block at (r, j): row r of the row tile against row j of the column tile, times the inverse temperature. -/
theorem logits_apply (q k : Vec Ideal S512x512 .bf16) (r j : Fin 512) :
    k0_pay11 (F := Ideal) q k (ix2 r j) = lgP q k r j := by
  unfold k0_pay11 lgP
  dsimp only
  rw [mulf_apply, broadcast_apply, inv_temperature, shapeCast_self, shapeCast_self, matmul_row]
  refine congrArg (· * Cert.Spec.invT) (Finset.sum_congr rfl fun d _ => ?_)
  rw [transpose_ix2_apply]

/-! ### The own-column indicator -/

/-- A row or column number of the whole matrix, a 32-bit word: no wrap below 4096. -/
theorem word_ofNat (t p : Nat) :
    IntOp.addi (BitVec.ofNat 32 p) (Scalar.muli (BitVec.ofNat 32 t) 512#32) = BitVec.ofNat 32 (512 * t + p) := by
  show BitVec.ofNat 32 p + BitVec.ofNat 32 t * BitVec.ofNat 32 512 = _
  rw [← BitVec.ofNat_mul, ← BitVec.ofNat_add, Nat.add_comm, Nat.mul_comm]

/-- Two such words are equal exactly when the numbers are. -/
theorem word_eq_iff (a b : Nat) (ha : a < 4096) (hb : b < 4096) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

/-- The indicator block at (r, j): one where row 512·i₀ + r of the whole matrix meets its own column 512·i₁ + j. -/
theorem eye_apply (i : grid0.Coords) (r j : Fin 512) : k0_pay12 (F := Ideal) i (ix2 r j) = eyP i r j := by
  have h0 : (i 0).val < 8 := (i 0).isLt
  have h1 : (i 1).val < 8 := (i 1).isLt
  unfold k0_pay12 eyP
  dsimp only
  rw [sitofp_apply, extui_apply]
  show FloatOps.sitofp (F := Ideal) .f32 ((IntOp.cmpi .eq
      (IntOp.addi (iota .tc S512x512 32 [0] iota_S512x512_d0_w32 (ix2 r j)) (Scalar.muli (BitVec.ofNat 32 (i 0).val) 512#32))
      (IntOp.addi (iota .tc S512x512 32 [1] iota_S512x512_d1_w32 (ix2 r j)) (Scalar.muli (BitVec.ofNat 32 (i 1).val) 512#32))).setWidth 32) = _
  rw [iota_single_apply, iota_single_apply]
  show FloatOps.sitofp (F := Ideal) .f32 ((IntOp.cmpi .eq
      (IntOp.addi (BitVec.ofNat 32 r.val) (Scalar.muli (BitVec.ofNat 32 (i 0).val) 512#32))
      (IntOp.addi (BitVec.ofNat 32 j.val) (Scalar.muli (BitVec.ofNat 32 (i 1).val) 512#32))).setWidth 32) = _
  rw [word_ofNat, word_ofNat]
  by_cases h : 512 * (i 0).val + r.val = 512 * (i 1).val + j.val
  · rw [if_pos h, h, IntOp.cmpi_eq.2 rfl]
    show (((1#1 : BitVec 1).setWidth 32).toInt : ℝ) = (1 : EReal)
    simp
  · rw [if_neg h, eq_zero_of_ne_one (fun e => h ((word_eq_iff _ _ (by omega) (by omega)).1 (IntOp.cmpi_eq.1 e)))]
    show (((0#1 : BitVec 1).setWidth 32).toInt : ℝ) = (0 : EReal)
    simp

/-! ### One point's arithmetic at a row -/

section Pointwise
variable {s : Shape} {φ : FTy}
/-- The exponential and the logarithm of a vector, and the scalar constants, at the extended reals. -/
theorem exp_apply (a : FVec Ideal s φ) (i : s.Idx) : exp a i = Ideal.exp (a i) := rfl
theorem log_apply (a : FVec Ideal s φ) (i : s.Idx) : log a i = Ideal.log (a i) := rfl
theorem scalar_one : (Scalar.ofBits .f32 0x3F800000#32 : Ideal .f32) = 1 := ofBits_one
theorem scalar_neg_one : (Scalar.ofBits .f32 0xBF800000#32 : Ideal .f32) = -1 := ofBits_neg_one
theorem scalar_neg_inf : (Scalar.ofBits .f32 0xFF800000#32 : Ideal .f32) = ⊥ := ofBits_neg_inf
theorem scalar_zero : (Scalar.ofBits .f32 0x00000000#32 : Ideal .f32) = 0 := Ideal.ofBits_zero_f32
end Pointwise

/-- A lane sum of a block at row r: the sum over the row's 512 lanes. -/
theorem lanesum_row (src : FVec Ideal S512x512 .f32) (hφ : FKind.Formats .f32)
    (hacc : (0x00000000#32 : BitVec 32) = 0x00000000#32) (r : Fin 512) :
    multiReduction (F := Ideal) .add [1] S512 src 0x00000000#32 reduces_S512x512_S512 hφ hacc (ix1 r)
      = ∑ j : Fin 512, src (ix2 r j) :=
  (Ideal.multiReduction_add_single src 0x00000000#32 reduces_S512x512_S512 hφ hacc (ix1 r)).trans
    (Finset.sum_congr rfl fun j _ => congrArg src (lift_row r j))

/-- A lane maximum of a block at row r: the largest of the row's 512 lanes, from minus infinity. -/
theorem lanemax_row (src : FVec Ideal S512x512 .f32) (hφ : FKind.Formats .f32)
    (hacc : (0xFF800000#32 : BitVec 32) = 0xFF800000#32) (r : Fin 512) :
    multiReduction (F := Ideal) .maximumf [1] S512 src 0xFF800000#32 reduces_S512x512_S512 hφ hacc (ix1 r)
      = Finset.univ.fold max ⊥ (fun j : Fin 512 => src (ix2 r j)) :=
  (Ideal.multiReduction_maximumf_single src 0xFF800000#32 reduces_S512x512_S512 hφ hacc (ix1 r)).trans (by
    rw [Ideal.ofBits_def, ofBits_neg_inf]
    exact congrArg (fun f => Finset.univ.fold max ⊥ f) (funext fun j => congrArg src (lift_row r j)))

section Row
variable (i : grid0.Coords) (q k : Vec Ideal S512x512 .bf16) (w : Vec Ideal S512x512 .f32)
  (s6 s7 s8 s9 : Vec Ideal S512x1 .f32) (r : Fin 512)

/-- The largest logit of row r in the block. -/
theorem rowmax_apply :
    multiReduction (F := Ideal) .maximumf [1] S512 (k0_pay11 (F := Ideal) q k) 0xFF800000#32 reduces_S512x512_S512 (.inl rfl) rfl (ix1 r)
      = Finset.univ.fold max ⊥ (lgP q k r) := by
  refine (lanemax_row _ _ _ r).trans ?_
  exact congrArg (fun f => Finset.univ.fold max ⊥ f) (funext fun j => logits_apply q k r j)

/-- The running maximum after the point, at row r. -/
theorem newmax_apply :
    k0_pay13 (F := Ideal) q k s6 (ix2 r (0 : Fin 1)) = max (s6 (ix2 r 0)) (Finset.univ.fold max ⊥ (lgP q k r)) := by
  unfold k0_pay13
  dsimp only
  rw [maximumf_apply, col_cast, rowmax_apply]

/-- The running maximum after the point, as the kernel stores it. -/
theorem stepM_row :
    stepM q k s6 (ix2 r (0 : Fin 1)) = max (s6 (ix2 r 0)) (Finset.univ.fold max ⊥ (lgP q k r)) := by
  unfold stepM k0_pay2
  rw [shapeCast_self, newmax_apply]

/-- The block's sum of exponentials relative to the new maximum, the row's own column left out. -/
theorem sumexp_apply :
    k0_pay15 (F := Ideal) i q k s6 (ix1 r)
      = ∑ j : Fin 512, Ideal.exp (lgP q k r j - max (s6 (ix2 r 0)) (Finset.univ.fold max ⊥ (lgP q k r))) * (1 - eyP i r j) := by
  unfold k0_pay15
  dsimp only
  refine (lanesum_row _ _ _ r).trans (Finset.sum_congr rfl fun j _ => ?_)
  rw [mulf_apply, exp_apply, subf_apply, subf_apply, bcast_col, logits_apply, newmax_apply, broadcast_apply,
    eye_apply, scalar_one]

/-- The running sum of exponentials after the point: the old sum rescaled to the new maximum, plus the block's. -/
theorem stepSe_row :
    stepSe i q k s6 s7 (ix2 r (0 : Fin 1))
      = Ideal.exp (s6 (ix2 r 0) - max (s6 (ix2 r 0)) (Finset.univ.fold max ⊥ (lgP q k r))) * s7 (ix2 r 0)
        + ∑ j : Fin 512, Ideal.exp (lgP q k r j - max (s6 (ix2 r 0)) (Finset.univ.fold max ⊥ (lgP q k r))) * (1 - eyP i r j) := by
  unfold stepSe k0_pay1 k0_pay14
  dsimp only
  rw [shapeCast_self, addf_apply, col_cast, sumexp_apply, mulf_apply, exp_apply, subf_apply, newmax_apply]

/-- The block's weights with the row's own column left out, at (r, j). -/
theorem weights_apply (j : Fin 512) :
    k0_pay3 (F := Ideal) (k0_pay12 (F := Ideal) i) w (ix2 r j) = mkP w r j * (1 - eyP i r j) := by
  unfold k0_pay3 mkP
  rw [mulf_apply, shapeCast_self, subf_apply, broadcast_apply, eye_apply, scalar_one]

/-- The weighted sum of logits after the point. -/
theorem stepWs_row :
    stepWs i q k w s8 (ix2 r (0 : Fin 1)) = s8 (ix2 r 0) + ∑ j : Fin 512, (mkP w r j * (1 - eyP i r j)) * lgP q k r j := by
  unfold stepWs k0_pay4
  dsimp only
  rw [shapeCast_self, addf_apply, col_cast]
  refine congrArg (s8 (ix2 r 0) + ·) ((lanesum_row _ _ _ r).trans (Finset.sum_congr rfl fun j _ => ?_))
  rw [mulf_apply, weights_apply, logits_apply]

/-- The sum of weights after the point. -/
theorem stepMs_row :
    stepMs i w s9 (ix2 r (0 : Fin 1)) = s9 (ix2 r 0) + ∑ j : Fin 512, mkP w r j * (1 - eyP i r j) := by
  unfold stepMs k0_pay5
  dsimp only
  rw [shapeCast_self, addf_apply, col_cast]
  refine congrArg (s9 (ix2 r 0) + ·) ((lanesum_row _ _ _ r).trans (Finset.sum_congr rfl fun j _ => ?_))
  rw [weights_apply]

/-- One point of the kernel is one tile's update of the row state. -/
theorem step_row :
    let s : Cert.Spec.RowState := ⟨s6 (ix2 r 0), s7 (ix2 r 0), s8 (ix2 r 0), s9 (ix2 r 0)⟩
    let s' := Cert.Spec.RowState.step (lgP q k r) (mkP w r) (eyP i r) s
    stepM q k s6 (ix2 r 0) = s'.mx ∧ stepSe i q k s6 s7 (ix2 r 0) = s'.se ∧ stepWs i q k w s8 (ix2 r 0) = s'.ws ∧ stepMs i w s9 (ix2 r 0) = s'.ms :=
  ⟨stepM_row q k s6 r, stepSe_row i q k s6 s7 r, stepWs_row i q k w s8 r, stepMs_row i w s9 r⟩

/-- The reset leaves the empty row state. -/
theorem reset_row : (resetM (F := Ideal)) (ix2 r 0) = ⊥ ∧ (resetSe (F := Ideal)) (ix2 r 0) = 0 ∧ (resetWs (F := Ideal)) (ix2 r 0) = 0 ∧ (resetMs (F := Ideal)) (ix2 r 0) = 0 := by
  refine ⟨?_, ?_, ?_, ?_⟩
  · show k0_pay7 (F := Ideal) (ix2 r 0) = ⊥
    unfold k0_pay7; rw [shapeCast_self, broadcast_apply, scalar_neg_inf]
  · show k0_pay8 (F := Ideal) (ix2 r 0) = 0
    unfold k0_pay8; rw [shapeCast_self, broadcast_apply, scalar_zero]
  · show k0_pay9 (F := Ideal) (ix2 r 0) = 0
    unfold k0_pay9; rw [shapeCast_self, broadcast_apply, scalar_zero]
  · show k0_pay10 (F := Ideal) (ix2 r 0) = 0
    unfold k0_pay10; rw [shapeCast_self, broadcast_apply, scalar_zero]

/-- The stored loss of row r from the four columns. -/
theorem outRows_row (m se ws ms : Vec Ideal S512x1 .f32) :
    outRows m se ws ms (ix2 r 0) = (-1 : EReal) * (Ideal.div (ws (ix2 r 0)) (ms (ix2 r 0)) - m (ix2 r 0) - Ideal.log (se (ix2 r 0))) := by
  unfold outRows k0_pay6
  rw [mulf_apply, broadcast_apply, scalar_neg_one, subf_apply, subf_apply, divf_apply, log_apply]

end Row

end Cert.KernelIdeal.Hand

end
-- ==== Proof.KI.RowInv.lean ====
/-
  The kernel's running columns, row by row, are the tile-by-tile state of the row mathematics. At grid point `t`
  (row tile `t / 8`, column tile `t mod 8`) row `r` of the row tile is row 512·(t / 8) + r of the 4096; the
  point's logits, weights and own-column indicator for that row are the row's data for tile `t mod 8`; so after
  the body at `t` row `r` of the four columns is the row's state after its first `t mod 8 + 1` tiles, by
  induction along the row of the grid (the columns are reset at the points ≡ 0 mod 8), and what is stored at the
  points ≡ 7 mod 8 is the row's loss over its eight tiles.
-/
import proofs.«429412_j87256555585551_1_alg».proof.Proof.KI.Cols
import proofs.«429412_j87256555585551_1_alg».proof.Proof.KI.RowRead
import proofs.«429412_j87256555585551_1_alg».proof.Proof.KI.Blocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (c : Dev nD)

/-- The stacked features the kernel's region finds, entry by entry. -/
def cfK : Fin 4096 → Fin 512 → EReal := fun n d => V (F := Ideal) m c main_v14 (ix2 n d)
/-- The label-similarity matrix the kernel's region finds, entry by entry. -/
def mskK : Fin 2048 → Fin 2048 → EReal := fun a b => V (F := Ideal) m c main_v11 (ix2 a b)

/-- Row `r` of the row tile of point `t`, as a row of the 4096. -/
def rowOf (t : Fin cfg0.N) (r : Fin 512) : Fin 4096 :=
  ⟨512 * (t.val / 8) + r.val, by have := pt_lt t; have := r.isLt; omega⟩

/-- The point's coordinates are its quotient and remainder by 8. -/
theorem coords_pt : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

theorem colK_val (k : ℕ) (hk : k < 8) (j : Fin 512) : (Cert.Spec.col k j).val = 512 * k + j.val := by
  have := j.isLt
  show (512 * k + j.val) % 4096 = _
  omega

/-! ### A point's row data are the row's tile data -/

theorem lg_pt (t : Fin cfg0.N) (r : Fin 512) :
    lgP (qblk m c t) (kblk m c t) r = Cert.Spec.lgt (cfK m c) (rowOf t r) (t.val % 8) := by
  funext j
  unfold lgP Cert.Spec.lgt Cert.Spec.score cfK qblk kblk
  have hc : Cert.Spec.col (t.val % 8) j = (⟨512 * (t.val % 8) + j.val, by have := j.isLt; omega⟩ : Fin 4096) :=
    Fin.ext (colK_val _ (Nat.mod_lt _ (by decide)) j)
  rw [hc]
  simp only [qblk_read, kblk_read]
  rfl

theorem mk_pt (t : Fin cfg0.N) (r : Fin 512) :
    mkP (wblk m c t) r = Cert.Spec.mkt (mskK m c) (rowOf t r) (t.val % 8) := by
  funext j
  unfold mkP Cert.Spec.mkt mskK wblk
  rw [wblk_read]
  have hc := colK_val _ (Nat.mod_lt t.val (by decide : 0 < 8)) j
  congr 2
  · exact Fin.ext (by
      show (512 * (t.val % 8) + j.val) % 2048 = (Cert.Spec.col (t.val % 8) j).val % 2048
      rw [hc])

theorem ey_pt (t : Fin cfg0.N) (r : Fin 512) :
    eyP (grid0.coords t) r = Cert.Spec.eyt (rowOf t r) (t.val % 8) := by
  funext j
  unfold eyP Cert.Spec.eyt
  obtain ⟨h0, h1⟩ := coords_pt t
  have hc := colK_val _ (Nat.mod_lt t.val (by decide : 0 < 8)) j
  rw [h0, h1]
  refine if_congr ?_ rfl rfl
  rw [Fin.ext_iff, hc]
  rfl

/-! ### The columns' row `r` is the row's running state -/

/-- Row `r` of the four columns is the state `s`. -/
def RowIs (p : Cols Ideal) (r : Fin 512) (s : Cert.Spec.RowState) : Prop :=
  p.mx (ix2 r 0) = s.mx ∧ p.se (ix2 r 0) = s.se ∧ p.ws (ix2 r 0) = s.ws ∧ p.ms (ix2 r 0) = s.ms

theorem rowIs_reset (r : Fin 512) : RowIs resetCols r Cert.Spec.RowState.init := reset_row r

theorem rowIs_step (t : Fin cfg0.N) (r : Fin 512) (p : Cols Ideal) (s : Cert.Spec.RowState) (h : RowIs p r s) :
    RowIs (stepCols m c t p) r
      (Cert.Spec.RowState.step (Cert.Spec.lgt (cfK m c) (rowOf t r) (t.val % 8))
        (Cert.Spec.mkt (mskK m c) (rowOf t r) (t.val % 8)) (Cert.Spec.eyt (rowOf t r) (t.val % 8)) s) := by
  have hs := step_row (grid0.coords t) (qblk m c t) (kblk m c t) (wblk m c t) p.mx p.se p.ws p.ms r
  obtain ⟨h1, h2, h3, h4⟩ := h
  rw [lg_pt, mk_pt, ey_pt, h1, h2, h3, h4] at hs
  exact hs

theorem cols_inv_nat (r : Fin 512) : ∀ (n : ℕ) (hn : n < cfg0.N),
    RowIs (colsAt m c n hn) r
      (Cert.Spec.tileState (Cert.Spec.lgt (cfK m c) (rowOf ⟨n, hn⟩ r)) (Cert.Spec.mkt (mskK m c) (rowOf ⟨n, hn⟩ r))
        (Cert.Spec.eyt (rowOf ⟨n, hn⟩ r)) (n % 8 + 1)) := by
  intro n
  induction n with
  | zero =>
    intro hn
    rw [colsAt_first m c ⟨0, hn⟩ rfl]
    exact rowIs_step m c ⟨0, hn⟩ r resetCols _ (rowIs_reset r)
  | succ n ih =>
    intro hn
    by_cases h0 : (n + 1) % 8 = 0
    · rw [colsAt_first m c ⟨n + 1, hn⟩ h0]
      have hs := rowIs_step m c ⟨n + 1, hn⟩ r resetCols _ (rowIs_reset r)
      simp only [h0] at hs ⊢
      exact hs
    · rw [colsAt_next m c ⟨n + 1, hn⟩ h0]
      have hp := ih (Nat.lt_of_succ_lt hn)
      have hrow : rowOf ⟨n, Nat.lt_of_succ_lt hn⟩ r = rowOf ⟨n + 1, hn⟩ r := Fin.ext (by
        show 512 * (n / 8) + r.val = 512 * ((n + 1) / 8) + r.val
        omega)
      have hk : n % 8 + 1 = (n + 1) % 8 := by omega
      rw [hrow, hk] at hp
      exact rowIs_step m c ⟨n + 1, hn⟩ r _ _ hp

/-- After the body at point `t`, row `r` of the four running columns is the tile-by-tile state of row
    `rowOf t r` after its first `t mod 8 + 1` tiles. -/
theorem cols_inv (t : Fin cfg0.N) (r : Fin 512) :
    let s := Cert.Spec.tileState (Cert.Spec.lgt (cfK m c) (rowOf t r)) (Cert.Spec.mkt (mskK m c) (rowOf t r))
      (Cert.Spec.eyt (rowOf t r)) (t.val % 8 + 1)
    (colsAt m c t.val t.isLt).mx (ix2 r 0) = s.mx ∧ (colsAt m c t.val t.isLt).se (ix2 r 0) = s.se
      ∧ (colsAt m c t.val t.isLt).ws (ix2 r 0) = s.ws ∧ (colsAt m c t.val t.isLt).ms (ix2 r 0) = s.ms :=
  cols_inv_nat m c r t.val t.isLt

/-- Where the losses are stored, row `r` of what is stored is the tile-by-tile loss of row `rowOf t r` over its
    eight tiles. -/
theorem outAt_row (t : Fin cfg0.N) (h7 : t.val % 8 = 7) (r : Fin 512) :
    outAt m c t (ix2 r 0) = Cert.Spec.tileRow (Cert.Spec.lgt (cfK m c) (rowOf t r)) (Cert.Spec.mkt (mskK m c) (rowOf t r))
      (Cert.Spec.eyt (rowOf t r)) 8 := by
  obtain ⟨h1, h2, h3, h4⟩ := cols_inv m c t r
  rw [h7] at h1 h2 h3 h4
  unfold outAt
  rw [outRows_row, h1, h2, h3, h4]
  rfl

end Cert.KernelIdeal.Hand

end
-- ==== Proof.RefValue.lean ====
/-
  The two arrays the loss is a function of, as the reference computes them from its arguments: the
  stacked features (row n of the stack is view n / 2048 of sample n % 2048) and the label-similarity
  matrix (the cosine similarity of two samples' label vectors, the product of the norms kept away from
  zero by a small constant).
-/
import proofs.«429412_j87256555585551_1_alg».proof.Proof.Gen.ReferenceIdeal.Read
import proofs.«429412_j87256555585551_1_alg».proof.Proof.RowSpec

noncomputable section

namespace Cert.ReferenceIdeal.RefValue

open Cert.ReferenceIdeal Cert.ReferenceIdeal.Read Idealize.ShloMosaic Idealize.ShloMosaic.ValueIdx

/-- The stacked features, entry by entry. -/
def cfOf (x0 : (⟨S2048x2x512, .f32⟩ : BufTy).Contents (Elt Ideal)) : Fin 4096 → Fin 512 → EReal :=
  fun n d => val_main_v13 (F := Ideal) x0 (ix2 n d)

/-- The label-similarity matrix, entry by entry. -/
def mskOf (x1 : (⟨S2048x19, .i32⟩ : BufTy).Contents (Elt Ideal)) : Fin 2048 → Fin 2048 → EReal :=
  fun a b => val_main_v11 (F := Ideal) x1 (ix2 a b)

end Cert.ReferenceIdeal.RefValue

end
-- ==== Proof.RefLoss.lean ====
/-
  The reference computes the loss. Row `i` of 4096 against column `c` of 4096: the logit is the inner product of
  feature rows `i` and `c` divided by the temperature 9395241/2^27, that is, times 2^27/9395241; the row's maximum
  is taken over all the columns; the weight is the label similarity of samples `i mod 2048` and `c mod 2048`;
  the row's own column is left out of the sum of exponentials and of both weight sums. Each stage of the
  reference is read at an index, the row's sums and maximum over the 4096 columns are re-indexed by tile `k`
  of 8 and position `j` of 512 (column 512·k + j), and the mean over the rows, summed as a 2 by 2048 array in
  row-major order, is the sum over the 4096 rows divided by 4096.
-/
import proofs.«429412_j87256555585551_1_alg».proof.Proof.RefValue

noncomputable section

namespace Cert.ReferenceIdeal.RefValue

open Cert.ReferenceIdeal Cert.ReferenceIdeal.Gen Cert.ReferenceIdeal.Read Idealize.ShloMosaic Idealize.ShloMosaic.ValueIdx

namespace Loss

/-! ### The constants the reference spells -/

/-- The temperature 0.07 as the binary fraction it is carried as. -/
theorem ofBits_temp : Ideal.ofBits .f32 0x3D8F5C29#32 = ((9395241 / 134217728 : ℝ) : EReal) := by
  simp [Ideal.ofBits, Ideal.ieee, -EReal.coe_mul]; norm_num
/-- The number of rows. -/
theorem ofBits_4096 : Ideal.ofBits .f32 0x45800000#32 = ((4096 : ℝ) : EReal) := by
  simp [Ideal.ofBits, Ideal.ieee, -EReal.coe_mul]; norm_num
theorem ofBits_negOne : Ideal.ofBits .f32 0xBF800000#32 = (-1 : EReal) := by
  simp [Ideal.ofBits, Ideal.ieee, -EReal.coe_mul]; norm_num
theorem ofBits_one : Ideal.ofBits .f32 0x3F800000#32 = (1 : EReal) := by
  simp [Ideal.ofBits, Ideal.ieee, -EReal.coe_mul]; norm_num
/-- The maximum of no columns. -/
theorem ofBits_negInf : Ideal.ofBits .f32 0xFF800000#32 = (⊥ : EReal) := by
  simp [Ideal.ofBits, Ideal.ieee]

/-! ### Columns by tile and position -/

theorem col_val (k : ℕ) (hk : k < 8) (j : Fin 512) : (Cert.Spec.col k j).val = 512 * k + j.val := by
  have := j.isLt
  show (512 * k + j.val) % 4096 = _
  omega

theorem col_inj : ∀ x ∈ Finset.range 8 ×ˢ (Finset.univ : Finset (Fin 512)),
    ∀ y ∈ Finset.range 8 ×ˢ (Finset.univ : Finset (Fin 512)),
    Cert.Spec.col x.1 x.2 = Cert.Spec.col y.1 y.2 → x = y := by
  intro x hx y hy e
  simp only [Finset.mem_product, Finset.mem_range, Finset.mem_univ, and_true] at hx hy
  have e' := congrArg Fin.val e
  rw [col_val _ hx, col_val _ hy] at e'
  have := x.2.isLt
  have := y.2.isLt
  exact Prod.ext (by omega) (Fin.ext (by omega))

theorem col_image :
    (Finset.range 8 ×ˢ (Finset.univ : Finset (Fin 512))).image (fun p => Cert.Spec.col p.1 p.2) = Finset.univ := by
  ext c
  simp only [Finset.mem_image, Finset.mem_univ, iff_true]
  have hc := c.isLt
  refine ⟨(c.val / 512, ⟨c.val % 512, Nat.mod_lt _ (by decide)⟩), ?_, ?_⟩
  · simp only [Finset.mem_product, Finset.mem_range, Finset.mem_univ, and_true]; omega
  · apply Fin.ext
    show (512 * (c.val / 512) + c.val % 512) % 4096 = c.val
    omega

/-- A sum over the 4096 columns is the sum over the 8 tiles of 512. -/
theorem sum_col (f : Fin 4096 → EReal) :
    ∑ p ∈ Finset.range 8 ×ˢ (Finset.univ : Finset (Fin 512)), f (Cert.Spec.col p.1 p.2) = ∑ c, f c := by
  rw [← col_image, Finset.sum_image col_inj]

/-- The maximum over the 4096 columns is the maximum over the 8 tiles of 512. -/
theorem fold_col (f : Fin 4096 → EReal) :
    (Finset.range 8 ×ˢ (Finset.univ : Finset (Fin 512))).fold max ⊥ (fun p => f (Cert.Spec.col p.1 p.2))
      = (Finset.univ : Finset (Fin 4096)).fold max ⊥ f := by
  rw [← col_image, Finset.fold_image col_inj]
  rfl

/-- One row's loss with the columns addressed flat. -/
def rowFlat (lg mk ey : Fin 4096 → EReal) : EReal :=
  (-1 : EReal) * Ideal.div
    (∑ c, (mk c * (1 - ey c)) * ((lg c - (Finset.univ : Finset (Fin 4096)).fold max ⊥ lg)
      - Ideal.log (∑ c, Ideal.exp (lg c - (Finset.univ : Finset (Fin 4096)).fold max ⊥ lg) * (1 - ey c))))
    (∑ c, mk c * (1 - ey c))

theorem wholeRow_col (lg mk ey : Fin 4096 → EReal) :
    Cert.Spec.wholeRow (fun k j => lg (Cert.Spec.col k j)) (fun k j => mk (Cert.Spec.col k j))
      (fun k j => ey (Cert.Spec.col k j)) 8 = rowFlat lg mk ey := by
  unfold Cert.Spec.wholeRow rowFlat
  dsimp only
  rw [fold_col lg, sum_col (fun c => Ideal.exp (lg c - (Finset.univ : Finset (Fin 4096)).fold max ⊥ lg) * (1 - ey c)),
    sum_col (fun c => mk c * (1 - ey c)),
    sum_col (fun c => (mk c * (1 - ey c)) * ((lg c - (Finset.univ : Finset (Fin 4096)).fold max ⊥ lg)
      - Ideal.log (∑ c, Ideal.exp (lg c - (Finset.univ : Finset (Fin 4096)).fold max ⊥ lg) * (1 - ey c))))]

theorem rowLoss_flat (cf : Fin 4096 → Fin 512 → EReal) (msk : Fin 2048 → Fin 2048 → EReal) (i : Fin 4096) :
    Cert.Spec.rowLoss cf msk i
      = rowFlat (fun c => Cert.Spec.score cf i c * Cert.Spec.invT)
          (fun c => msk ⟨i.val % 2048, Nat.mod_lt _ (by decide)⟩ ⟨c.val % 2048, Nat.mod_lt _ (by decide)⟩)
          (fun c => if i = c then 1 else 0) :=
  wholeRow_col (fun c => Cert.Spec.score cf i c * Cert.Spec.invT)
    (fun c => msk ⟨i.val % 2048, Nat.mod_lt _ (by decide)⟩ ⟨c.val % 2048, Nat.mod_lt _ (by decide)⟩)
    (fun c => if i = c then 1 else 0)

/-! ### The logits, the row's maximum and the indicator at an index -/

variable (x0 : (⟨S2048x2x512, .f32⟩ : BufTy).Contents (Elt Ideal)) (x1 : (⟨S2048x19, .i32⟩ : BufTy).Contents (Elt Ideal))

theorem lidx15 (i c : Fin 4096) (k : Fin 512) : lidx_main_v15 (ix2 i c) k = ix2 i k :=
  funext fun a => Fin.ext (by match a with | ⟨0, _⟩ => rfl | ⟨1, _⟩ => rfl)
theorem ridx15 (i c : Fin 4096) (k : Fin 512) : idx_main_v14 (ridx_main_v15 (ix2 i c) k) = ix2 c k :=
  funext fun a => Fin.ext (by match a with | ⟨0, _⟩ => rfl | ⟨1, _⟩ => rfl)

theorem logit_at (i c : Fin 4096) :
    val_main_v17 (F := Ideal) x0 (ix2 i c) = Cert.Spec.score (cfOf x0) i c * Cert.Spec.invT := by
  rw [val_main_v17_apply, val_main_v15_apply, val_main_v16_apply, val_main_cst_0_apply]
  simp only [val_main_v14_apply, lidx15, ridx15, Ideal.hostDivf_def, Ideal.ofBits_def]
  rw [ofBits_temp, Ideal.div_coe (by norm_num)]
  unfold Cert.Spec.score Cert.Spec.invT cfOf
  congr 2; norm_num

theorem red1 : S4096x4096.Reduces [1] S4096 := by decide

theorem lift1 (i : Fin 4096) (c : Fin (S4096x4096.size 1)) : red1.lift (ix1 i) c = ix2 i c :=
  funext fun a => Fin.ext (by match a with | ⟨0, _⟩ => rfl | ⟨1, _⟩ => rfl)

theorem rowmax_at (i : Fin 4096) :
    val_main_v18 (F := Ideal) x0 (ix1 i)
      = (Finset.univ : Finset (Fin 4096)).fold max ⊥ (fun c => Cert.Spec.score (cfOf x0) i c * Cert.Spec.invT) := by
  unfold val_main_v18
  rw [Host.reduce_eq_fold_single FloatOps.maximumf _ _ reducesTo_S4096x4096_S4096_d1 red1 h_S_ (ix1 i)]
  rw [val_main_cst_1_apply, Ideal.ofBits_def, ofBits_negInf]
  have e : (val_main_v17 (F := Ideal) x0 ∘ red1.lift (ix1 i))
      = fun c : Fin (S4096x4096.size 1) => Cert.Spec.score (cfOf x0) i c * Cert.Spec.invT := funext fun c => by
    show val_main_v17 (F := Ideal) x0 (red1.lift (ix1 i) c) = _
    rw [lift1]
    exact logit_at x0 i c
  rw [e]
  rfl

theorem eye_at (i c : Fin 4096) :
    val_main_v30 (F := Ideal) (ix2 i c) = if i = c then (1 : EReal) else 0 := by
  rw [val_main_v30_apply, val_main_v29_apply, val_main_v28_apply, val_main_v25_apply, val_main_v26_apply,
    val_main_v27_apply, val_main_c_apply]
  show (((IntOp.cmpi .eq (IntOp.addi (BitVec.ofNat 32 i.val) 0#32) (BitVec.ofNat 32 c.val)).toNat : ℝ) : EReal) = _
  have hi : i.val < 4096 := i.isLt
  have hc : c.val < 4096 := c.isLt
  unfold IntOp.cmpi IntOp.addi
  rw [BitVec.add_zero]
  by_cases h : i = c
  · subst h; simp
  · have hne : ¬ (BitVec.ofNat 32 i.val = BitVec.ofNat 32 c.val) := by
      intro e
      have := congrArg BitVec.toNat e
      simp only [BitVec.toNat_ofNat] at this
      exact h (Fin.ext (by omega))
    simp [h, hne]

/-! ### The row's pieces at an index -/

/-- The logit of row `i` against column `c`. -/
abbrev lgF (i c : Fin 4096) : EReal := Cert.Spec.score (cfOf x0) i c * Cert.Spec.invT
/-- The weight of row `i` against column `c`. -/
abbrev mkF (i c : Fin 4096) : EReal :=
  mskOf x1 ⟨i.val % 2048, Nat.mod_lt _ (by decide)⟩ ⟨c.val % 2048, Nat.mod_lt _ (by decide)⟩
/-- The indicator of the row's own column. -/
abbrev eyF (i c : Fin 4096) : EReal := if i = c then 1 else 0

theorem one_sub_eye_at (i c : Fin 4096) : val_main_v32 (F := Ideal) (ix2 i c) = 1 - eyF i c := by
  rw [val_main_v32_apply, val_main_v31_apply, val_main_cst_2_apply, eye_at]
  simp only [Ideal.subf_def, Ideal.ofBits_def, ofBits_one]

theorem idx24 (i c : Fin 4096) :
    idx_main_v22 (idx_main_v23 (idx_main_v24 (ix2 i c)))
      = ix2 (⟨i.val % 2048, Nat.mod_lt _ (by decide)⟩ : Fin 2048) (⟨c.val % 2048, Nat.mod_lt _ (by decide)⟩ : Fin 2048) := by
  have hi := i.isLt
  have hc := c.isLt
  funext a
  apply Fin.ext
  match a with
  | ⟨0, _⟩ => show (((0 * 2048 + (i.val * 4096 + c.val) / 4096 % 2048) * 1 + 0) * 2048 + (i.val * 4096 + c.val) % 2048) / 2048 = i.val % 2048; omega
  | ⟨1, _⟩ => show (((0 * 2048 + (i.val * 4096 + c.val) / 4096 % 2048) * 1 + 0) * 2048 + (i.val * 4096 + c.val) % 2048) % 2048 = c.val % 2048; omega

theorem weight_at (i c : Fin 4096) : val_main_v24 (F := Ideal) x1 (ix2 i c) = mkF x1 i c := by
  rw [val_main_v24_apply, val_main_v23_apply, val_main_v22_apply, idx24]
  rfl

theorem i19 (i c : Fin 4096) : idx_main_v19 (idx_main_v20 (ix2 i c)) = ix1 i :=
  funext fun a => Fin.ext (by match a with | ⟨0, _⟩ => rfl)
theorem i37 (i c : Fin 4096) : idx_main_v37 (idx_main_v39 (ix2 i c)) = ix1 i :=
  funext fun a => Fin.ext (by match a with | ⟨0, _⟩ => rfl)
theorem i36 (i k : Fin 4096) : idx_main_v36 (ix1 i) k = ix2 i k :=
  funext fun a => Fin.ext (by match a with | ⟨0, _⟩ => rfl | ⟨1, _⟩ => rfl)
theorem i42 (i k : Fin 4096) : idx_main_v42 (ix1 i) k = ix2 i k :=
  funext fun a => Fin.ext (by match a with | ⟨0, _⟩ => rfl | ⟨1, _⟩ => rfl)
theorem i43 (i k : Fin 4096) : idx_main_v43 (ix1 i) k = ix2 i k :=
  funext fun a => Fin.ext (by match a with | ⟨0, _⟩ => rfl | ⟨1, _⟩ => rfl)

/-- The logit less the row's maximum. -/
theorem shifted_at (i c : Fin 4096) :
    val_main_v21 (F := Ideal) x0 (ix2 i c) = lgF x0 i c - (Finset.univ : Finset (Fin 4096)).fold max ⊥ (lgF x0 i) := by
  rw [val_main_v21_apply, val_main_v20_apply, val_main_v19_apply, i19, rowmax_at, logit_at]
  rfl

/-- The sum of exponentials over the columns other than the row's own. -/
theorem sumexp_at (i : Fin 4096) :
    val_main_v36 (F := Ideal) x0 (ix1 i)
      = ∑ c, Ideal.exp (lgF x0 i c - (Finset.univ : Finset (Fin 4096)).fold max ⊥ (lgF x0 i)) * (1 - eyF i c) := by
  rw [val_main_v36_apply, val_main_cst_3_apply]
  simp only [i36, val_main_v35_apply, val_main_v34_apply, shifted_at, one_sub_eye_at, Ideal.ofBits_def,
    Ideal.ofBits_zero_f32, zero_add, Ideal.mulf_def, Ideal.hostUnary_exp_def]

/-- The log-probability. -/
theorem logprob_at (i c : Fin 4096) :
    val_main_v40 (F := Ideal) x0 (ix2 i c)
      = (lgF x0 i c - (Finset.univ : Finset (Fin 4096)).fold max ⊥ (lgF x0 i))
        - Ideal.log (∑ c, Ideal.exp (lgF x0 i c - (Finset.univ : Finset (Fin 4096)).fold max ⊥ (lgF x0 i)) * (1 - eyF i c)) := by
  rw [val_main_v40_apply, val_main_v39_apply, val_main_v38_apply, val_main_v37_apply, i37, sumexp_at, shifted_at]
  simp only [Ideal.subf_def, Ideal.hostUnary_log_def]

theorem wt_at (i c : Fin 4096) : val_main_v33 (F := Ideal) x1 (ix2 i c) = mkF x1 i c * (1 - eyF i c) := by
  rw [val_main_v33_apply, weight_at, one_sub_eye_at]
  rfl

theorem num_at (i : Fin 4096) :
    val_main_v42 (F := Ideal) x0 x1 (ix1 i)
      = ∑ c, (mkF x1 i c * (1 - eyF i c)) * ((lgF x0 i c - (Finset.univ : Finset (Fin 4096)).fold max ⊥ (lgF x0 i))
        - Ideal.log (∑ c, Ideal.exp (lgF x0 i c - (Finset.univ : Finset (Fin 4096)).fold max ⊥ (lgF x0 i)) * (1 - eyF i c))) := by
  rw [val_main_v42_apply, val_main_cst_4_apply]
  simp only [i42, val_main_v41_apply, wt_at, logprob_at, Ideal.ofBits_def, Ideal.ofBits_zero_f32, zero_add,
    Ideal.mulf_def]

theorem den_at (i : Fin 4096) :
    val_main_v43 (F := Ideal) x1 (ix1 i) = ∑ c, mkF x1 i c * (1 - eyF i c) := by
  rw [val_main_v43_apply, val_main_cst_5_apply]
  simp only [i43, wt_at, Ideal.ofBits_def, Ideal.ofBits_zero_f32, zero_add]

/-- Row `i` of the reference's per-row loss. -/
theorem row_at (i : Fin 4096) :
    val_main_v46 (F := Ideal) x0 x1 (ix1 i) = Cert.Spec.rowLoss (cfOf x0) (mskOf x1) i := by
  rw [val_main_v46_apply, val_main_v45_apply, val_main_cst_6_apply, val_main_v44_apply, num_at, den_at, rowLoss_flat]
  simp only [Ideal.mulf_def, Ideal.hostDivf_def, Ideal.ofBits_def, ofBits_negOne]
  rfl

/-! ### The mean over the rows -/

theorem sum_rows (y : S4096.Idx → EReal) : ∑ j : S2x2048.Idx, y (idx_main_v47 j) = ∑ i : Fin 4096, y (ix1 i) := by
  refine Finset.sum_nbij' (fun j => idx_main_v47 j 0)
    (fun i => ix2 (⟨i.val / 2048, by have := i.isLt; omega⟩ : Fin 2) (⟨i.val % 2048, Nat.mod_lt _ (by decide)⟩ : Fin 2048))
    ?_ ?_ ?_ ?_ ?_
  · intro _ _; exact Finset.mem_univ _
  · intro _ _; exact Finset.mem_univ _
  · intro j _
    have h0 := idx2_lt0 j
    have h1 := idx2_lt1 j
    funext a
    apply Fin.ext
    match a with
    | ⟨0, _⟩ => show ((j 0).val * 2048 + (j 1).val) / 2048 = (j 0).val; omega
    | ⟨1, _⟩ => show ((j 0).val * 2048 + (j 1).val) % 2048 = (j 1).val; omega
  · intro i _
    apply Fin.ext
    show i.val / 2048 * 2048 + i.val % 2048 = i.val
    omega
  · intro j _
    exact congrArg y (eq_ix1 _)

end Loss

open Loss

/-- The reference's result is the loss of the stacked features and the label-similarity matrix. -/
theorem result_eq (x0 : (⟨S2048x2x512, .f32⟩ : BufTy).Contents (Elt Ideal))
    (x1 : (⟨S2048x19, .i32⟩ : BufTy).Contents (Elt Ideal)) :
    val_main_v49 (F := Ideal) x0 x1 = fun _ => Cert.Spec.loss (cfOf x0) (mskOf x1) := by
  funext j
  rw [val_main_v49_apply, val_main_v48_apply, val_main_cst_7_apply, val_main_cst_8_apply]
  simp only [val_main_v47_apply, Ideal.hostDivf_def, Ideal.ofBits_def, Ideal.ofBits_zero_f32, zero_add, ofBits_4096]
  rw [sum_rows (val_main_v46 (F := Ideal) x0 x1)]
  simp only [row_at]
  rfl

end Cert.ReferenceIdeal.RefValue
end
-- ==== Proof.KI.Result.lean ====
/-
  From the run's post to the kernel's result as a function of the rows' losses. The output array after the run
  has row `i` at the tile-by-tile loss of row `i` over its eight tiles: the point `8 * (i / 512) + 7` stores the
  losses of its row tile, every row is stored by exactly one such point, and what a point stores is its block of
  the one array `Gout`. The host operations after the region then sum the 4096 rows onto zero and divide by
  4096: the result is the mean of the rows' losses.
-/
import proofs.«429412_j87256555585551_1_alg».proof.Proof.KI.Dats
import proofs.«429412_j87256555585551_1_alg».proof.Proof.KI.Blocks
import proofs.«429412_j87256555585551_1_alg».proof.Proof.KI.Launch
import proofs.«429412_j87256555585551_1_alg».proof.Proof.KI.RowInv
import proofs.«429412_j87256555585551_1_alg».proof.Proof.RowSpec
import proofs.«429412_j87256555585551_1_alg».proof.Proof.RefLoss
import Idealize.ShloMosaic.Lib.IdealHost
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ) (c : Dev nD)

/-! ## The output array after the run -/

/-- Row `i`'s loss as the kernel computes it: the tile-by-tile loss of the row over its eight tiles. -/
def krow (i : Fin 4096) : EReal :=
  Cert.Spec.tileRow (Cert.Spec.lgt (cfK m c) i) (Cert.Spec.mkt (mskK m c) i) (Cert.Spec.eyt i) 8

/-- The output array with every row at its loss. -/
def Gout : S4096x1.Idx → EReal := fun idx => krow m c (idx 0)

/-- What a point that stores the losses writes back is its block of `Gout`. -/
theorem flushed3_eq (t : Fin cfg0.N) (hf : (cfg0.win 3).flush t = true) :
    (dats (F := Ideal) m 0 c).flushed 3 t
      = ((cfg0.win 3).blk t).view.read (Elt Ideal) (Gout m c : Buf (Elt Ideal) ((cfg0.win 3).arr.view.loc (c.tc : Thread nD τ))) := by
  have h7 : t.val % 8 = 7 := (flush0_3 t).mp hf
  show (cfg0.win 3).cut (grid0.coords t) ((dats (F := Ideal) m 0 c).after 3 t) = _
  rw [after3]
  funext y
  obtain ⟨r, z, rfl⟩ : ∃ (r : Fin 512) (z : Fin 1), y = ix2 r z := ⟨y 0, y 1, eq_ix2 y⟩
  have hz : z = 0 := Subsingleton.elim _ _
  subst hz
  refine Eq.trans (?_ : _ = outAt m c t (ix2 r 0)) ?_
  · rfl
  · rw [outAt_row m c t h7 r]
    refine Eq.trans ?_ (oblk_read (F := Ideal) c (Gout m c) t r 0).symm
    rfl

/-- After the run, row `i` of the output array is the row's loss as the kernel computes it. -/
theorem arr_out (i : Fin 4096) :
    ((dats (F := Ideal) m 0 c).arrAt 3 cfg0.N : S4096x1.Idx → EReal) (ix2 i (0 : Fin 1)) = krow m c i := by
  have h := (dats (F := Ideal) m 0 c).arrAt_eq_of_cover 3
    (Gout m c : Buf (Elt Ideal) ((cfg0.win 3).arr.view.loc (c.tc : Thread nD τ))) (fun t hf => flushed3_eq m c t hf) cover3
  rw [h]
  rfl

/-! ## The host operations after the region -/

/-- A sum over the indices of the [4096, 1] array is the sum over its 4096 rows. -/
theorem sum_out (y : S4096x1.Idx → EReal) : ∑ idx : S4096x1.Idx, y idx = ∑ i : Fin 4096, y (ix2 i (0 : Fin 1)) := by
  rw [sum_idx2]
  exact Finset.sum_congr rfl fun i _ => Fin.sum_univ_one _

/-- The program's result: the host operations after the region, run from the contents at the region's exit, leave
    the mean over the 4096 rows of the rows' losses as the kernel computes them. -/
theorem result_val :
    (StableHlo.after hostOps1 (exitVal m (dats m) c) (Proc.devRef .tc main_v17) : S_.Idx → EReal)
      = fun _ => Ideal.div (∑ i : Fin 4096, krow m c i) ((4096 : ℝ) : EReal) := by
  after_results
  funext j
  rw [hostDivf_apply, hostReduceAdd_apply, Ideal.hostReduceAdd_total reducesTo_S4096x1_S_d0_1 (fun b => b.elim0),
    constant_apply, constant_apply, Ideal.ofBits_zero_f32, zero_add, Cert.ReferenceIdeal.RefValue.Loss.ofBits_4096,
    exitVal_out, sum_out]
  exact congrArg (fun s => Ideal.div s ((4096 : ℝ) : EReal)) (Finset.sum_congr rfl fun i _ => arr_out m c i)

end Cert.KernelIdeal.Hand

end
-- ==== Proof.KI.HostGlue.lean ====
/-
  The two arrays the region reads, as functions of the program's arguments, are the two arrays the
  reference computes from the same arguments: the stacked features (the features transposed and
  reshaped to 4096 rows of 512, the narrowing conversion being the identity over the extended reals)
  and the label-similarity matrix (the labels' Gram matrix divided by the product of the rows' norms,
  that product kept above a small positive constant).
-/
import proofs.«429412_j87256555585551_1_alg».proof.Proof.KI.Base
import proofs.«429412_j87256555585551_1_alg».proof.Proof.RefValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.StableHlo

variable (m : (ℓ : Loc nD τ sig) → Buf (Elt Ideal) ℓ) (c : Dev nD)

/-! ## The stacked features -/

/-- The array of stacked features the region finds: the features with their first two axes exchanged,
    read as 4096 rows of 512, then narrowed. -/
theorem V_feat_term :
    (V (F := Ideal) m c main_v14 : S4096x512.Idx → EReal) =
      truncf (F := Ideal) .bf16 (shapeCast S4096x512 (transpose S2x2048x512 [1, 0, 2] (m ((c.tc : Thread nD τ).loc main_arg0)) transposes_S2048x2x512_S2x2048x512_1_0_2) shapeCasts_S2x2048x512_S4096x512) bitsLt_bf16_f32 := by
  dsimp only [V, V0]
  simp only [hostOps0, hostOps0_1, hostOps0_2, List.flatten_cons, List.flatten_nil, List.append_nil, List.cons_append, List.nil_append]
  after_results
  rfl

set_option maxHeartbeats 400000 in
/-- Entry (n, d) of the stacked features the region finds is entry (n, d) of the reference's stack:
    over the extended reals the narrowing is the identity, and what is left is the same transpose and
    the same reshape of the same argument. -/
theorem V_feat (n : Fin 4096) (d : Fin 512) :
    V (F := Ideal) m c main_v14 (Idealize.ShloMosaic.ValueIdx.ix2 n d) = Cert.ReferenceIdeal.RefValue.cfOf (m ((c.tc : Thread nD τ).loc main_arg0)) n d := by
  have e := congrFun (V_feat_term m c) (Idealize.ShloMosaic.ValueIdx.ix2 n d)
  refine e.trans ?_
  rfl

/-! ## The label-similarity matrix -/

set_option maxHeartbeats 1000000 in
/-- The similarity matrix the region finds is the reference's, as whole arrays: the two are the same
    composition of the same operations (conversion of the labels, squared row norms summed and rooted,
    the two broadcasts' product floored by the constant, the Gram matrix, the quotient) applied to the
    same argument. -/
theorem V_mask_term :
    (V (F := Ideal) m c main_v11 : S2048x2048.Idx → EReal) =
      Cert.ReferenceIdeal.Read.val_main_v11 (F := Ideal) (m ((c.tc : Thread nD τ).loc main_arg1)) := by
  dsimp only [V, V0]
  simp only [hostOps0, hostOps0_1, hostOps0_2, List.flatten_cons, List.flatten_nil, List.append_nil, List.cons_append, List.nil_append]
  after_results
  rfl

/-- Entry (a, b) of the similarity matrix the region finds is entry (a, b) of the reference's. -/
theorem V_mask (a b : Fin 2048) :
    V (F := Ideal) m c main_v11 (Idealize.ShloMosaic.ValueIdx.ix2 a b) = Cert.ReferenceIdeal.RefValue.mskOf (m ((c.tc : Thread nD τ).loc main_arg1)) a b :=
  congrFun (V_mask_term m c) (Idealize.ShloMosaic.ValueIdx.ix2 a b)

end Cert.KernelIdeal.Hand

end
-- ==== Proof.Finite.lean ====
/-
  Finiteness of the two arrays the loss is computed from. Every entry of the label-similarity matrix is a
  real number: a label is an integer read as a real, a dot product of two label rows is a finite sum of
  products of reals, a norm is the square root of a finite sum of squares (a nonnegative real), and the
  denominator, the larger of a product of two norms and a positive constant, is a positive real, so the
  quotient is a real. Every entry of the stacked features is an entry of the feature argument, so it is a
  real as soon as every entry of the argument is; and that is what the precondition says: the absolute
  value of every entry is below plus infinity.
-/
import proofs.«429412_j87256555585551_1_alg».proof.Proof.RefValue
import proofs.«429412_j87256555585551_1_alg».proof.Pre_finite_inputs
import Idealize.ShloMosaic.Lib.ReduceAll

noncomputable section

namespace Cert.ReferenceIdeal.RefValue

open Cert.ReferenceIdeal Cert.ReferenceIdeal.Read Idealize.ShloMosaic Idealize.ShloMosaic.ValueIdx

/-! ### Extended reals that are reals -/

/-- The extended real is a real. -/
def IsReal (x : EReal) : Prop := ∃ r : ℝ, x = (r : EReal)

/-- The extended real is a nonnegative real. -/
def IsNonneg (x : EReal) : Prop := ∃ r : ℝ, 0 ≤ r ∧ x = (r : EReal)

/-- The extended real is a positive real. -/
def IsPos (x : EReal) : Prop := ∃ r : ℝ, 0 < r ∧ x = (r : EReal)

theorem IsNonneg.isReal {x : EReal} (h : IsNonneg x) : IsReal x := by
  obtain ⟨r, _, e⟩ := h; exact ⟨r, e⟩

theorem IsPos.isNonneg {x : EReal} (h : IsPos x) : IsNonneg x := by
  obtain ⟨r, hr, e⟩ := h; exact ⟨r, hr.le, e⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A real times itself is a nonnegative real. -/
theorem IsReal.mul_self {x : EReal} (hx : IsReal x) : IsNonneg (x * x) := by
  obtain ⟨a, rfl⟩ := hx; exact ⟨a * a, mul_self_nonneg a, (EReal.coe_mul a a).symm⟩

theorem IsNonneg.add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩

theorem IsNonneg.mul {x y : EReal} (hx : IsNonneg x) (hy : IsNonneg y) : IsNonneg (x * y) := by
  obtain ⟨a, ha, rfl⟩ := hx; obtain ⟨b, hb, rfl⟩ := hy
  exact ⟨a * b, mul_nonneg ha hb, (EReal.coe_mul a b).symm⟩

theorem IsReal.zero : IsReal 0 := ⟨0, EReal.coe_zero.symm⟩

theorem IsNonneg.zero : IsNonneg 0 := ⟨0, le_refl 0, EReal.coe_zero.symm⟩

/-- A finite sum of reals is a real. -/
theorem IsReal.sum {ι : Type} (s : Finset ι) (f : ι → EReal) (h : ∀ i, IsReal (f i)) :
    IsReal (∑ i ∈ s, f i) := by
  classical
  induction s using Finset.induction_on with
  | empty => rw [Finset.sum_empty]; exact IsReal.zero
  | insert a s ha ih => rw [Finset.sum_insert ha]; exact (h a).add ih

/-- A finite sum of nonnegative reals is a nonnegative real. -/
theorem IsNonneg.sum {ι : Type} (s : Finset ι) (f : ι → EReal) (h : ∀ i, IsNonneg (f i)) :
    IsNonneg (∑ i ∈ s, f i) := by
  classical
  induction s using Finset.induction_on with
  | empty => rw [Finset.sum_empty]; exact IsNonneg.zero
  | insert a s ha ih => rw [Finset.sum_insert ha]; exact (h a).add ih

/-- The square root of a nonnegative real is the real square root, a nonnegative real. -/
theorem IsNonneg.sqrt {x : EReal} (hx : IsNonneg x) : IsNonneg (Ideal.sqrt x) := by
  obtain ⟨a, ha, rfl⟩ := hx
  rw [Ideal.sqrt_coe, if_neg (not_lt.2 ha)]
  exact ⟨Real.sqrt a, Real.sqrt_nonneg a, rfl⟩

/-- The larger of a real and a positive real is a positive real. -/
theorem IsPos.max_right {x y : EReal} (hx : IsReal x) (hy : IsPos y) : IsPos (max x y) := by
  obtain ⟨a, rfl⟩ := hx; obtain ⟨b, hb, rfl⟩ := hy
  rcases le_total (a : EReal) (b : EReal) with h | h
  · rw [max_eq_right h]; exact ⟨b, hb, rfl⟩
  · rw [max_eq_left h]; exact ⟨a, lt_of_lt_of_le hb (EReal.coe_le_coe_iff.1 h), rfl⟩

/-- A real divided by a positive real is a real. -/
theorem IsReal.div {x y : EReal} (hx : IsReal x) (hy : IsPos y) : IsReal (Ideal.div x y) := by
  obtain ⟨a, rfl⟩ := hx; obtain ⟨b, hb, rfl⟩ := hy
  rw [Ideal.div_coe hb.ne']
  exact ⟨a * (1 / b), (EReal.coe_mul a (1 / b)).symm⟩

/-! ### The constants -/

/-- The pattern of all zeros denotes zero. -/
theorem ofBits_zero : Ideal.ofBits .f32 0x00000000#32 = 0 := by
  simp [Ideal.ofBits, Ideal.ieee]

/-- The small constant that keeps the product of the norms away from zero denotes a positive real. -/
theorem ofBits_eps : Ideal.ofBits .f32 0x322BCC77#32 = ((11258999 * (2 ^ 50)⁻¹ : ℝ) : EReal) := by
  simp [Ideal.ofBits, Ideal.ieee, -EReal.coe_mul]

theorem ofBits_eps_pos : IsPos (Ideal.ofBits .f32 0x322BCC77#32) :=
  ⟨11258999 * (2 ^ 50)⁻¹, by norm_num, ofBits_eps⟩

/-- The pattern of plus infinity denotes the top extended real. -/
theorem ofBits_inf : Ideal.ofBits .f32 0x7F800000#32 = ⊤ := by
  simp [Ideal.ofBits, Ideal.ieee]

/-! ### The label-similarity matrix, stage by stage -/

section Labels

variable (x1 : (⟨S2048x19, .i32⟩ : BufTy).Contents (Elt Ideal))

/-- A label read as a float is the integer it holds, a real. -/
theorem lab_real (i : S2048x19.Idx) : IsReal (val_main_v0 (F := Ideal) x1 i) := by
  rw [val_main_v0_apply]
  exact ⟨(((x1 i).toInt : ℤ) : ℝ), rfl⟩

/-- The transposed labels are labels. -/
theorem labT_real (i : S19x2048.Idx) : IsReal (val_main_v9 (F := Ideal) x1 i) := by
  rw [val_main_v9_apply]; exact lab_real x1 _

/-- A dot product of two label rows is a real. -/
theorem dot_real (i : S2048x2048.Idx) : IsReal (val_main_v10 (F := Ideal) x1 i) := by
  rw [val_main_v10_apply]
  exact IsReal.sum _ _ fun k => (lab_real x1 _).mul (labT_real x1 _)

/-- A squared label is a nonnegative real. -/
theorem labsq_nonneg (i : S2048x19.Idx) : IsNonneg (val_main_call0_v0 (F := Ideal) x1 i) := by
  rw [val_main_call0_v0_apply, Ideal.mulf_def]; exact (lab_real x1 i).mul_self

/-- A row's sum of squares is a nonnegative real. -/
theorem sumsq_nonneg (i : S2048.Idx) : IsNonneg (val_main_call0_v1 (F := Ideal) x1 i) := by
  rw [val_main_call0_v1_apply, val_main_call0_cst_apply, Ideal.ofBits_def, ofBits_zero]
  exact IsNonneg.zero.add (IsNonneg.sum _ _ fun k => labsq_nonneg x1 _)

/-- A row's norm is a nonnegative real. -/
theorem nrm_nonneg (i : S2048.Idx) : IsNonneg (val_main_v1 (F := Ideal) x1 i) := by
  rw [val_main_v1_apply, Ideal.hostUnary_sqrt_def]; exact (sumsq_nonneg x1 i).sqrt

/-- The product of two rows' norms is a real. -/
theorem nrmprod_real (i : S2048x2048.Idx) : IsReal (val_main_v6 (F := Ideal) x1 i) := by
  rw [val_main_v6_apply, Ideal.mulf_def, val_main_v4_apply, val_main_v5_apply, val_main_v2_apply, val_main_v3_apply]
  exact ((nrm_nonneg x1 _).mul (nrm_nonneg x1 _)).isReal

/-- The denominator, the larger of the product of the norms and the small constant, is a positive real. -/
theorem den_pos (i : S2048x2048.Idx) : IsPos (val_main_v8 (F := Ideal) x1 i) := by
  rw [val_main_v8_apply, Ideal.maximumf_def, val_main_v7_apply, val_main_cst_apply, Ideal.ofBits_def]
  exact IsPos.max_right (nrmprod_real x1 i) ofBits_eps_pos

/-- Every entry of the label-similarity matrix is a real. -/
theorem mskOf_finite (a b : Fin 2048) : ∃ r : ℝ, mskOf x1 a b = (r : EReal) := by
  show IsReal (val_main_v11 (F := Ideal) x1 (ix2 a b))
  rw [val_main_v11_apply, Ideal.hostDivf_def]
  exact (dot_real x1 _).div (den_pos x1 _)

end Labels

/-! ### The stacked features -/

/-- Every entry of the stacked features is an entry of the feature argument, a real when those are. -/
theorem cfOf_finite (x0 : (⟨S2048x2x512, .f32⟩ : BufTy).Contents (Elt Ideal)) (h : ∀ i, ∃ r : ℝ, x0 i = (r : EReal))
    (n : Fin 4096) (d : Fin 512) : ∃ r : ℝ, cfOf x0 n d = (r : EReal) := by
  show ∃ r : ℝ, val_main_v13 (F := Ideal) x0 (ix2 n d) = (r : EReal)
  rw [val_main_v13_apply, val_main_v12_apply]
  exact h _

/-! ### The precondition -/

/-- The precondition, that the absolute value of every entry of the features is below plus infinity, makes
    every entry a real. -/
theorem finite_of_pre [Cert.Pre_finite_inputs.Facts]
    (x0 : (⟨Cert.Pre_finite_inputs.S2048x2x512, .f32⟩ : BufTy).Contents (Elt Ideal))
    (x1 : (⟨Cert.Pre_finite_inputs.S2048x19, .i32⟩ : BufTy).Contents (Elt Ideal))
    (h : Cert.Pre_finite_inputs.fn (F := Ideal) x0 x1 = fun _ => 1#1) : ∀ i, ∃ r : ℝ, x0 i = (r : EReal) := by
  intro i
  have h0 := congrFun h ix0
  dsimp only [Cert.Pre_finite_inputs.fn] at h0
  haveI : Subsingleton Cert.Pre_finite_inputs.S_.Idx := ⟨fun a b => funext fun d => d.elim0⟩
  have h1 := Host.reduce_andi_all _ _ _ _ _ h0 i
  have h2 : Ideal.cmp .olt (max (x0 i) (-(x0 i))) (Ideal.ofBits .f32 0x7F800000#32) = 1#1 := h1
  rw [ofBits_inf] at h2
  have h3 : max (x0 i) (-(x0 i)) < ⊤ := by
    by_contra hn
    simp [Ideal.cmp, hn] at h2
  generalize x0 i = x at h3
  induction x using EReal.rec with
  | bot => simp at h3
  | coe r => exact ⟨r, rfl⟩
  | top => simp at h3

end Cert.ReferenceIdeal.RefValue

end
-- ==== Proof.OnlineSoftmax.lean ====
/-
  The tile-by-tile row (running maximum, rescaled running sum of exponentials) equals the whole-row
  computation, over the extended reals, when every logit and weight is a finite real, the own-column
  indicator is 0 or 1, and at least one column is not the row's own.
-/
import proofs.«429412_j87256555585551_1_alg».proof.Proof.Spec

noncomputable section

namespace Cert.Spec

open Idealize.ShloMosaic

variable {ι : Type} [Fintype ι]

/-- The coercion of a finite real sum is the sum of the coercions. -/
theorem coe_finsum {α : Type} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- A sum over the first `n + 1` tiles is the sum over the first `n` plus the last tile's. -/
theorem sum_tiles_succ {β : Type} [AddCommMonoid β] (f : ℕ × ι → β) (n : ℕ) :
    ∑ p ∈ Finset.range (n + 1) ×ˢ (Finset.univ : Finset ι), f p
      = ∑ p ∈ Finset.range n ×ˢ (Finset.univ : Finset ι), f p + ∑ j, f (n, j) := by
  rw [Finset.sum_product, Finset.sum_range_succ, ← Finset.sum_product]

/-- The maximum of the logits of the first `n` tiles. -/
def rowMax (lg : ℕ → ι → EReal) (n : ℕ) : EReal :=
  (Finset.range n ×ˢ (Finset.univ : Finset ι)).fold max ⊥ (fun p => lg p.1 p.2)

theorem rowMax_succ (lg : ℕ → ι → EReal) (n : ℕ) :
    rowMax lg (n + 1) = max (rowMax lg n) (Finset.univ.fold max ⊥ (lg n)) := by
  refine eq_of_forall_ge_iff fun c => ?_
  simp only [rowMax, Finset.fold_max_le, max_le_iff, Finset.mem_product, Finset.mem_range,
    Finset.mem_univ, and_true, bot_le, true_and, Prod.forall, Nat.lt_succ_iff]
  constructor
  · intro h
    exact ⟨fun k j hk => h k j (Nat.le_of_lt hk), fun j _ => h n j le_rfl⟩
  · rintro ⟨h1, h2⟩ k j hk
    rcases Nat.lt_or_eq_of_le hk with hlt | rfl
    · exact h1 k j hlt
    · exact h2 j trivial

/-- One term of the sum of exponentials, on reals. -/
theorem exp_sub_mul_coe (a b e : ℝ) :
    Ideal.exp ((a : EReal) - (b : EReal)) * (1 - (e : EReal))
      = ((Real.exp (a - b) * (1 - e) : ℝ) : EReal) := by
  rw [← EReal.coe_sub, Ideal.exp_coe, ← EReal.coe_one, ← EReal.coe_sub, ← EReal.coe_mul]

/-- The row maximum of finite logits is not `⊤`. -/
theorem rowMax_ne_top (lg : ℕ → ι → EReal) (L : ℕ → ι → ℝ) (n : ℕ)
    (hL : ∀ k < n, ∀ j, lg k j = (L k j : EReal)) : rowMax lg n ≠ ⊤ := by
  refine ne_of_lt ?_
  rw [rowMax, Finset.fold_max_lt]
  refine ⟨bot_lt_top, ?_⟩
  rintro ⟨k, j⟩ hp
  rw [Finset.mem_product, Finset.mem_range] at hp
  rw [hL k hp.1 j]
  exact EReal.coe_lt_top _

/-- The row maximum over at least one finite logit is not `⊥`. -/
theorem rowMax_ne_bot [Nonempty ι] (lg : ℕ → ι → EReal) (L : ℕ → ι → ℝ) (n : ℕ) (hn : 0 < n)
    (hL : ∀ k < n, ∀ j, lg k j = (L k j : EReal)) : rowMax lg n ≠ ⊥ := by
  refine ne_of_gt ?_
  rw [rowMax, Finset.lt_fold_max]
  refine Or.inr ⟨(0, Classical.arbitrary ι), ?_, ?_⟩
  · simp [hn]
  · rw [hL 0 hn]
    exact EReal.bot_lt_coe _

/-- What the state after `n` tiles holds, for real logits `L`, weights `K` and indicators `E`:
    the row maximum so far, the two weight sums, and the sum of exponentials, which rescaled to any
    real reference point `M'` is the sum of `exp (L - M') (1 - E)` over the columns so far. -/
structure Inv (lg : ℕ → ι → EReal) (L K E : ℕ → ι → ℝ) (n : ℕ) (s : RowState) : Prop where
  mx : s.mx = rowMax lg n
  ws : s.ws = ((∑ p ∈ Finset.range n ×ˢ (Finset.univ : Finset ι),
      (K p.1 p.2 * (1 - E p.1 p.2)) * L p.1 p.2 : ℝ) : EReal)
  ms : s.ms = ((∑ p ∈ Finset.range n ×ˢ (Finset.univ : Finset ι),
      K p.1 p.2 * (1 - E p.1 p.2) : ℝ) : EReal)
  se_real : ∃ S : ℝ, s.se = (S : EReal)
  se : ∀ M' : ℝ, Ideal.exp (s.mx - (M' : EReal)) * s.se
      = ((∑ p ∈ Finset.range n ×ˢ (Finset.univ : Finset ι),
          Real.exp (L p.1 p.2 - M') * (1 - E p.1 p.2) : ℝ) : EReal)

theorem inv_init (lg : ℕ → ι → EReal) (L K E : ℕ → ι → ℝ) : Inv lg L K E 0 RowState.init := by
  refine ⟨?_, ?_, ?_, ⟨0, ?_⟩, ?_⟩ <;> simp [RowState.init, rowMax]

theorem inv_step [Nonempty ι] (lg mk ey : ℕ → ι → EReal) (L K E : ℕ → ι → ℝ) (n : ℕ) (s : RowState)
    (hL : ∀ k < n + 1, ∀ j, lg k j = (L k j : EReal))
    (hK : ∀ j, mk n j = (K n j : EReal))
    (hE : ∀ j, ey n j = (E n j : EReal))
    (h : Inv lg L K E n s) :
    Inv lg L K E (n + 1) (RowState.step (lg n) (mk n) (ey n) s) := by
  have hmx : max s.mx (Finset.univ.fold max ⊥ (lg n)) = rowMax lg (n + 1) := by
    rw [h.mx, rowMax_succ]
  obtain ⟨M1, hM1⟩ : ∃ M1 : ℝ, rowMax lg (n + 1) = (M1 : EReal) :=
    ⟨_, (EReal.coe_toReal (rowMax_ne_top lg L (n + 1) hL)
      (rowMax_ne_bot lg L (n + 1) (Nat.succ_pos n) hL)).symm⟩
  obtain ⟨S, hS⟩ := h.se_real
  -- the new sum of exponentials, as a real
  have hse : (RowState.step (lg n) (mk n) (ey n) s).se
      = ((∑ p ∈ Finset.range (n + 1) ×ˢ (Finset.univ : Finset ι),
          Real.exp (L p.1 p.2 - M1) * (1 - E p.1 p.2) : ℝ) : EReal) := by
    show Ideal.exp (s.mx - max s.mx (Finset.univ.fold max ⊥ (lg n))) * s.se
        + ∑ j, Ideal.exp (lg n j - max s.mx (Finset.univ.fold max ⊥ (lg n))) * (1 - ey n j) = _
    rw [hmx, hM1, h.se M1, sum_tiles_succ, EReal.coe_add, coe_finsum Finset.univ]
    congr 1
    refine Finset.sum_congr rfl fun j _ => ?_
    rw [hL n (Nat.lt_succ_self n) j, hE j, exp_sub_mul_coe]
  refine ⟨hmx, ?_, ?_, ⟨_, hse⟩, ?_⟩
  · show s.ws + ∑ j, (mk n j * (1 - ey n j)) * lg n j = _
    rw [h.ws, sum_tiles_succ, EReal.coe_add, coe_finsum Finset.univ]
    congr 1
    refine Finset.sum_congr rfl fun j _ => ?_
    rw [hL n (Nat.lt_succ_self n) j, hE j, hK j, ← EReal.coe_one, ← EReal.coe_sub, ← EReal.coe_mul,
      ← EReal.coe_mul]
  · show s.ms + ∑ j, mk n j * (1 - ey n j) = _
    rw [h.ms, sum_tiles_succ, EReal.coe_add, coe_finsum Finset.univ]
    congr 1
    refine Finset.sum_congr rfl fun j _ => ?_
    rw [hE j, hK j, ← EReal.coe_one, ← EReal.coe_sub, ← EReal.coe_mul]
  · intro M'
    rw [hse]
    show Ideal.exp (max s.mx (Finset.univ.fold max ⊥ (lg n)) - (M' : EReal)) * _ = _
    rw [hmx, hM1, ← EReal.coe_sub, Ideal.exp_coe, ← EReal.coe_mul, Finset.mul_sum]
    congr 1
    refine Finset.sum_congr rfl fun p _ => ?_
    rw [← mul_assoc, ← Real.exp_add]
    congr 2
    ring

/-- The state after `n` tiles of finite logits, finite weights and real indicators. -/
theorem tileState_inv [Nonempty ι] (lg mk ey : ℕ → ι → EReal) (L K E : ℕ → ι → ℝ) (n : ℕ)
    (hL : ∀ k < n, ∀ j, lg k j = (L k j : EReal))
    (hK : ∀ k < n, ∀ j, mk k j = (K k j : EReal))
    (hE : ∀ k < n, ∀ j, ey k j = (E k j : EReal)) :
    Inv lg L K E n (tileState lg mk ey n) := by
  induction n with
  | zero => exact inv_init lg L K E
  | succ n ih =>
    exact inv_step lg mk ey L K E n _ hL (hK n (Nat.lt_succ_self n)) (hE n (Nat.lt_succ_self n))
      (ih (fun k hk => hL k (Nat.lt_succ_of_lt hk)) (fun k hk => hK k (Nat.lt_succ_of_lt hk))
        (fun k hk => hE k (Nat.lt_succ_of_lt hk)))

/-- Dividing by the weight sum and then subtracting two finite constants is dividing the shifted
    numerator: at a nonzero weight sum by the field laws, and at a zero one because both sides are
    the infinity picked by the sign of the same numerator. -/
theorem div_sub_const (W A c1 c2 : ℝ) :
    Ideal.div (W : EReal) (A : EReal) - (c1 : EReal) - (c2 : EReal)
      = Ideal.div ((W - (c1 + c2) * A : ℝ) : EReal) (A : EReal) := by
  by_cases hA : A = 0
  · subst hA
    simp only [mul_zero, sub_zero]
    rw [Ideal.div, if_pos EReal.coe_zero]
    split_ifs
    · rw [EReal.top_sub_coe, EReal.top_sub_coe]
    · rw [EReal.bot_sub, EReal.bot_sub]
  · rw [Ideal.div_coe hA, Ideal.div_coe hA, ← EReal.coe_mul, ← EReal.coe_sub, ← EReal.coe_sub,
      ← EReal.coe_mul]
    congr 1
    field_simp
    ring

/-- The two rows agree, stated with real witnesses for the logits, weights and indicators. -/
theorem tileRow_eq_wholeRow_real [Nonempty ι] (lg mk ey : ℕ → ι → EReal) (L K E : ℕ → ι → ℝ) (n : ℕ)
    (hL : ∀ k < n, ∀ j, lg k j = (L k j : EReal))
    (hK : ∀ k < n, ∀ j, mk k j = (K k j : EReal))
    (hE : ∀ k < n, ∀ j, ey k j = (E k j : EReal))
    (hE01 : ∀ k < n, ∀ j, E k j = 0 ∨ E k j = 1)
    (hex : ∃ k < n, ∃ j, E k j = 0) :
    tileRow lg mk ey n = wholeRow lg mk ey n := by
  obtain ⟨k0, hk0, j0, he0⟩ := hex
  have hn : 0 < n := Nat.lt_of_le_of_lt (Nat.zero_le k0) hk0
  have inv := tileState_inv lg mk ey L K E n hL hK hE
  obtain ⟨M, hM⟩ : ∃ M : ℝ, rowMax lg n = (M : EReal) :=
    ⟨_, (EReal.coe_toReal (rowMax_ne_top lg L n hL) (rowMax_ne_bot lg L n hn hL)).symm⟩
  -- the sum of exponentials relative to the row maximum, and the two weight sums
  obtain ⟨SE, hSE⟩ : ∃ SE : ℝ, SE = ∑ p ∈ Finset.range n ×ˢ (Finset.univ : Finset ι),
      Real.exp (L p.1 p.2 - M) * (1 - E p.1 p.2) := ⟨_, rfl⟩
  obtain ⟨W, hW⟩ : ∃ W : ℝ, W = ∑ p ∈ Finset.range n ×ˢ (Finset.univ : Finset ι),
      (K p.1 p.2 * (1 - E p.1 p.2)) * L p.1 p.2 := ⟨_, rfl⟩
  obtain ⟨A, hA⟩ : ∃ A : ℝ, A = ∑ p ∈ Finset.range n ×ˢ (Finset.univ : Finset ι),
      K p.1 p.2 * (1 - E p.1 p.2) := ⟨_, rfl⟩
  have hse : (tileState lg mk ey n).se = (SE : EReal) := by
    have h := inv.se M
    rw [inv.mx, hM, ← EReal.coe_sub, sub_self, Ideal.exp_coe, Real.exp_zero, EReal.coe_one,
      one_mul, ← hSE] at h
    exact h
  have hSEpos : 0 < SE := by
    rw [hSE]
    refine Finset.sum_pos' ?_ ⟨(k0, j0), ?_, ?_⟩
    · rintro ⟨k, j⟩ hp
      rw [Finset.mem_product, Finset.mem_range] at hp
      refine mul_nonneg (Real.exp_pos _).le ?_
      rcases hE01 k hp.1 j with h | h <;> simp [h]
    · simp [hk0]
    · simp [he0, Real.exp_pos]
  have hlog : Ideal.log (SE : EReal) = ((Real.log SE : ℝ) : EReal) := by
    rw [Ideal.log_coe, if_neg (not_le.mpr hSEpos)]
  -- the pieces of the whole row
  have hwse : ∑ p ∈ Finset.range n ×ˢ (Finset.univ : Finset ι),
      Ideal.exp (lg p.1 p.2 - (M : EReal)) * (1 - ey p.1 p.2) = (SE : EReal) := by
    rw [hSE, coe_finsum]
    refine Finset.sum_congr rfl ?_
    rintro ⟨k, j⟩ hp
    rw [Finset.mem_product, Finset.mem_range] at hp
    show Ideal.exp (lg k j - (M : EReal)) * (1 - ey k j) = _
    rw [hL k hp.1 j, hE k hp.1 j, exp_sub_mul_coe]
  have hwnum : ∑ p ∈ Finset.range n ×ˢ (Finset.univ : Finset ι),
      (mk p.1 p.2 * (1 - ey p.1 p.2)) * ((lg p.1 p.2 - (M : EReal)) - ((Real.log SE : ℝ) : EReal))
      = ((W - (M + Real.log SE) * A : ℝ) : EReal) := by
    have h : W - (M + Real.log SE) * A = ∑ p ∈ Finset.range n ×ˢ (Finset.univ : Finset ι),
        (K p.1 p.2 * (1 - E p.1 p.2)) * (L p.1 p.2 - M - Real.log SE) := by
      rw [hW, hA, Finset.mul_sum, ← Finset.sum_sub_distrib]
      refine Finset.sum_congr rfl fun p _ => ?_
      ring
    rw [h, coe_finsum]
    refine Finset.sum_congr rfl ?_
    rintro ⟨k, j⟩ hp
    rw [Finset.mem_product, Finset.mem_range] at hp
    show (mk k j * (1 - ey k j)) * ((lg k j - (M : EReal)) - _) = _
    rw [hL k hp.1 j, hE k hp.1 j, hK k hp.1 j, ← EReal.coe_one, ← EReal.coe_sub, ← EReal.coe_sub,
      ← EReal.coe_sub, ← EReal.coe_mul, ← EReal.coe_mul]
  have hwden : ∑ p ∈ Finset.range n ×ˢ (Finset.univ : Finset ι), mk p.1 p.2 * (1 - ey p.1 p.2)
      = (A : EReal) := by
    rw [hA, coe_finsum]
    refine Finset.sum_congr rfl ?_
    rintro ⟨k, j⟩ hp
    rw [Finset.mem_product, Finset.mem_range] at hp
    show mk k j * (1 - ey k j) = _
    rw [hE k hp.1 j, hK k hp.1 j, ← EReal.coe_one, ← EReal.coe_sub, ← EReal.coe_mul]
  have hwM : (Finset.range n ×ˢ (Finset.univ : Finset ι)).fold max ⊥ (fun p => lg p.1 p.2)
      = (M : EReal) := hM
  -- assemble
  unfold tileRow wholeRow
  dsimp only
  rw [hwM, hwse, hlog, hwnum, hwden, inv.ws, inv.ms, inv.mx, hM, hse, hlog, ← hW, ← hA,
    div_sub_const]

/-- The tile-by-tile row is the whole row. -/
theorem tileRow_eq_wholeRow (lg mk ey : ℕ → ι → EReal) (n : ℕ)
    (hlg : ∀ k < n, ∀ j, ∃ r : ℝ, lg k j = (r : EReal))
    (hmk : ∀ k < n, ∀ j, ∃ r : ℝ, mk k j = (r : EReal))
    (hey : ∀ k < n, ∀ j, ey k j = 0 ∨ ey k j = 1)
    (hex : ∃ k < n, ∃ j, ey k j = 0) :
    tileRow lg mk ey n = wholeRow lg mk ey n := by
  obtain ⟨k0, hk0, j0, he0⟩ := hex
  haveI : Nonempty ι := ⟨j0⟩
  refine tileRow_eq_wholeRow_real lg mk ey (fun k j => (lg k j).toReal) (fun k j => (mk k j).toReal)
    (fun k j => (ey k j).toReal) n ?_ ?_ ?_ ?_ ⟨k0, hk0, j0, ?_⟩
  · intro k hk j
    obtain ⟨r, hr⟩ := hlg k hk j
    rw [hr, EReal.toReal_coe]
  · intro k hk j
    obtain ⟨r, hr⟩ := hmk k hk j
    rw [hr, EReal.toReal_coe]
  · intro k hk j
    rcases hey k hk j with h | h <;> simp [h]
  · intro k hk j
    rcases hey k hk j with h | h <;> simp [h]
  · simp [he0]

end Cert.Spec

end
-- ==== Proof.KI.LossEq.lean ====
/-
  The kernel's rows, taken tile by tile over the arrays the region finds, are the reference's rows' losses, and
  their mean is the loss. The region's two arrays are the reference's two arrays entry by entry; over arrays of
  reals a row's eight tiles taken one after the other are the whole row at once, since every logit is a finite
  sum of products of reals times a real, every weight a real, the own-column indicator 0 or 1, and some column
  among the first 512 is not the row's own.
-/
import proofs.«429412_j87256555585551_1_alg».proof.Proof.KI.RowInv
import proofs.«429412_j87256555585551_1_alg».proof.Proof.KI.HostGlue
import proofs.«429412_j87256555585551_1_alg».proof.Proof.Finite
import proofs.«429412_j87256555585551_1_alg».proof.Proof.OnlineSoftmax

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.ReferenceIdeal.RefValue

variable (m : (ℓ : Loc nD τ sig) → Buf (Elt Ideal) ℓ) (c : Dev nD)

/-! ## The row mathematics over any two finite arrays -/

/-- Over stacked features and a similarity matrix whose entries are all reals, a row's eight tiles taken one after
    the other give the row's loss: every logit is a finite sum of products of reals times the inverse temperature,
    every weight is an entry of the matrix, the indicator is 0 or 1, and among the first 512 columns one is not the
    row's own (column 0, or column 1 for row 0). -/
theorem tileRow_rowLoss_of_real (cf : Fin 4096 → Fin 512 → EReal) (msk : Fin 2048 → Fin 2048 → EReal)
    (hcf : ∀ n d, ∃ r : ℝ, cf n d = (r : EReal)) (hmsk : ∀ a b, ∃ r : ℝ, msk a b = (r : EReal)) (i : Fin 4096) :
    Cert.Spec.tileRow (Cert.Spec.lgt cf i) (Cert.Spec.mkt msk i) (Cert.Spec.eyt i) 8 = Cert.Spec.rowLoss cf msk i := by
  unfold Cert.Spec.rowLoss
  refine Cert.Spec.tileRow_eq_wholeRow _ _ _ 8 ?_ ?_ ?_ ?_
  · intro k _ j
    show IsReal (Cert.Spec.score cf i (Cert.Spec.col k j) * Cert.Spec.invT)
    refine IsReal.mul ?_ ⟨_, rfl⟩
    unfold Cert.Spec.score
    exact IsReal.sum _ _ fun d => IsReal.mul (hcf i d) (hcf _ d)
  · intro k _ j
    exact hmsk _ _
  · intro k _ j
    unfold Cert.Spec.eyt
    by_cases h : i = Cert.Spec.col k j
    · right; rw [if_pos h]
    · left; rw [if_neg h]
  · refine ⟨0, by decide, ?_⟩
    by_cases hi : i.val = 0
    · refine ⟨⟨1, by decide⟩, ?_⟩
      unfold Cert.Spec.eyt
      refine if_neg fun h => ?_
      have hv := congrArg Fin.val h
      rw [hi] at hv
      exact absurd hv (by decide)
    · refine ⟨⟨0, by decide⟩, ?_⟩
      unfold Cert.Spec.eyt
      refine if_neg fun h => ?_
      have hv := congrArg Fin.val h
      exact hi hv

/-! ## The kernel's two arrays are the reference's -/

theorem cfK_eq : cfK m c = cfOf (m ((c.tc : Thread nD τ).loc main_arg0)) :=
  funext fun n => funext fun d => V_feat m c n d

theorem mskK_eq : mskK m c = mskOf (m ((c.tc : Thread nD τ).loc main_arg1)) :=
  funext fun a => funext fun b => V_mask m c a b

/-- A row's eight tiles over the kernel's arrays give the row's loss over the reference's. -/
theorem tileRow_rowLoss (hfin : ∀ i, ∃ r : ℝ, (m ((c.tc : Thread nD τ).loc main_arg0) : S2048x2x512.Idx → EReal) i = (r : EReal)) (i : Fin 4096) :
    Cert.Spec.tileRow (Cert.Spec.lgt (cfK m c) i) (Cert.Spec.mkt (mskK m c) i) (Cert.Spec.eyt i) 8
      = Cert.Spec.rowLoss (Cert.ReferenceIdeal.RefValue.cfOf (m ((c.tc : Thread nD τ).loc main_arg0))) (Cert.ReferenceIdeal.RefValue.mskOf (m ((c.tc : Thread nD τ).loc main_arg1))) i := by
  rw [cfK_eq, mskK_eq]
  exact tileRow_rowLoss_of_real _ _ (fun n d => cfOf_finite _ hfin n d) (fun a b => mskOf_finite _ a b) i

/-- The mean of the 4096 rows' tile-by-tile values is the loss. -/
theorem sum_rows_loss (hfin : ∀ i, ∃ r : ℝ, (m ((c.tc : Thread nD τ).loc main_arg0) : S2048x2x512.Idx → EReal) i = (r : EReal)) :
    Ideal.div (∑ i : Fin 4096, Cert.Spec.tileRow (Cert.Spec.lgt (cfK m c) i) (Cert.Spec.mkt (mskK m c) i) (Cert.Spec.eyt i) 8) ((4096 : ℝ) : EReal)
      = Cert.Spec.loss (Cert.ReferenceIdeal.RefValue.cfOf (m ((c.tc : Thread nD τ).loc main_arg0))) (Cert.ReferenceIdeal.RefValue.mskOf (m ((c.tc : Thread nD τ).loc main_arg1))) := by
  unfold Cert.Spec.loss
  exact congrArg (fun s => Ideal.div s ((4096 : ℝ) : EReal)) (Finset.sum_congr rfl fun i _ => tileRow_rowLoss m c hfin i)

end Cert.KernelIdeal.Hand

end
-- ==== Proof.lean ====
/-
  The certificate: a supervised contrastive loss over 4096 rows (two views of 2048 samples, weighted by the
  cosine similarity of the samples' label vectors), computed by a kernel that visits the 4096 × 4096 logits in
  512 × 512 tiles with a running maximum and a rescaled running sum of exponentials per row, against the
  reference that forms the whole matrix. Both are the mean over the rows of the same row loss
  (`Cert.Spec.loss`): the kernel's tile-by-tile row is the whole row (`Cert.Spec.tileRow_eq_wholeRow`) because
  every logit and weight is a finite real, and the kernel's product with the inverse temperature is the
  reference's quotient by the temperature because the constant is named that inverse exactly.
  The three frames: each program runs to its end and leaves its two arguments unchanged.
-/
import proofs.«429412_j87256555585551_1_alg».proof.Defs
import proofs.«429412_j87256555585551_1_alg».proof.Proof.Gen.Kernel
import proofs.«429412_j87256555585551_1_alg».proof.Proof.Gen.KernelIdeal
import proofs.«429412_j87256555585551_1_alg».proof.Proof.Gen.ReferenceIdeal
import proofs.«429412_j87256555585551_1_alg».proof.Proof.Gen.Pre_finite_inputs
import proofs.«429412_j87256555585551_1_alg».proof.Proof.K.Frame
import proofs.«429412_j87256555585551_1_alg».proof.Proof.KI.Frame
import proofs.«429412_j87256555585551_1_alg».proof.Proof.KI.Result
import proofs.«429412_j87256555585551_1_alg».proof.Proof.KI.LossEq
import proofs.«429412_j87256555585551_1_alg».proof.Proof.RefLoss
import proofs.«429412_j87256555585551_1_alg».proof.Proof.Finite

noncomputable section

namespace Cert.Proof

open Idealize.ShloMosaic Idealize.ShloMosaic.TcCoe Idealize.SL.Sem

/-- The word-level kernel program runs and keeps its arguments. -/
theorem frame_k [Cert.Kernel.Facts] [Cert.Pre_finite_inputs.Facts] : Cert.frame_Kernel :=
  fun m ρ _ => Cert.Kernel.Hand.frame (F := Bits) m ρ

/-- So does its idealization. -/
theorem frame_ki [Cert.KernelIdeal.Facts] [Cert.Pre_finite_inputs.Facts] : Cert.frame_KernelIdeal :=
  fun m ρ _ => Cert.KernelIdeal.Hand.frame (F := Ideal) m ρ

/-- And the reference: its run, the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The one rewrite of the idealization: the kernel's folded reciprocal of the temperature is named the exact
    reciprocal of the temperature the reference divides by. -/
theorem preserves : Cert.preserves_Kernel_KernelIdeal :=
  IdealRules.named_const.statement Cert.KernelIdeal.κ "inv_temperature" .f32 0x41649249#32 ((134217728 / 9395241 : ℝ) : EReal) rfl

/-- Both programs end with the loss of the stacked features and the label-similarity matrix. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => fun _ => Cert.Spec.loss
      (Cert.ReferenceIdeal.RefValue.cfOf (m ((c.tc : Thread Cert.KernelIdeal.nD Cert.KernelIdeal.τ).loc Cert.KernelIdeal.main_arg0)))
      (Cert.ReferenceIdeal.RefValue.mskOf (m ((c.tc : Thread Cert.KernelIdeal.nD Cert.KernelIdeal.τ).loc Cert.KernelIdeal.main_arg1))), ?_, ?_⟩
  · refine (θ_run Cert.KernelIdeal.defs _ _).mono (fun r h c => ⟨?_, ?_, ?_⟩) (Cert.KernelIdeal.Hand.run_main (F := Ideal) m ρ)
    · refine ((h c).2 Cert.KernelIdeal.main_v17 (Pipeline.mem_restRefs_of Cert.KernelIdeal.main_v17 (by decide) (by decide))).trans ?_
      refine (Cert.KernelIdeal.Hand.result_val m c).trans ?_
      funext _
      exact Cert.KernelIdeal.Hand.sum_rows_loss m c (Cert.ReferenceIdeal.RefValue.finite_of_pre _ _ (hpre c))
    · exact ((h c).2 Cert.KernelIdeal.main_arg0 (Pipeline.mem_restRefs_of Cert.KernelIdeal.main_arg0 (by decide) (by decide))).trans
        (Cert.KernelIdeal.Hand.W_main_arg0 m c)
    · exact ((h c).2 Cert.KernelIdeal.main_arg1 (Pipeline.mem_restRefs_of Cert.KernelIdeal.main_arg1 (by decide) (by decide))).trans
        (Cert.KernelIdeal.Hand.W_main_arg1 m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v49_eq, Cert.ReferenceIdeal.RefValue.result_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
